-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S400000 : Shape := ⟨1, ![400000]⟩
abbrev S262x128 : Shape := ⟨2, ![262, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S400000 : S_.BroadcastsInDim S400000 (![] : Fin 0 → Fin S400000.rank)
  reducesTo_S400000_S_d0 : S400000.ReducesTo [0] S_
  bcast_S_S262x128 : S_.BroadcastsInDim S262x128 (![] : Fin 0 → Fin S262x128.rank)
  reducesTo_S262x128_S_d0_1 : S262x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S128x1 .f32) (main_arg21 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg20
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S128x128 .f32) (main_arg17 : FVec F S128 .f32) (main_arg18 : FVec F S128x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_v63 main_v67

def fn_part2 {F : FTy → Type} [FloatOps F] (main_arg9 : FVec F S400000 .f32) (main_arg10 : FVec F S262x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S400000 .f32 := Host.absf main_arg9
  let main_cst_12 : FVec F S_ .f32 := constant S_ .f32 0x7F800000#32
  let main_v35 : FVec F S400000 .f32 := broadcastInDim S400000 ![] bcast_S_S400000 main_cst_12
  let main_v36 : IVec S400000 1 := cmpf .olt main_v34 main_v35
  let main_c_13 : IVec S_ 1 := constantI S_ 1 1#1
  let main_v37 : IVec S_ 1 := (fun x v => Host.reduce IntOp.andi x v reducesTo_S400000_S_d0 h_S_) main_v36 main_c_13
  let main_v38 : IVec S_ 1 := andi main_v33 main_v37
  let main_v39 : FVec F S262x128 .f32 := Host.absf main_arg10
  let main_cst_14 : FVec F S_ .f32 := constant S_ .f32 0x7F800000#32
  let main_v40 : FVec F S262x128 .f32 := broadcastInDim S262x128 ![] bcast_S_S262x128 main_cst_14
  let main_v41 : IVec S262x128 1 := cmpf .olt main_v39 main_v40
  let main_c_15 : IVec S_ 1 := constantI S_ 1 1#1
  let main_v42 : IVec S_ 1 := (fun x v => Host.reduce IntOp.andi x v reducesTo_S262x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S400000 .f32) (main_arg7 : FVec F S400000 .f32) (main_arg8 : FVec F S400000 .f32) (main_arg9 : FVec F S400000 .f32) (main_arg10 : FVec F S262x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S400000 .f32 := Host.absf main_arg6
  let main_cst_6 : FVec F S_ .f32 := constant S_ .f32 0x7F800000#32
  let main_v20 : FVec F S400000 .f32 := broadcastInDim S400000 ![] bcast_S_S400000 main_cst_6
  let main_v21 : IVec S400000 1 := cmpf .olt main_v19 main_v20
  let main_c_7 : IVec S_ 1 := constantI S_ 1 1#1
  let main_v22 : IVec S_ 1 := (fun x v => Host.reduce IntOp.andi x v reducesTo_S400000_S_d0 h_S_) main_v21 main_c_7
  let main_v23 : IVec S_ 1 := andi main_v18 main_v22
  let main_v24 : FVec F S400000 .f32 := Host.absf main_arg7
  let main_cst_8 : FVec F S_ .f32 := constant S_ .f32 0x7F800000#32
  let main_v25 : FVec F S400000 .f32 := broadcastInDim S400000 ![] bcast_S_S400000 main_cst_8
  let main_v26 : IVec S400000 1 := cmpf .olt main_v24 main_v25
  let main_c_9 : IVec S_ 1 := constantI S_ 1 1#1
  let main_v27 : IVec S_ 1 := (fun x v => Host.reduce IntOp.andi x v reducesTo_S400000_S_d0 h_S_) main_v26 main_c_9
  let main_v28 : IVec S_ 1 := andi main_v23 main_v27
  let main_v29 : FVec F S400000 .f32 := Host.absf main_arg8
  let main_cst_10 : FVec F S_ .f32 := constant S_ .f32 0x7F800000#32
  let main_v30 : FVec F S400000 .f32 := broadcastInDim S400000 ![] bcast_S_S400000 main_cst_10
  let main_v31 : IVec S400000 1 := cmpf .olt main_v29 main_v30
  let main_c_11 : IVec S_ 1 := constantI S_ 1 1#1
  let main_v32 : IVec S_ 1 := (fun x v => Host.reduce IntOp.andi x v reducesTo_S400000_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : FVec F S50000x3 .f32) (main_arg2 : IVec S400000 32) (main_arg3 : IVec S400000 32) (main_arg4 : FVec F S400000 .f32) (main_arg5 : FVec F S400000 .f32) (main_arg6 : FVec F S400000 .f32) (main_arg7 : FVec F S400000 .f32) (main_arg8 : FVec F S400000 .f32) (main_arg9 : FVec F S400000 .f32) (main_arg10 : FVec F S262x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S400000 .f32 := Host.absf main_arg4
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S400000 .f32 := Host.absf main_arg5
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S50000x3 : Shape := ⟨2, ![50000, 3]⟩
abbrev S400000 : Shape := ⟨1, ![400000]⟩
abbrev S262x128 : Shape := ⟨2, ![262, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩
abbrev S400000x1 : Shape := ⟨2, ![400000, 1]⟩
abbrev S400000x128 : Shape := ⟨2, ![400000, 128]⟩
abbrev S400000x3 : Shape := ⟨2, ![400000, 3]⟩
abbrev S400000x6 : Shape := ⟨2, ![400000, 6]⟩
abbrev S6x128 : Shape := ⟨2, ![6, 128]⟩
abbrev S4000x128 : Shape := ⟨2, ![4000, 128]⟩
abbrev S4000x3 : Shape := ⟨2, ![4000, 3]⟩
abbrev S4000x6 : Shape := ⟨2, ![4000, 6]⟩
abbrev S4000x256 : Shape := ⟨2, ![4000, 256]⟩
abbrev S1x128 : Shape := ⟨2, ![1, 128]⟩
abbrev S4000x1 : Shape := ⟨2, ![4000, 1]⟩
abbrev S1x1 : Shape := ⟨2, ![1, 1]⟩
abbrev S400000x132 : Shape := ⟨2, ![400000, 132]⟩
abbrev S50000x132 : Shape := ⟨2, ![50000, 132]⟩
abbrev S50000x1 : Shape := ⟨2, ![50000, 1]⟩
abbrev S2000x128 : Shape := ⟨2, ![2000, 128]⟩
abbrev S2000x1 : Shape := ⟨2, ![2000, 1]⟩
abbrev S2000x3 : Shape := ⟨2, ![2000, 3]⟩
abbrev S2000x256 : Shape := ⟨2, ![2000, 256]⟩

abbrev nBuf : Space → Nat
  | .hbm => 91
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S400000, .i32⟩
  | .hbm, ⟨3, _⟩ => ⟨S400000, .i32⟩
  | .hbm, ⟨4, _⟩ => ⟨S400000, .f32⟩
  | .hbm, ⟨5, _⟩ => ⟨S400000, .f32⟩
  | .hbm, ⟨6, _⟩ => ⟨S400000, .f32⟩
  | .hbm, ⟨7, _⟩ => ⟨S400000, .f32⟩
  | .hbm, ⟨8, _⟩ => ⟨S400000, .f32⟩
  | .hbm, ⟨9, _⟩ => ⟨S400000, .f32⟩
  | .hbm, ⟨10, _⟩ => ⟨S262x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S256x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S50000x128, .bf16⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .bf16⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x128, .bf16⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x3, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x3, .f32⟩
  | .hbm, ⟨59, _⟩ => ⟨S400000x3, .f32⟩
  | .hbm, ⟨60, _⟩ => ⟨S400000, .f32⟩
  | .hbm, ⟨61, _⟩ => ⟨S400000x1, .f32⟩
  | .hbm, ⟨62, _⟩ => ⟨S400000x1, .f32⟩
  | .hbm, ⟨63, _⟩ => ⟨S400000x1, .f32⟩
  | .hbm, ⟨64, _⟩ => ⟨S400000x1, .f32⟩
  | .hbm, ⟨65, _⟩ => ⟨S400000x1, .f32⟩
  | .hbm, ⟨66, _⟩ => ⟨S400000x1, .f32⟩
  | .hbm, ⟨67, _⟩ => ⟨S400000x6, .f32⟩
  | .hbm, ⟨68, _⟩ => ⟨S256x128, .f32⟩
  | .hbm, ⟨69, _⟩ => ⟨S256x128, .bf16⟩
  | .hbm, ⟨70, _⟩ => ⟨S6x128, .f32⟩
  | .hbm, ⟨71, _⟩ => ⟨S6x128, .bf16⟩
  | .hbm, ⟨72, _⟩ => ⟨S128x128, .bf16⟩
  | .hbm, ⟨73, _⟩ => ⟨S128x128, .bf16⟩
  | .hbm, ⟨74, _⟩ => ⟨S128x1, .bf16⟩
  | .hbm, ⟨75, _⟩ => ⟨S400000x128, .f32⟩
  | .hbm, ⟨76, _⟩ => ⟨S400000x3, .f32⟩
  | .hbm, ⟨77, _⟩ => ⟨S_, .f32⟩
  | .hbm, ⟨78, _⟩ => ⟨S400000x1, .f32⟩
  | .hbm, ⟨79, _⟩ => ⟨S400000x132, .f32⟩
  | .hbm, ⟨80, _⟩ => ⟨S_, .f32⟩
  | .hbm, ⟨81, _⟩ => ⟨S50000x132, .f32⟩
  | .hbm, ⟨82, _⟩ => ⟨S400000x1, .i32⟩
  | .hbm, ⟨83, _⟩ => ⟨S50000x132, .f32⟩
  | .hbm, ⟨84, _⟩ => ⟨S50000x128, .f32⟩
  | .hbm, ⟨85, _⟩ => ⟨S50000x3, .f32⟩
  | .hbm, ⟨86, _⟩ => ⟨S50000x1, .f32⟩
  | .hbm, ⟨87, _⟩ => ⟨S256x128, .bf16⟩
  | .hbm, ⟨88, _⟩ => ⟨S128x128, .bf16⟩
  | .hbm, ⟨89, _⟩ => ⟨S50000x128, .f32⟩
  | .hbm, ⟨90, _⟩ => ⟨S50000x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x3, .f32⟩
  | .local _ .vmem, ⟨5, _⟩ => ⟨S4000x3, .f32⟩
  | .local _ .vmem, ⟨6, _⟩ => ⟨S4000x6, .f32⟩
  | .local _ .vmem, ⟨7, _⟩ => ⟨S4000x6, .f32⟩
  | .local _ .vmem, ⟨8, _⟩ => ⟨S256x128, .bf16⟩
  | .local _ .vmem, ⟨9, _⟩ => ⟨S6x128, .bf16⟩
  | .local _ .vmem, ⟨10, _⟩ => ⟨S128, .f32⟩
  | .local _ .vmem, ⟨11, _⟩ => ⟨S128x128, .bf16⟩
  | .local _ .vmem, ⟨12, _⟩ => ⟨S128, .f32⟩
  | .local _ .vmem, ⟨13, _⟩ => ⟨S128x128, .bf16⟩
  | .local _ .vmem, ⟨14, _⟩ => ⟨S128, .f32⟩
  | .local _ .vmem, ⟨15, _⟩ => ⟨S128x1, .bf16⟩
  | .local _ .vmem, ⟨16, _⟩ => ⟨S1, .f32⟩
  | .local _ .vmem, ⟨17, _⟩ => ⟨S4000x128, .f32⟩
  | .local _ .vmem, ⟨18, _⟩ => ⟨S4000x128, .f32⟩
  | .local _ .vmem, ⟨19, _⟩ => ⟨S4000x3, .f32⟩
  | .local _ .vmem, ⟨20, _⟩ => ⟨S4000x3, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S2000x3, .f32⟩
  | .local _ .vmem, ⟨28, _⟩ => ⟨S2000x3, .f32⟩
  | .local _ .vmem, ⟨29, _⟩ => ⟨S2000x3, .f32⟩
  | .local _ .vmem, ⟨30, _⟩ => ⟨S2000x3, .f32⟩
  | .local _ .vmem, ⟨31, _⟩ => ⟨S256x128, .bf16⟩
  | .local _ .vmem, ⟨32, _⟩ => ⟨S128, .f32⟩
  | .local _ .vmem, ⟨33, _⟩ => ⟨S128x128, .bf16⟩
  | .local _ .vmem, ⟨34, _⟩ => ⟨S128, .f32⟩
  | .local _ .vmem, ⟨35, _⟩ => ⟨S2000x128, .f32⟩
  | .local _ .vmem, ⟨36, _⟩ => ⟨S2000x128, .f32⟩
  | .local _ .vmem, ⟨37, _⟩ => ⟨S2000x3, .f32⟩
  | .local _ .vmem, ⟨38, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45_0 : Ref sig .tc := ⟨.hbm, 75, rfl⟩
abbrev main_v45_1 : Ref sig .tc := ⟨.hbm, 76, rfl⟩
abbrev main_cst : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56_0 : Ref sig .tc := ⟨.hbm, 89, rfl⟩
abbrev main_v56_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem9_1 : DmaSem sig := 36
abbrev cc1_sem10_0 : DmaSem sig := 37
abbrev cc1_sem10_1 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x1_S400000x1_S400000x1_S400000x1_S400000x6_d1 : Shape.Concatenates [S400000x1, S400000x1, S400000x1, S400000x1, S400000x1, S400000x1] S400000x6 1
  slices_S262x128_S256x128_0_0 : S262x128.Slices ![0, 0] S256x128
  slices_S262x128_S6x128_256_0 : S262x128.Slices ![256, 0] S6x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S4000x6_S4000x6_0_0 : ∀ a, (![0, 0] : Fin 2 → Nat) a + S4000x6.size a ≤ S4000x6.size a
  h_S4000x6 : 0 < S4000x6.numel
  shapeCasts_S4000x6_S4000x6 : S4000x6.ShapeCasts S4000x6
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x3 : S4000x1.Broadcasts S4000x3
  bcast_S_S400000x1 : S_.BroadcastsInDim S400000x1 (![] : Fin 0 → Fin S400000x1.rank)
  concatenates_S400000x128_S400000x3_S400000x1_S400000x132_d1 : Shape.Concatenates [S400000x128, S400000x3, S400000x1] S400000x132 1
  bcast_S_S50000x132 : S_.BroadcastsInDim S50000x132 (![] : Fin 0 → Fin S50000x132.rank)
  slices_S50000x132_S50000x128_0_0 : S50000x132.Slices ![0, 0] S50000x128
  slices_S50000x132_S50000x3_0_128 : S50000x132.Slices ![0, 128] S50000x3
  slices_S50000x132_S50000x1_0_131 : S50000x132.Slices ![0, 131] S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  concatenates_S2000x128_S2000x128_S2000x256_d1 : Shape.Concatenates [S2000x128, S2000x128] S2000x256 1
  broadcasts_S1x128_S2000x128 : S1x128.Broadcasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  broadcasts_S2000x1_S2000x3 : S2000x1.Broadcasts S2000x3
  gather_S50000x128_S400000x1_S400000x128_1_0_n_n_0_1_1128_wf : GatherDims.WF S50000x128 S400000x1 S400000x128 [1] [0] [] [0] [] 1 ![1, 128]
  gather_S50000x3_S400000x1_S400000x3_1_0_n_n_0_1_13_wf : GatherDims.WF S50000x3 S400000x1 S400000x3 [1] [0] [] [0] [] 1 ![1, 3]
  dot_S4000x256_S256x128_S4000x128_1_0_0_1_n_n_wf : DotDims.WF S4000x256 S256x128 S4000x128 [1] [0] [0] [1] [] []
  dot_S4000x6_S6x128_S4000x128_1_0_0_1_n_n_wf : DotDims.WF S4000x6 S6x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x132_S400000x1_S400000x132_1_0_0_1_wf : ScatterDims.WF S50000x132 S400000x1 S400000x132 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .bf16 = 32 ∨ (Rect.block (s := S400000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .bf16 = 32 ∨ (Rect.block (s := S400000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S400000x3.size a
  hwx0_2 : ∀ i : grid0.Coords, EltTy.bits .f32 = 32 ∨ (Rect.block (s := S400000x3) S4000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x6.size a ≤ S400000x6.size a
  hwx0_3 : ∀ i : grid0.Coords, EltTy.bits .f32 = 32 ∨ (Rect.block (s := S400000x6) S4000x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x128.size a ≤ S6x128.size a
  hwx0_5 : ∀ i : grid0.Coords, EltTy.bits .bf16 = 32 ∨ (Rect.block (s := S6x128) S6x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .bf16 = 32 ∨ (Rect.block (s := S128x1) S128x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S400000x128.size a
  hwx0_13 : ∀ i : grid0.Coords, EltTy.bits .f32 = 32 ∨ (Rect.block (s := S400000x128) S4000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x3.size a ≤ S400000x3.size a
  hwx0_14 : ∀ i : grid0.Coords, EltTy.bits .f32 = 32 ∨ (Rect.block (s := S400000x3) S4000x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x3.size a ≤ S50000x3.size a
  hwx1_4 : ∀ i : grid1.Coords, EltTy.bits .f32 = 32 ∨ (Rect.block (s := S50000x3) S2000x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x3.size a ≤ S50000x3.size a
  hwx1_10 : ∀ i : grid1.Coords, EltTy.bits .f32 = 32 ∨ (Rect.block (s := S50000x3) S2000x3.size (cc1_transform_10 i) (hinb1_10 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x6_S6x128_S4000x128_1_0_0_1_n_n : DotDims S4000x6 S6x128 S4000x128 where
  lhsContracting := [1]
  rhsContracting := [0]
  lhsNonContracting := [0]
  rhsNonContracting := [1]
  lhsBatch := []
  rhsBatch := []
  wf := dot_S4000x6_S6x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x132_S400000x1_S400000x132_1_0_0_1 : ScatterDims S50000x132 S400000x1 S400000x132 where
  updateWindowDims := [1]
  insertedWindowDims := [0]
  scatterDimsToOperandDims := [0]
  indexVectorDim := 1
  wf := scatter_S50000x132_S400000x1_S400000x132_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v7) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4000x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S6x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg19) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg21) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v45_0) S4000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v45_1) S4000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S2000x3.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v54) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v56_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v56_1) S2000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S400000 : Shape := ⟨1, ![400000]⟩
abbrev S262x128 : Shape := ⟨2, ![262, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩
abbrev S400000x1 : Shape := ⟨2, ![400000, 1]⟩
abbrev S400000x128 : Shape := ⟨2, ![400000, 128]⟩
abbrev S400000x3 : Shape := ⟨2, ![400000, 3]⟩
abbrev S400000x262 : Shape := ⟨2, ![400000, 262]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S50000x3, .f32⟩
  | 2 => ⟨S400000, .i32⟩
  | 3 => ⟨S400000, .i32⟩
  | 4 => ⟨S400000, .f32⟩
  | 5 => ⟨S400000, .f32⟩
  | 6 => ⟨S400000, .f32⟩
  | 7 => ⟨S400000, .f32⟩
  | 8 => ⟨S400000, .f32⟩
  | 9 => ⟨S400000, .f32⟩
  | 10 => ⟨S262x128, .f32⟩
  | 11 => ⟨S128, .f32⟩
  | 12 => ⟨S128x128, .f32⟩
  | 13 => ⟨S128, .f32⟩
  | 14 => ⟨S256x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x128, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x128, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x3, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x3, .f32⟩
  | 58 => ⟨S400000x3, .f32⟩
  | 59 => ⟨S400000, .f32⟩
  | 60 => ⟨S400000x1, .f32⟩
  | 61 => ⟨S400000x1, .f32⟩
  | 62 => ⟨S400000x1, .f32⟩
  | 63 => ⟨S400000x1, .f32⟩
  | 64 => ⟨S400000x1, .f32⟩
  | 65 => ⟨S400000x1, .f32⟩
  | 66 => ⟨S400000x262, .f32⟩
  | 67 => ⟨S400000x128, .f32⟩
  | 68 => ⟨S1x128, .f32⟩
  | 69 => ⟨S400000x128, .f32⟩
  | 70 => ⟨S400000x128, .f32⟩
  | 71 => ⟨S400000x128, .f32⟩
  | 72 => ⟨S400000x128, .f32⟩
  | 73 => ⟨S_, .f32⟩
  | 74 => ⟨S400000x128, .f32⟩
  | 75 => ⟨S400000x128, .f32⟩
  | 76 => ⟨S_, .f32⟩
  | 77 => ⟨S400000x128, .f32⟩
  | 78 => ⟨S400000x128, .f32⟩
  | 79 => ⟨S400000x128, .f32⟩
  | 80 => ⟨S400000x128, .f32⟩
  | 81 => ⟨S1x128, .f32⟩
  | 82 => ⟨S400000x128, .f32⟩
  | 83 => ⟨S400000x128, .f32⟩
  | 84 => ⟨S400000x128, .f32⟩
  | 85 => ⟨S400000x128, .f32⟩
  | 86 => ⟨S_, .f32⟩
  | 87 => ⟨S400000x128, .f32⟩
  | 88 => ⟨S400000x128, .f32⟩
  | 89 => ⟨S_, .f32⟩
  | 90 => ⟨S400000x128, .f32⟩
  | 91 => ⟨S400000x128, .f32⟩
  | 92 => ⟨S400000x128, .f32⟩
  | 93 => ⟨S_, .f32⟩
  | 94 => ⟨S400000, .f32⟩
  | 95 => ⟨S_, .f32⟩
  | 96 => ⟨S50000, .f32⟩
  | 97 => ⟨S400000x1, .i32⟩
  | 98 => ⟨S50000, .f32⟩
  | 99 => ⟨S50000x1, .f32⟩
  | 100 => ⟨S_, .f32⟩
  | 101 => ⟨S50000x1, .f32⟩
  | 102 => ⟨S50000x1, .f32⟩
  | 103 => ⟨S_, .f32⟩
  | 104 => ⟨S50000x128, .f32⟩
  | 105 => ⟨S400000x1, .i32⟩
  | 106 => ⟨S50000x128, .f32⟩
  | 107 => ⟨S50000x128, .f32⟩
  | 108 => ⟨S50000x128, .f32⟩
  | 109 => ⟨S50000x256, .f32⟩
  | 110 => ⟨S50000x128, .f32⟩
  | 111 => ⟨S1x128, .f32⟩
  | 112 => ⟨S50000x128, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S400000x128, .f32⟩
  | 1 => ⟨S1x128, .f32⟩
  | 2 => ⟨S400000x128, .f32⟩
  | 3 => ⟨S400000x128, .f32⟩
  | 4 => ⟨S400000x128, .f32⟩
  | 5 => ⟨S400000x128, .f32⟩
  | 6 => ⟨S_, .f32⟩
  | 7 => ⟨S400000x128, .f32⟩
  | 8 => ⟨S400000x128, .f32⟩
  | 9 => ⟨S_, .f32⟩
  | 10 => ⟨S400000x128, .f32⟩
  | 11 => ⟨S400000x128, .f32⟩
  | 12 => ⟨S400000x128, .f32⟩
  | 13 => ⟨S400000x1, .f32⟩
  | 14 => ⟨S1x1, .f32⟩
  | 15 => ⟨S400000x1, .f32⟩
  | 16 => ⟨S400000x1, .f32⟩
  | 17 => ⟨S400000x1, .f32⟩
  | 18 => ⟨S400000x3, .f32⟩
  | 19 => ⟨S400000x3, .f32⟩
  | 20 => ⟨S_, .f32⟩
  | 21 => ⟨S50000x3, .f32⟩
  | 22 => ⟨S400000x1, .i32⟩
  | 23 => ⟨S50000x3, .f32⟩
  | 24 => ⟨S50000x3, .f32⟩
  | 25 => ⟨S50000x3, .f32⟩
  | 26 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v46 : Ref sig .tc := ⟨.hbm, 92, rfl⟩
abbrev main_cst : Ref sig .tc := ⟨.hbm, 93, rfl⟩
abbrev main_v47 : Ref sig .tc := ⟨.hbm, 94, rfl⟩
abbrev main_cst_7 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_8 : Ref sig .tc := ⟨.hbm, 100, rfl⟩
abbrev main_v52 : Ref sig .tc := ⟨.hbm, 101, rfl⟩
abbrev main_v53 : Ref sig .tc := ⟨.hbm, 102, rfl⟩
abbrev main_cst_9 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_call3_v0 : Ref sig .tc := ⟨.hbm, 132, rfl⟩
abbrev main_call3_v1 : Ref sig .tc := ⟨.hbm, 133, rfl⟩
abbrev main_call3_cst : Ref sig .tc := ⟨.hbm, 134, rfl⟩
abbrev main_call3_v2 : Ref sig .tc := ⟨.hbm, 135, rfl⟩
abbrev main_call3_v3 : Ref sig .tc := ⟨.hbm, 136, rfl⟩
abbrev main_call3_cst_0 : Ref sig .tc := ⟨.hbm, 137, rfl⟩
abbrev main_call3_v4 : Ref sig .tc := ⟨.hbm, 138, rfl⟩
abbrev main_call3_v5 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_cst_10 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x1_S400000x1_S400000x1_S400000x1_S400000x1_S400000x1_S400000x262_d1 : Shape.Concatenates [S400000x128, S400000x128, S400000x1, S400000x1, S400000x1, S400000x1, S400000x1, S400000x1] S400000x262 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S400000x1_S400000x3_0_1 : S400000x1.BroadcastsInDim S400000x3 (![0, 1] : Fin 2 → Fin S400000x3.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S50000x128_S400000x1_S400000x128_1_0_n_n_0_1_1128_wf : GatherDims.WF S50000x128 S400000x1 S400000x128 [1] [0] [] [0] [] 1 ![1, 128]
  gather_S50000x3_S400000x1_S400000x3_1_0_n_n_0_1_13_wf : GatherDims.WF S50000x3 S400000x1 S400000x3 [1] [0] [] [0] [] 1 ![1, 3]
  dot_S400000x262_S262x128_S400000x128_1_0_0_1_n_n_wf : DotDims.WF S400000x262 S262x128 S400000x128 [1] [0] [0] [1] [] []
  dot_S400000x128_S128x128_S400000x128_1_0_0_1_n_n_wf : DotDims.WF S400000x128 S128x128 S400000x128 [1] [0] [0] [1] [] []
  scatter_S50000_S400000x1_S400000_n_0_0_1_wf : ScatterDims.WF S50000 S400000x1 S400000 [] [0] [0] 1
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S400000x128_S128x1_S400000x1_1_0_0_1_n_n_wf : DotDims.WF S400000x128 S128x1 S400000x1 [1] [0] [0] [1] [] []
  scatter_S50000x3_S400000x1_S400000x3_1_0_0_1_wf : ScatterDims.WF S50000x3 S400000x1 S400000x3 [1] [0] [0] 1

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def dot_S400000x262_S262x128_S400000x128_1_0_0_1_n_n : DotDims S400000x262 S262x128 S400000x128 where
  lhsContracting := [1]
  rhsContracting := [0]
  lhsNonContracting := [0]
  rhsNonContracting := [1]
  lhsBatch := []
  rhsBatch := []
  wf := dot_S400000x262_S262x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf
def scatter_S50000x3_S400000x1_S400000x3_1_0_0_1 : ScatterDims S50000x3 S400000x1 S400000x3 where
  updateWindowDims := [1]
  insertedWindowDims := [0]
  scatterDimsToOperandDims := [0]
  indexVectorDim := 1
  wf := scatter_S50000x3_S400000x1_S400000x3_1_0_0_1_wf

class Facts : Prop extends Facts₀ where

variable [Facts]
-- ==== Proof.EdgeRegionBits.lean ====
/-
  The edge stage's kernel as a pipeline region, at any float instance and at any contents `V` of the buffers when
  the region is entered. The grid has 100 points; point `t` sees rows 4000·t … 4000·t + 3999 of the four edge arrays
  (gathered source and destination features, coordinate differences, six scalar features) and the nine weight and
  bias arrays whole. The body loads every input buffer whole, and stores two values whole: the message block into
  window 13 and the scaled-difference block into window 14, each a pure term of the loaded blocks. So after the body
  each input's buffer still holds its block, and each output's buffer holds that term of the input blocks; nothing is
  carried from one point to the next.
-/
import proofs.«431152_j56135222559302_3_alg».proof.Proof.Gen.Kernel.Launch
import proofs.«431152_j56135222559302_3_alg».proof.Proof.Gen.Kernel.Skeleton
import proofs.«431152_j56135222559302_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: a parameter, instantiated by the run
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or the block index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or the block index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or the block index stood still. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or the block index stood still. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the pipeline fetched it there or the block index stood still. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether the pipeline fetched it there or the block index stood still. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, whether the pipeline fetched it there or the block index stood still. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, whether the pipeline fetched it there or the block index stood still. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, whether the pipeline fetched it there or the block index stood still. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, whether the pipeline fetched it there or the block index stood still. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, whether the pipeline fetched it there or the block index stood still. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, whether the pipeline fetched it there or the block index stood still. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! The whole-buffer rectangles the body loads and stores through. -/

abbrev r0_S4000x128 : Rect S4000x128 := Rect.unit (s := S4000x128) ![0, 0] S4000x128.size inb_S4000x128_S4000x128_0_0
abbrev r0_S4000x3 : Rect S4000x3 := Rect.unit (s := S4000x3) ![0, 0] S4000x3.size inb_S4000x3_S4000x3_0_0
abbrev r0_S4000x6 : Rect S4000x6 := Rect.unit (s := S4000x6) ![0, 0] S4000x6.size inb_S4000x6_S4000x6_0_0
abbrev r0_S256x128 : Rect S256x128 := Rect.unit (s := S256x128) ![0, 0] S256x128.size inb_S256x128_S256x128_0_0
abbrev r0_S6x128 : Rect S6x128 := Rect.unit (s := S6x128) ![0, 0] S6x128.size inb_S6x128_S6x128_0_0
abbrev r0_S128 : Rect S128 := Rect.unit (s := S128) ![0] S128.size inb_S128_S128_0
abbrev r0_S128x128 : Rect S128x128 := Rect.unit (s := S128x128) ![0, 0] S128x128.size inb_S128x128_S128x128_0_0
abbrev r0_S128x1 : Rect S128x1 := Rect.unit (s := S128x1) ![0, 0] S128x1.size inb_S128x1_S128x1_0_0
abbrev r0_S1 : Rect S1 := Rect.unit (s := S1) ![0] S1.size inb_S1_S1_0

/-- What the body's one store leaves in output window 13's staging buffer, from the input blocks. -/
def out0_13 (x0 : Vec F S4000x128 .bf16) (x1 : Vec F S4000x128 .bf16) (x3 : Vec F S4000x6 .f32) (x4 : Vec F S256x128 .bf16) (x5 : Vec F S6x128 .bf16) (x6 : Vec F S128 .f32) (x7 : Vec F S128x128 .bf16) (x8 : Vec F S128 .f32) : Vec F S4000x128 .f32 :=
  View.canon [⟨r0_S4000x128, k0_pay3 (View.ld x0 r0_S4000x128) (View.ld x1 r0_S4000x128) (View.ld x3 r0_S4000x6) (View.ld x4 r0_S256x128) (View.ld x5 r0_S6x128) (View.ld x6 r0_S128) (View.ld x7 r0_S128x128) (View.ld x8 r0_S128)⟩]

/-- That store covers the buffer. -/
theorem cover0_13 (p0 : Vec F S4000x128 .f32) (y : S4000x128.Idx) :
    ∃ pc ∈ ([⟨r0_S4000x128, p0⟩] : List (View.Piece (Elt F) S4000x128 .f32)), y ∈ pc.1.set :=
  View.cover_of_tiled [⟨r0_S4000x128, p0⟩] S4000x128.size (by rfl) y

/-- What the body's one store leaves in output window 14's staging buffer, from the input blocks. -/
def out0_14 (x0 : Vec F S4000x128 .bf16) (x1 : Vec F S4000x128 .bf16) (x2 : Vec F S4000x3 .f32) (x3 : Vec F S4000x6 .f32) (x4 : Vec F S256x128 .bf16) (x5 : Vec F S6x128 .bf16) (x6 : Vec F S128 .f32) (x7 : Vec F S128x128 .bf16) (x8 : Vec F S128 .f32) (x9 : Vec F S128x128 .bf16) (x10 : Vec F S128 .f32) (x11 : Vec F S128x1 .bf16) (x12 : Vec F S1 .f32) : Vec F S4000x3 .f32 :=
  View.canon [⟨r0_S4000x3, k0_pay1 (k0_pay2 (View.ld x2 r0_S4000x3)) (k0_pay4 (View.ld x0 r0_S4000x128) (View.ld x1 r0_S4000x128) (View.ld x3 r0_S4000x6) (View.ld x4 r0_S256x128) (View.ld x5 r0_S6x128) (View.ld x6 r0_S128) (View.ld x7 r0_S128x128) (View.ld x8 r0_S128)) (View.ld x9 r0_S128x128) (View.ld x10 r0_S128) (View.ld x11 r0_S128x1) (View.ld x12 r0_S1)⟩]

/-- That store covers the buffer. -/
theorem cover0_14 (p0 : Vec F S4000x3 .f32) (y : S4000x3.Idx) :
    ∃ pc ∈ ([⟨r0_S4000x3, p0⟩] : List (View.Piece (Elt F) S4000x3 .f32)), y ∈ pc.1.set :=
  View.cover_of_tiled [⟨r0_S4000x3, p0⟩] S4000x3.size (by rfl) y

set_option maxHeartbeats 4000000 in
/-- The kernel body on whole staging memrefs — the inputs' at read contents `xW`, the outputs' at anything — runs to the
    continuation with the inputs' as they were and each output's at its store's value. -/
theorem sound_kernel0 (c : Dev nD) (E : Set ℕ) (i : grid0.Coords) (arg1 : Memref sig .tc .vmem S4000x128 .bf16) (harg1 : arg1.IsWhole) (arg2 : Memref sig .tc .vmem S4000x128 .bf16) (harg2 : arg2.IsWhole) (arg3 : Memref sig .tc .vmem S4000x3 .f32) (harg3 : arg3.IsWhole) (arg4 : Memref sig .tc .vmem S4000x6 .f32) (harg4 : arg4.IsWhole) (arg5 : Memref sig .tc .vmem S256x128 .bf16) (harg5 : arg5.IsWhole) (arg6 : Memref sig .tc .vmem S6x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S128x128 .bf16) (harg10 : arg10.IsWhole) (arg11 : Memref sig .tc .vmem S128 .f32) (harg11 : arg11.IsWhole) (arg12 : Memref sig .tc .vmem S128x1 .bf16) (harg12 : arg12.IsWhole) (arg13 : Memref sig .tc .vmem S1 .f32) (harg13 : arg13.IsWhole) (arg14 : Memref sig .tc .vmem S4000x128 .f32) (harg14 : arg14.IsWhole) (arg15 : Memref sig .tc .vmem S4000x3 .f32) (harg15 : arg15.IsWhole)
    (x0 : Vec F S4000x128 .bf16) (x1 : Vec F S4000x128 .bf16) (x2 : Vec F S4000x3 .f32) (x3 : Vec F S4000x6 .f32) (x4 : Vec F S256x128 .bf16) (x5 : Vec F S6x128 .bf16) (x6 : Vec F S128 .f32) (x7 : Vec F S128x128 .bf16) (x8 : Vec F S128 .f32) (x9 : Vec F S128x128 .bf16) (x10 : Vec F S128 .f32) (x11 : Vec F S128x1 .bf16) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x3 x4 x5 x6 x7 x8) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-- The pipeline's proof data on core `c`: the arrays as the region finds them; after the body at point `t` each input's
    buffer at its block and each output's at its store's value of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 3 t) (iblk0 V c 4 t) (iblk0 V c 5 t) (iblk0 V c 6 t) (iblk0 V c 7 t) (iblk0 V c 8 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 3 t) (iblk0 V c 4 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 4000000 in
/-- The body at any grid point: the inputs' memrefs hold their blocks, so the body's triple applies; the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Whole

end
-- ==== Proof.NodeRegionBits.lean ====
/-
  The node stage's kernel as a pipeline region, at any float instance and at any contents `V` of the buffers when
  the region is entered. The grid has 25 points; point `t` sees rows 2000·t … 2000·t + 1999 of the five node arrays
  (features, summed messages, edge counts, coordinates, summed differences) and the four weight and bias arrays
  whole. The body loads every input buffer whole and stores two values whole: the new features into window 9 and the
  new coordinates into window 10, each a pure term of the loaded blocks; nothing is carried between points.
-/
import proofs.«431152_j56135222559302_3_alg».proof.Proof.Gen.Kernel.Launch
import proofs.«431152_j56135222559302_3_alg».proof.Proof.Gen.Kernel.Skeleton
import proofs.«431152_j56135222559302_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: a parameter, instantiated by the run
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or the block index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or the block index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the pipeline fetched it there or the block index stood still. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the pipeline fetched it there or the block index stood still. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the pipeline fetched it there or the block index stood still. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether the pipeline fetched it there or the block index stood still. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether the pipeline fetched it there or the block index stood still. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, whether the pipeline fetched it there or the block index stood still. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! The whole-buffer rectangles the body loads and stores through. -/

abbrev r1_S2000x128 : Rect S2000x128 := Rect.unit (s := S2000x128) ![0, 0] S2000x128.size inb_S2000x128_S2000x128_0_0
abbrev r1_S2000x1 : Rect S2000x1 := Rect.unit (s := S2000x1) ![0, 0] S2000x1.size inb_S2000x1_S2000x1_0_0
abbrev r1_S2000x3 : Rect S2000x3 := Rect.unit (s := S2000x3) ![0, 0] S2000x3.size inb_S2000x3_S2000x3_0_0
abbrev r1_S256x128 : Rect S256x128 := Rect.unit (s := S256x128) ![0, 0] S256x128.size inb_S256x128_S256x128_0_0
abbrev r1_S128 : Rect S128 := Rect.unit (s := S128) ![0] S128.size inb_S128_S128_0
abbrev r1_S128x128 : Rect S128x128 := Rect.unit (s := S128x128) ![0, 0] S128x128.size inb_S128x128_S128x128_0_0

/-- What the body's one store leaves in output window 9's staging buffer, from the input blocks. -/
def out1_9 (x0 : Vec F S2000x128 .f32) (x1 : Vec F S2000x128 .f32) (x2 : Vec F S2000x1 .f32) (x5 : Vec F S256x128 .bf16) (x6 : Vec F S128 .f32) (x7 : Vec F S128x128 .bf16) (x8 : Vec F S128 .f32) : Vec F S2000x128 .f32 :=
  View.canon [⟨r1_S2000x128, k1_pay2 (View.ld x0 r1_S2000x128) (View.ld x2 r1_S2000x1) (View.ld x1 r1_S2000x128) (View.ld x5 r1_S256x128) (View.ld x6 r1_S128) (View.ld x7 r1_S128x128) (View.ld x8 r1_S128)⟩]

/-- That store covers the buffer. -/
theorem cover1_9 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

/-- What the body's one store leaves in output window 10's staging buffer, from the input blocks. -/
def out1_10 (x2 : Vec F S2000x1 .f32) (x3 : Vec F S2000x3 .f32) (x4 : Vec F S2000x3 .f32) : Vec F S2000x3 .f32 :=
  View.canon [⟨r1_S2000x3, k1_pay3 (View.ld x2 r1_S2000x1) (View.ld x4 r1_S2000x3) (View.ld x3 r1_S2000x3)⟩]

/-- That store covers the buffer. -/
theorem cover1_10 (p0 : Vec F S2000x3 .f32) (y : S2000x3.Idx) :
    ∃ pc ∈ ([⟨r1_S2000x3, p0⟩] : List (View.Piece (Elt F) S2000x3 .f32)), y ∈ pc.1.set :=
  View.cover_of_tiled [⟨r1_S2000x3, p0⟩] S2000x3.size (by rfl) y

set_option maxHeartbeats 4000000 in
/-- The kernel body on whole staging memrefs — the inputs' at read contents `xW`, the outputs' at anything — runs to the
    continuation with the inputs' as they were and each output's at its store's value. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x3 .f32) (harg4 : arg4.IsWhole) (arg5 : Memref sig .tc .vmem S2000x3 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S2000x128 .f32) (harg10 : arg10.IsWhole) (arg11 : Memref sig .tc .vmem S2000x3 .f32) (harg11 : arg11.IsWhole)
    (x0 : Vec F S2000x128 .f32) (x1 : Vec F S2000x128 .f32) (x2 : Vec F S2000x1 .f32) (x3 : Vec F S2000x3 .f32) (x4 : Vec F S2000x3 .f32) (x5 : Vec F S256x128 .bf16) (x6 : Vec F S128 .f32) (x7 : Vec F S128x128 .bf16) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x5 x6 x7 x8) ∗ owns (c : Thread nD τ) arg11 fullShare (out1_10 x2 x3 x4)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9 arg10 harg10 arg11 harg11) K := by
  simp only [cc1__node_kernel_eq_skeleton]; unfold cc1__node_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-- The pipeline's proof data on core `c`: the arrays as the region finds them; after the body at point `t` each input's
    buffer at its block and each output's at its store's value of the input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 5 t) (iblk1 V c 6 t) (iblk1 V c 7 t) (iblk1 V c 8 t)
    | ⟨10, _⟩ => out1_10 (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any grid point: the inputs' memrefs hold their blocks, so the body's triple applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Whole

end
-- ==== Proof.WholeRunBits.lean ====
/-
  The whole program as a run: host operations, the edge region, host operations, the node region. The contents of
  the TensorCore's buffers at the four boundaries are a fold from the launch memory: `B1` is the first host
  stretch applied to the launch contents `B0`; `B2` is `B1` with the edge region's arrays at what its hundred
  write-backs leave (the input arrays as entered, each output array the fold of its flushed blocks); `B3` is the
  second host stretch applied to `B2`; `B4` is `B3` with the node region's arrays at what its twenty-five
  write-backs leave. Every weakly fair execution from any memory terminates, faults nowhere, and ends with every
  unscoped buffer at `B4` (`run_all`). No host operation and no region writes an argument's buffer — a region reads
  an argument only through an input window — so each argument's buffer walks back through the fold to its launch
  contents (`B4_main_argK`), which is the frame claim; the two results are read off `B4` at the node region's
  output arrays.
-/
import proofs.«431152_j56135222559302_3_alg».proof.Proof.EdgeRegionBits
import proofs.«431152_j56135222559302_3_alg».proof.Proof.NodeRegionBits
import proofs.«431152_j56135222559302_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m (c, b)
/-- After the first host stretch (the edge region's entry). -/
abbrev B1 : Dev nD → Valuation τ sig (Elt F) := fun c => StableHlo.after hostOps0 (B0 m c)
/-- The same read at the TensorCore's references. -/
abbrev Vin0 : (c : Dev nD) → (b : Ref sig .tc) → Buf (Elt F) ((c : Thread nD τ).loc b) := fun c b => B1 m c b
/-- At the edge region's exit: its arrays at what the pipeline leaves, every other buffer as entered. -/
def B2 (c : Dev nD) : Valuation τ sig (Elt F) :=
  Pipeline.withArrays spec0 c (B1 m c) fun w => (dat0 (Vin0 m) c).arrAt w cfg0.N
theorem B2_arr (c : Dev nD) (w : Fin cfg0.W) :
    B2 m c (Proc.devRef .tc (Pipeline.arrRef spec0 w)) = (dat0 (Vin0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Vout0 : (c : Dev nD) → (b : Ref sig .tc) → Buf (Elt F) ((c : Thread nD τ).loc b) := fun c b => B2 m c b
theorem hF0 (c : Dev nD) (w : Fin cfg0.W) : (dat0 (Vin0 m) c).arrAt w cfg0.N = Vout0 m c (Pipeline.arrRef spec0 w) :=
  (B2_arr m c w).symm
theorem hrest0 (c : Dev nD) : ∀ b, b ∉ Finset.univ.image (Pipeline.arrRef spec0) → Vout0 m c b = Vin0 m c b :=
  fun b hb => B2_of_ne m c b fun w e => hb (Finset.mem_image.mpr ⟨w, Finset.mem_univ _, e⟩)

/-- After the second host stretch (the node region's entry). -/
abbrev B3 : Dev nD → Valuation τ sig (Elt F) := fun c => StableHlo.after hostOps1 (B2 m c)
abbrev Vin1 : (c : Dev nD) → (b : Ref sig .tc) → Buf (Elt F) ((c : Thread nD τ).loc b) := fun c b => B3 m c b
/-- At the node region's exit: its arrays at what the pipeline leaves, every other buffer as entered. -/
def B4 (c : Dev nD) : Valuation τ sig (Elt F) :=
  Pipeline.withArrays spec1 c (B3 m c) fun w => (dat1 (Vin1 m) c).arrAt w cfg1.N
theorem B4_arr (c : Dev nD) (w : Fin cfg1.W) :
    B4 m c (Proc.devRef .tc (Pipeline.arrRef spec1 w)) = (dat1 (Vin1 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev Vout1 : (c : Dev nD) → (b : Ref sig .tc) → Buf (Elt F) ((c : Thread nD τ).loc b) := fun c b => B4 m c b
theorem hF1 (c : Dev nD) (w : Fin cfg1.W) : (dat1 (Vin1 m) c).arrAt w cfg1.N = Vout1 m c (Pipeline.arrRef spec1 w) :=
  (B4_arr m c w).symm
theorem hrest1 (c : Dev nD) : ∀ b, b ∉ Finset.univ.image (Pipeline.arrRef spec1) → Vout1 m c b = Vin1 m c b :=
  fun b hb => B4_of_ne m c b fun w e => hb (Finset.mem_image.mpr ⟨w, Finset.mem_univ _, e⟩)

/-! ## The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := (B4_arr m c 0).trans (((dat1 (Vin1 m) c).arrAt_in 0 rfl _).trans (A_eq1 (Vin1 m) c 0))
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B4_main_arg1 (c : Dev nD) : B4 m c (Proc.devRef .tc main_arg1) = m ((c : Thread nD τ).loc main_arg1) :=
  calc B4 m c (Proc.devRef .tc main_arg1)
    _ = B3 m c (Proc.devRef .tc main_arg1) := (B4_arr m c 3).trans (((dat1 (Vin1 m) c).arrAt_in 3 rfl _).trans (A_eq1 (Vin1 m) c 3))
    _ = B2 m c (Proc.devRef .tc main_arg1) := StableHlo.after_of_writes_sub hostOps1 _ hostOps1_writes (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := StableHlo.after_of_writes_sub hostOps1 _ hostOps1_writes (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl
theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := StableHlo.after_of_writes_sub hostOps1 _ hostOps1_writes (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl
theorem B4_main_arg8 (c : Dev nD) : B4 m c (Proc.devRef .tc main_arg8) = m ((c : Thread nD τ).loc main_arg8) :=
  calc B4 m c (Proc.devRef .tc main_arg8)
    _ = B3 m c (Proc.devRef .tc main_arg8) := B4_of_ne m c main_arg8 (by decide)
    _ = B2 m c (Proc.devRef .tc main_arg8) := StableHlo.after_of_writes_sub hostOps1 _ hostOps1_writes (by decide)
    _ = B1 m c (Proc.devRef .tc main_arg8) := B2_of_ne m c main_arg8 (by decide)
    _ = B0 m c (Proc.devRef .tc main_arg8) := StableHlo.after_of_writes_sub hostOps0 _ hostOps0_writes (by decide)
    _ = m ((c : Thread nD τ).loc main_arg8) := rfl
theorem B4_main_arg9 (c : Dev nD) : B4 m c (Proc.devRef .tc main_arg9) = m ((c : Thread nD τ).loc main_arg9) :=
  calc B4 m c (Proc.devRef .tc main_arg9)
    _ = B3 m c (Proc.devRef .tc main_arg9) := B4_of_ne m c main_arg9 (by decide)
    _ = B2 m c (Proc.devRef .tc main_arg9) := StableHlo.after_of_writes_sub hostOps1 _ hostOps1_writes (by decide)
    _ = B1 m c (Proc.devRef .tc main_arg9) := B2_of_ne m c main_arg9 (by decide)
    _ = B0 m c (Proc.devRef .tc main_arg9) := StableHlo.after_of_writes_sub hostOps0 _ hostOps0_writes (by decide)
    _ = m ((c : Thread nD τ).loc main_arg9) := rfl
theorem B4_main_arg10 (c : Dev nD) : B4 m c (Proc.devRef .tc main_arg10) = m ((c : Thread nD τ).loc main_arg10) :=
  calc B4 m c (Proc.devRef .tc main_arg10)
    _ = B3 m c (Proc.devRef .tc main_arg10) := B4_of_ne m c main_arg10 (by decide)
    _ = B2 m c (Proc.devRef .tc main_arg10) := StableHlo.after_of_writes_sub hostOps1 _ hostOps1_writes (by decide)
    _ = B1 m c (Proc.devRef .tc main_arg10) := B2_of_ne m c main_arg10 (by decide)
    _ = B0 m c (Proc.devRef .tc main_arg10) := StableHlo.after_of_writes_sub hostOps0 _ hostOps0_writes (by decide)
    _ = m ((c : Thread nD τ).loc main_arg10) := rfl
theorem B4_main_arg11 (c : Dev nD) : B4 m c (Proc.devRef .tc main_arg11) = m ((c : Thread nD τ).loc main_arg11) :=
  calc B4 m c (Proc.devRef .tc main_arg11)
    _ = B3 m c (Proc.devRef .tc main_arg11) := B4_of_ne m c main_arg11 (by decide)
    _ = B2 m c (Proc.devRef .tc main_arg11) := StableHlo.after_of_writes_sub hostOps1 _ hostOps1_writes (by decide)
    _ = B1 m c (Proc.devRef .tc main_arg11) := (B2_arr m c 6).trans (((dat0 (Vin0 m) c).arrAt_in 6 rfl _).trans (A_eq0 (Vin0 m) c 6))
    _ = B0 m c (Proc.devRef .tc main_arg11) := StableHlo.after_of_writes_sub hostOps0 _ hostOps0_writes (by decide)
    _ = m ((c : Thread nD τ).loc main_arg11) := rfl
theorem B4_main_arg12 (c : Dev nD) : B4 m c (Proc.devRef .tc main_arg12) = m ((c : Thread nD τ).loc main_arg12) :=
  calc B4 m c (Proc.devRef .tc main_arg12)
    _ = B3 m c (Proc.devRef .tc main_arg12) := B4_of_ne m c main_arg12 (by decide)
    _ = B2 m c (Proc.devRef .tc main_arg12) := StableHlo.after_of_writes_sub hostOps1 _ hostOps1_writes (by decide)
    _ = B1 m c (Proc.devRef .tc main_arg12) := B2_of_ne m c main_arg12 (by decide)
    _ = B0 m c (Proc.devRef .tc main_arg12) := StableHlo.after_of_writes_sub hostOps0 _ hostOps0_writes (by decide)
    _ = m ((c : Thread nD τ).loc main_arg12) := rfl
theorem B4_main_arg13 (c : Dev nD) : B4 m c (Proc.devRef .tc main_arg13) = m ((c : Thread nD τ).loc main_arg13) :=
  calc B4 m c (Proc.devRef .tc main_arg13)
    _ = B3 m c (Proc.devRef .tc main_arg13) := B4_of_ne m c main_arg13 (by decide)
    _ = B2 m c (Proc.devRef .tc main_arg13) := StableHlo.after_of_writes_sub hostOps1 _ hostOps1_writes (by decide)
    _ = B1 m c (Proc.devRef .tc main_arg13) := (B2_arr m c 8).trans (((dat0 (Vin0 m) c).arrAt_in 8 rfl _).trans (A_eq0 (Vin0 m) c 8))
    _ = B0 m c (Proc.devRef .tc main_arg13) := StableHlo.after_of_writes_sub hostOps0 _ hostOps0_writes (by decide)
    _ = m ((c : Thread nD τ).loc main_arg13) := rfl
theorem B4_main_arg14 (c : Dev nD) : B4 m c (Proc.devRef .tc main_arg14) = m ((c : Thread nD τ).loc main_arg14) :=
  calc B4 m c (Proc.devRef .tc main_arg14)
    _ = B3 m c (Proc.devRef .tc main_arg14) := B4_of_ne m c main_arg14 (by decide)
    _ = B2 m c (Proc.devRef .tc main_arg14) := StableHlo.after_of_writes_sub hostOps1 _ hostOps1_writes (by decide)
    _ = B1 m c (Proc.devRef .tc main_arg14) := B2_of_ne m c main_arg14 (by decide)
    _ = B0 m c (Proc.devRef .tc main_arg14) := StableHlo.after_of_writes_sub hostOps0 _ hostOps0_writes (by decide)
    _ = m ((c : Thread nD τ).loc main_arg14) := rfl
theorem B4_main_arg15 (c : Dev nD) : B4 m c (Proc.devRef .tc main_arg15) = m ((c : Thread nD τ).loc main_arg15) :=
  calc B4 m c (Proc.devRef .tc main_arg15)
    _ = B3 m c (Proc.devRef .tc main_arg15) := (B4_arr m c 6).trans (((dat1 (Vin1 m) c).arrAt_in 6 rfl _).trans (A_eq1 (Vin1 m) c 6))
    _ = B2 m c (Proc.devRef .tc main_arg15) := StableHlo.after_of_writes_sub hostOps1 _ hostOps1_writes (by decide)
    _ = B1 m c (Proc.devRef .tc main_arg15) := B2_of_ne m c main_arg15 (by decide)
    _ = B0 m c (Proc.devRef .tc main_arg15) := StableHlo.after_of_writes_sub hostOps0 _ hostOps0_writes (by decide)
    _ = m ((c : Thread nD τ).loc main_arg15) := rfl
theorem B4_main_arg16 (c : Dev nD) : B4 m c (Proc.devRef .tc main_arg16) = m ((c : Thread nD τ).loc main_arg16) :=
  calc B4 m c (Proc.devRef .tc main_arg16)
    _ = B3 m c (Proc.devRef .tc main_arg16) := B4_of_ne m c main_arg16 (by decide)
    _ = B2 m c (Proc.devRef .tc main_arg16) := StableHlo.after_of_writes_sub hostOps1 _ hostOps1_writes (by decide)
    _ = B1 m c (Proc.devRef .tc main_arg16) := B2_of_ne m c main_arg16 (by decide)
    _ = B0 m c (Proc.devRef .tc main_arg16) := StableHlo.after_of_writes_sub hostOps0 _ hostOps0_writes (by decide)
    _ = m ((c : Thread nD τ).loc main_arg16) := rfl
theorem B4_main_arg17 (c : Dev nD) : B4 m c (Proc.devRef .tc main_arg17) = m ((c : Thread nD τ).loc main_arg17) :=
  calc B4 m c (Proc.devRef .tc main_arg17)
    _ = B3 m c (Proc.devRef .tc main_arg17) := (B4_arr m c 8).trans (((dat1 (Vin1 m) c).arrAt_in 8 rfl _).trans (A_eq1 (Vin1 m) c 8))
    _ = B2 m c (Proc.devRef .tc main_arg17) := StableHlo.after_of_writes_sub hostOps1 _ hostOps1_writes (by decide)
    _ = B1 m c (Proc.devRef .tc main_arg17) := B2_of_ne m c main_arg17 (by decide)
    _ = B0 m c (Proc.devRef .tc main_arg17) := StableHlo.after_of_writes_sub hostOps0 _ hostOps0_writes (by decide)
    _ = m ((c : Thread nD τ).loc main_arg17) := rfl
theorem B4_main_arg18 (c : Dev nD) : B4 m c (Proc.devRef .tc main_arg18) = m ((c : Thread nD τ).loc main_arg18) :=
  calc B4 m c (Proc.devRef .tc main_arg18)
    _ = B3 m c (Proc.devRef .tc main_arg18) := B4_of_ne m c main_arg18 (by decide)
    _ = B2 m c (Proc.devRef .tc main_arg18) := StableHlo.after_of_writes_sub hostOps1 _ hostOps1_writes (by decide)
    _ = B1 m c (Proc.devRef .tc main_arg18) := B2_of_ne m c main_arg18 (by decide)
    _ = B0 m c (Proc.devRef .tc main_arg18) := StableHlo.after_of_writes_sub hostOps0 _ hostOps0_writes (by decide)
    _ = m ((c : Thread nD τ).loc main_arg18) := rfl
theorem B4_main_arg19 (c : Dev nD) : B4 m c (Proc.devRef .tc main_arg19) = m ((c : Thread nD τ).loc main_arg19) :=
  calc B4 m c (Proc.devRef .tc main_arg19)
    _ = B3 m c (Proc.devRef .tc main_arg19) := B4_of_ne m c main_arg19 (by decide)
    _ = B2 m c (Proc.devRef .tc main_arg19) := StableHlo.after_of_writes_sub hostOps1 _ hostOps1_writes (by decide)
    _ = B1 m c (Proc.devRef .tc main_arg19) := (B2_arr m c 10).trans (((dat0 (Vin0 m) c).arrAt_in 10 rfl _).trans (A_eq0 (Vin0 m) c 10))
    _ = B0 m c (Proc.devRef .tc main_arg19) := StableHlo.after_of_writes_sub hostOps0 _ hostOps0_writes (by decide)
    _ = m ((c : Thread nD τ).loc main_arg19) := rfl
theorem B4_main_arg20 (c : Dev nD) : B4 m c (Proc.devRef .tc main_arg20) = m ((c : Thread nD τ).loc main_arg20) :=
  calc B4 m c (Proc.devRef .tc main_arg20)
    _ = B3 m c (Proc.devRef .tc main_arg20) := B4_of_ne m c main_arg20 (by decide)
    _ = B2 m c (Proc.devRef .tc main_arg20) := StableHlo.after_of_writes_sub hostOps1 _ hostOps1_writes (by decide)
    _ = B1 m c (Proc.devRef .tc main_arg20) := B2_of_ne m c main_arg20 (by decide)
    _ = B0 m c (Proc.devRef .tc main_arg20) := StableHlo.after_of_writes_sub hostOps0 _ hostOps0_writes (by decide)
    _ = m ((c : Thread nD τ).loc main_arg20) := rfl
theorem B4_main_arg21 (c : Dev nD) : B4 m c (Proc.devRef .tc main_arg21) = m ((c : Thread nD τ).loc main_arg21) :=
  calc B4 m c (Proc.devRef .tc main_arg21)
    _ = B3 m c (Proc.devRef .tc main_arg21) := B4_of_ne m c main_arg21 (by decide)
    _ = B2 m c (Proc.devRef .tc main_arg21) := StableHlo.after_of_writes_sub hostOps1 _ hostOps1_writes (by decide)
    _ = B1 m c (Proc.devRef .tc main_arg21) := (B2_arr m c 12).trans (((dat0 (Vin0 m) c).arrAt_in 12 rfl _).trans (A_eq0 (Vin0 m) c 12))
    _ = B0 m c (Proc.devRef .tc main_arg21) := StableHlo.after_of_writes_sub hostOps0 _ hostOps0_writes (by decide)
    _ = m ((c : Thread nD τ).loc main_arg21) := rfl

/-! ## The proof data family and the thread state -/

/-- Every pipeline's proof data, each at its region's entry contents: a literal match on the pipeline index. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `B4`, the generator register at some state. -/
abbrev Tₙ (c : Dev nD) : sProp 𝕄 := iprop(StableHlo.held (c : Thread nD τ) (Pipeline.ucRefs τ sig) (B4 m c) ∗ ∃ r, prngReg c r)

/-! ## The regions as segments -/

-- a launch lemma stated over a pinned configuration unifies with the printed one only when unification may unfold
-- plain definitions in a metavariable's type
set_option backward.isDefEq.respectTransparency.types false in
/-- Region 0 over the thread state: entered with every unscoped buffer at `B1`, left with them at `B2`. Its arrays are
    split out of the unscoped buffers at entry and put back at what the write-backs left; the generator register passes
    through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a launch lemma stated over a pinned configuration unifies with the printed one only when unification may unfold
-- plain definitions in a metavariable's type
set_option backward.isDefEq.respectTransparency.types false in
/-- Region 1 over the thread state: entered with every unscoped buffer at `B3`, left with them at `B4`. Its arrays are
    split out of the unscoped buffers at entry and put back at what the write-backs left; the generator register passes
    through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's four segments in order. -/
abbrev segsT : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]

-- the launch theorem's implicit arguments are found by unifying its conclusion with this one, which takes unfolding
-- plain definitions in a metavariable's type
set_option backward.isDefEq.respectTransparency.types false in
/-- From any memory with zero counters every weakly fair execution of @main terminates, nothing faulting, and every
    final memory holds each unscoped buffer at `B4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segsT m)
    (fun c Q => by
      rewrite [main_chain c, Pipeline.Seg.run_eq_chain,
        show (segsT m).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: every argument's buffer ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c),
    (h c _ (mem_uc main_arg8 (by decide))).trans (B4_main_arg8 m c),
    (h c _ (mem_uc main_arg9 (by decide))).trans (B4_main_arg9 m c),
    (h c _ (mem_uc main_arg10 (by decide))).trans (B4_main_arg10 m c),
    (h c _ (mem_uc main_arg11 (by decide))).trans (B4_main_arg11 m c),
    (h c _ (mem_uc main_arg12 (by decide))).trans (B4_main_arg12 m c),
    (h c _ (mem_uc main_arg13 (by decide))).trans (B4_main_arg13 m c),
    (h c _ (mem_uc main_arg14 (by decide))).trans (B4_main_arg14 m c),
    (h c _ (mem_uc main_arg15 (by decide))).trans (B4_main_arg15 m c),
    (h c _ (mem_uc main_arg16 (by decide))).trans (B4_main_arg16 m c),
    (h c _ (mem_uc main_arg17 (by decide))).trans (B4_main_arg17 m c),
    (h c _ (mem_uc main_arg18 (by decide))).trans (B4_main_arg18 m c),
    (h c _ (mem_uc main_arg19 (by decide))).trans (B4_main_arg19 m c),
    (h c _ (mem_uc main_arg20 (by decide))).trans (B4_main_arg20 m c),
    (h c _ (mem_uc main_arg21 (by decide))).trans (B4_main_arg21 m c)⟩) (run_all m ρ)

/-- The run with its two results named: the node region's output arrays after its write-backs, beside the frame. -/
theorem run_results (ρ : Dev nD → PrngReg) : θ_run defs (onTc (τ := τ) (main (F := F))) ⟨m, fun _ => 0, ρ⟩ (fun r => ∀ c : Dev nD,
      r.2.mem ((c.tc : Thread nD τ).loc main_v56_0) = (dat1 (Vin1 m) c).arrAt 9 cfg1.N
      ∧ r.2.mem ((c.tc : Thread nD τ).loc main_v56_1) = (dat1 (Vin1 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_v56_0 (by decide))).trans (B4_arr m c 9),
    (h c _ (mem_uc main_v56_1 (by decide))).trans (B4_arr m c 10),
    (h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c),
    (h c _ (mem_uc main_arg8 (by decide))).trans (B4_main_arg8 m c),
    (h c _ (mem_uc main_arg9 (by decide))).trans (B4_main_arg9 m c),
    (h c _ (mem_uc main_arg10 (by decide))).trans (B4_main_arg10 m c),
    (h c _ (mem_uc main_arg11 (by decide))).trans (B4_main_arg11 m c),
    (h c _ (mem_uc main_arg12 (by decide))).trans (B4_main_arg12 m c),
    (h c _ (mem_uc main_arg13 (by decide))).trans (B4_main_arg13 m c),
    (h c _ (mem_uc main_arg14 (by decide))).trans (B4_main_arg14 m c),
    (h c _ (mem_uc main_arg15 (by decide))).trans (B4_main_arg15 m c),
    (h c _ (mem_uc main_arg16 (by decide))).trans (B4_main_arg16 m c),
    (h c _ (mem_uc main_arg17 (by decide))).trans (B4_main_arg17 m c),
    (h c _ (mem_uc main_arg18 (by decide))).trans (B4_main_arg18 m c),
    (h c _ (mem_uc main_arg19 (by decide))).trans (B4_main_arg19 m c),
    (h c _ (mem_uc main_arg20 (by decide))).trans (B4_main_arg20 m c),
    (h c _ (mem_uc main_arg21 (by decide))).trans (B4_main_arg21 m c)⟩) (run_all m ρ)

end Cert.Kernel.Whole

end
-- ==== Proof.EdgeRegionIdeal.lean ====
/-
  The edge stage's kernel as a pipeline region, at any float instance and at any contents `V` of the buffers when
  the region is entered. The grid has 100 points; point `t` sees rows 4000·t … 4000·t + 3999 of the four edge arrays
  (gathered source and destination features, coordinate differences, six scalar features) and the nine weight and
  bias arrays whole. The body loads every input buffer whole, and stores two values whole: the message block into
  window 13 and the scaled-difference block into window 14, each a pure term of the loaded blocks. So after the body
  each input's buffer still holds its block, and each output's buffer holds that term of the input blocks; nothing is
  carried from one point to the next.
-/
import proofs.«431152_j56135222559302_3_alg».proof.Proof.Gen.KernelIdeal.Launch
import proofs.«431152_j56135222559302_3_alg».proof.Proof.Gen.KernelIdeal.Skeleton
import proofs.«431152_j56135222559302_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: a parameter, instantiated by the run
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or the block index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or the block index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or the block index stood still. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or the block index stood still. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the pipeline fetched it there or the block index stood still. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether the pipeline fetched it there or the block index stood still. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, whether the pipeline fetched it there or the block index stood still. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, whether the pipeline fetched it there or the block index stood still. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, whether the pipeline fetched it there or the block index stood still. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, whether the pipeline fetched it there or the block index stood still. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, whether the pipeline fetched it there or the block index stood still. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, whether the pipeline fetched it there or the block index stood still. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! The whole-buffer rectangles the body loads and stores through. -/

abbrev r0_S4000x128 : Rect S4000x128 := Rect.unit (s := S4000x128) ![0, 0] S4000x128.size inb_S4000x128_S4000x128_0_0
abbrev r0_S4000x3 : Rect S4000x3 := Rect.unit (s := S4000x3) ![0, 0] S4000x3.size inb_S4000x3_S4000x3_0_0
abbrev r0_S4000x6 : Rect S4000x6 := Rect.unit (s := S4000x6) ![0, 0] S4000x6.size inb_S4000x6_S4000x6_0_0
abbrev r0_S256x128 : Rect S256x128 := Rect.unit (s := S256x128) ![0, 0] S256x128.size inb_S256x128_S256x128_0_0
abbrev r0_S6x128 : Rect S6x128 := Rect.unit (s := S6x128) ![0, 0] S6x128.size inb_S6x128_S6x128_0_0
abbrev r0_S128 : Rect S128 := Rect.unit (s := S128) ![0] S128.size inb_S128_S128_0
abbrev r0_S128x128 : Rect S128x128 := Rect.unit (s := S128x128) ![0, 0] S128x128.size inb_S128x128_S128x128_0_0
abbrev r0_S128x1 : Rect S128x1 := Rect.unit (s := S128x1) ![0, 0] S128x1.size inb_S128x1_S128x1_0_0
abbrev r0_S1 : Rect S1 := Rect.unit (s := S1) ![0] S1.size inb_S1_S1_0

/-- What the body's one store leaves in output window 13's staging buffer, from the input blocks. -/
def out0_13 (x0 : Vec F S4000x128 .bf16) (x1 : Vec F S4000x128 .bf16) (x3 : Vec F S4000x6 .f32) (x4 : Vec F S256x128 .bf16) (x5 : Vec F S6x128 .bf16) (x6 : Vec F S128 .f32) (x7 : Vec F S128x128 .bf16) (x8 : Vec F S128 .f32) : Vec F S4000x128 .f32 :=
  View.canon [⟨r0_S4000x128, k0_pay3 (View.ld x0 r0_S4000x128) (View.ld x1 r0_S4000x128) (View.ld x3 r0_S4000x6) (View.ld x4 r0_S256x128) (View.ld x5 r0_S6x128) (View.ld x6 r0_S128) (View.ld x7 r0_S128x128) (View.ld x8 r0_S128)⟩]

/-- That store covers the buffer. -/
theorem cover0_13 (p0 : Vec F S4000x128 .f32) (y : S4000x128.Idx) :
    ∃ pc ∈ ([⟨r0_S4000x128, p0⟩] : List (View.Piece (Elt F) S4000x128 .f32)), y ∈ pc.1.set :=
  View.cover_of_tiled [⟨r0_S4000x128, p0⟩] S4000x128.size (by rfl) y

/-- What the body's one store leaves in output window 14's staging buffer, from the input blocks. -/
def out0_14 (x0 : Vec F S4000x128 .bf16) (x1 : Vec F S4000x128 .bf16) (x2 : Vec F S4000x3 .f32) (x3 : Vec F S4000x6 .f32) (x4 : Vec F S256x128 .bf16) (x5 : Vec F S6x128 .bf16) (x6 : Vec F S128 .f32) (x7 : Vec F S128x128 .bf16) (x8 : Vec F S128 .f32) (x9 : Vec F S128x128 .bf16) (x10 : Vec F S128 .f32) (x11 : Vec F S128x1 .bf16) (x12 : Vec F S1 .f32) : Vec F S4000x3 .f32 :=
  View.canon [⟨r0_S4000x3, k0_pay1 (k0_pay2 (View.ld x2 r0_S4000x3)) (k0_pay4 (View.ld x0 r0_S4000x128) (View.ld x1 r0_S4000x128) (View.ld x3 r0_S4000x6) (View.ld x4 r0_S256x128) (View.ld x5 r0_S6x128) (View.ld x6 r0_S128) (View.ld x7 r0_S128x128) (View.ld x8 r0_S128)) (View.ld x9 r0_S128x128) (View.ld x10 r0_S128) (View.ld x11 r0_S128x1) (View.ld x12 r0_S1)⟩]

/-- That store covers the buffer. -/
theorem cover0_14 (p0 : Vec F S4000x3 .f32) (y : S4000x3.Idx) :
    ∃ pc ∈ ([⟨r0_S4000x3, p0⟩] : List (View.Piece (Elt F) S4000x3 .f32)), y ∈ pc.1.set :=
  View.cover_of_tiled [⟨r0_S4000x3, p0⟩] S4000x3.size (by rfl) y

set_option maxHeartbeats 4000000 in
/-- The kernel body on whole staging memrefs — the inputs' at read contents `xW`, the outputs' at anything — runs to the
    continuation with the inputs' as they were and each output's at its store's value. -/
theorem sound_kernel0 (c : Dev nD) (E : Set ℕ) (i : grid0.Coords) (arg1 : Memref sig .tc .vmem S4000x128 .bf16) (harg1 : arg1.IsWhole) (arg2 : Memref sig .tc .vmem S4000x128 .bf16) (harg2 : arg2.IsWhole) (arg3 : Memref sig .tc .vmem S4000x3 .f32) (harg3 : arg3.IsWhole) (arg4 : Memref sig .tc .vmem S4000x6 .f32) (harg4 : arg4.IsWhole) (arg5 : Memref sig .tc .vmem S256x128 .bf16) (harg5 : arg5.IsWhole) (arg6 : Memref sig .tc .vmem S6x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S128x128 .bf16) (harg10 : arg10.IsWhole) (arg11 : Memref sig .tc .vmem S128 .f32) (harg11 : arg11.IsWhole) (arg12 : Memref sig .tc .vmem S128x1 .bf16) (harg12 : arg12.IsWhole) (arg13 : Memref sig .tc .vmem S1 .f32) (harg13 : arg13.IsWhole) (arg14 : Memref sig .tc .vmem S4000x128 .f32) (harg14 : arg14.IsWhole) (arg15 : Memref sig .tc .vmem S4000x3 .f32) (harg15 : arg15.IsWhole)
    (x0 : Vec F S4000x128 .bf16) (x1 : Vec F S4000x128 .bf16) (x2 : Vec F S4000x3 .f32) (x3 : Vec F S4000x6 .f32) (x4 : Vec F S256x128 .bf16) (x5 : Vec F S6x128 .bf16) (x6 : Vec F S128 .f32) (x7 : Vec F S128x128 .bf16) (x8 : Vec F S128 .f32) (x9 : Vec F S128x128 .bf16) (x10 : Vec F S128 .f32) (x11 : Vec F S128x1 .bf16) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x3 x4 x5 x6 x7 x8) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-- The pipeline's proof data on core `c`: the arrays as the region finds them; after the body at point `t` each input's
    buffer at its block and each output's at its store's value of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 3 t) (iblk0 V c 4 t) (iblk0 V c 5 t) (iblk0 V c 6 t) (iblk0 V c 7 t) (iblk0 V c 8 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 3 t) (iblk0 V c 4 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 4000000 in
/-- The body at any grid point: the inputs' memrefs hold their blocks, so the body's triple applies; the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Whole

end
-- ==== Proof.NodeRegionIdeal.lean ====
/-
  The node stage's kernel as a pipeline region, at any float instance and at any contents `V` of the buffers when
  the region is entered. The grid has 25 points; point `t` sees rows 2000·t … 2000·t + 1999 of the five node arrays
  (features, summed messages, edge counts, coordinates, summed differences) and the four weight and bias arrays
  whole. The body loads every input buffer whole and stores two values whole: the new features into window 9 and the
  new coordinates into window 10, each a pure term of the loaded blocks; nothing is carried between points.
-/
import proofs.«431152_j56135222559302_3_alg».proof.Proof.Gen.KernelIdeal.Launch
import proofs.«431152_j56135222559302_3_alg».proof.Proof.Gen.KernelIdeal.Skeleton
import proofs.«431152_j56135222559302_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: a parameter, instantiated by the run
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or the block index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or the block index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the pipeline fetched it there or the block index stood still. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the pipeline fetched it there or the block index stood still. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the pipeline fetched it there or the block index stood still. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether the pipeline fetched it there or the block index stood still. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether the pipeline fetched it there or the block index stood still. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, whether the pipeline fetched it there or the block index stood still. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! The whole-buffer rectangles the body loads and stores through. -/

abbrev r1_S2000x128 : Rect S2000x128 := Rect.unit (s := S2000x128) ![0, 0] S2000x128.size inb_S2000x128_S2000x128_0_0
abbrev r1_S2000x1 : Rect S2000x1 := Rect.unit (s := S2000x1) ![0, 0] S2000x1.size inb_S2000x1_S2000x1_0_0
abbrev r1_S2000x3 : Rect S2000x3 := Rect.unit (s := S2000x3) ![0, 0] S2000x3.size inb_S2000x3_S2000x3_0_0
abbrev r1_S256x128 : Rect S256x128 := Rect.unit (s := S256x128) ![0, 0] S256x128.size inb_S256x128_S256x128_0_0
abbrev r1_S128 : Rect S128 := Rect.unit (s := S128) ![0] S128.size inb_S128_S128_0
abbrev r1_S128x128 : Rect S128x128 := Rect.unit (s := S128x128) ![0, 0] S128x128.size inb_S128x128_S128x128_0_0

/-- What the body's one store leaves in output window 9's staging buffer, from the input blocks. -/
def out1_9 (x0 : Vec F S2000x128 .f32) (x1 : Vec F S2000x128 .f32) (x2 : Vec F S2000x1 .f32) (x5 : Vec F S256x128 .bf16) (x6 : Vec F S128 .f32) (x7 : Vec F S128x128 .bf16) (x8 : Vec F S128 .f32) : Vec F S2000x128 .f32 :=
  View.canon [⟨r1_S2000x128, k1_pay2 (View.ld x0 r1_S2000x128) (View.ld x2 r1_S2000x1) (View.ld x1 r1_S2000x128) (View.ld x5 r1_S256x128) (View.ld x6 r1_S128) (View.ld x7 r1_S128x128) (View.ld x8 r1_S128)⟩]

/-- That store covers the buffer. -/
theorem cover1_9 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

/-- What the body's one store leaves in output window 10's staging buffer, from the input blocks. -/
def out1_10 (x2 : Vec F S2000x1 .f32) (x3 : Vec F S2000x3 .f32) (x4 : Vec F S2000x3 .f32) : Vec F S2000x3 .f32 :=
  View.canon [⟨r1_S2000x3, k1_pay3 (View.ld x2 r1_S2000x1) (View.ld x4 r1_S2000x3) (View.ld x3 r1_S2000x3)⟩]

/-- That store covers the buffer. -/
theorem cover1_10 (p0 : Vec F S2000x3 .f32) (y : S2000x3.Idx) :
    ∃ pc ∈ ([⟨r1_S2000x3, p0⟩] : List (View.Piece (Elt F) S2000x3 .f32)), y ∈ pc.1.set :=
  View.cover_of_tiled [⟨r1_S2000x3, p0⟩] S2000x3.size (by rfl) y

set_option maxHeartbeats 4000000 in
/-- The kernel body on whole staging memrefs — the inputs' at read contents `xW`, the outputs' at anything — runs to the
    continuation with the inputs' as they were and each output's at its store's value. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x3 .f32) (harg4 : arg4.IsWhole) (arg5 : Memref sig .tc .vmem S2000x3 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S2000x128 .f32) (harg10 : arg10.IsWhole) (arg11 : Memref sig .tc .vmem S2000x3 .f32) (harg11 : arg11.IsWhole)
    (x0 : Vec F S2000x128 .f32) (x1 : Vec F S2000x128 .f32) (x2 : Vec F S2000x1 .f32) (x3 : Vec F S2000x3 .f32) (x4 : Vec F S2000x3 .f32) (x5 : Vec F S256x128 .bf16) (x6 : Vec F S128 .f32) (x7 : Vec F S128x128 .bf16) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x5 x6 x7 x8) ∗ owns (c : Thread nD τ) arg11 fullShare (out1_10 x2 x3 x4)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9 arg10 harg10 arg11 harg11) K := by
  simp only [cc1__node_kernel_eq_skeleton]; unfold cc1__node_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-- The pipeline's proof data on core `c`: the arrays as the region finds them; after the body at point `t` each input's
    buffer at its block and each output's at its store's value of the input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 5 t) (iblk1 V c 6 t) (iblk1 V c 7 t) (iblk1 V c 8 t)
    | ⟨10, _⟩ => out1_10 (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any grid point: the inputs' memrefs hold their blocks, so the body's triple applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Whole

end
-- ==== Proof.WholeRunIdeal.lean ====
/-
  The whole program as a run: host operations, the edge region, host operations, the node region. The contents of
  the TensorCore's buffers at the four boundaries are a fold from the launch memory: `B1` is the first host
  stretch applied to the launch contents `B0`; `B2` is `B1` with the edge region's arrays at what its hundred
  write-backs leave (the input arrays as entered, each output array the fold of its flushed blocks); `B3` is the
  second host stretch applied to `B2`; `B4` is `B3` with the node region's arrays at what its twenty-five
  write-backs leave. Every weakly fair execution from any memory terminates, faults nowhere, and ends with every
  unscoped buffer at `B4` (`run_all`). No host operation and no region writes an argument's buffer — a region reads
  an argument only through an input window — so each argument's buffer walks back through the fold to its launch
  contents (`B4_main_argK`), which is the frame claim; the two results are read off `B4` at the node region's
  output arrays.
-/
import proofs.«431152_j56135222559302_3_alg».proof.Proof.EdgeRegionIdeal
import proofs.«431152_j56135222559302_3_alg».proof.Proof.NodeRegionIdeal
import proofs.«431152_j56135222559302_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m (c, b)
/-- After the first host stretch (the edge region's entry). -/
abbrev B1 : Dev nD → Valuation τ sig (Elt F) := fun c => StableHlo.after hostOps0 (B0 m c)
/-- The same read at the TensorCore's references. -/
abbrev Vin0 : (c : Dev nD) → (b : Ref sig .tc) → Buf (Elt F) ((c : Thread nD τ).loc b) := fun c b => B1 m c b
/-- At the edge region's exit: its arrays at what the pipeline leaves, every other buffer as entered. -/
def B2 (c : Dev nD) : Valuation τ sig (Elt F) :=
  Pipeline.withArrays spec0 c (B1 m c) fun w => (dat0 (Vin0 m) c).arrAt w cfg0.N
theorem B2_arr (c : Dev nD) (w : Fin cfg0.W) :
    B2 m c (Proc.devRef .tc (Pipeline.arrRef spec0 w)) = (dat0 (Vin0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Vout0 : (c : Dev nD) → (b : Ref sig .tc) → Buf (Elt F) ((c : Thread nD τ).loc b) := fun c b => B2 m c b
theorem hF0 (c : Dev nD) (w : Fin cfg0.W) : (dat0 (Vin0 m) c).arrAt w cfg0.N = Vout0 m c (Pipeline.arrRef spec0 w) :=
  (B2_arr m c w).symm
theorem hrest0 (c : Dev nD) : ∀ b, b ∉ Finset.univ.image (Pipeline.arrRef spec0) → Vout0 m c b = Vin0 m c b :=
  fun b hb => B2_of_ne m c b fun w e => hb (Finset.mem_image.mpr ⟨w, Finset.mem_univ _, e⟩)

/-- After the second host stretch (the node region's entry). -/
abbrev B3 : Dev nD → Valuation τ sig (Elt F) := fun c => StableHlo.after hostOps1 (B2 m c)
abbrev Vin1 : (c : Dev nD) → (b : Ref sig .tc) → Buf (Elt F) ((c : Thread nD τ).loc b) := fun c b => B3 m c b
/-- At the node region's exit: its arrays at what the pipeline leaves, every other buffer as entered. -/
def B4 (c : Dev nD) : Valuation τ sig (Elt F) :=
  Pipeline.withArrays spec1 c (B3 m c) fun w => (dat1 (Vin1 m) c).arrAt w cfg1.N
theorem B4_arr (c : Dev nD) (w : Fin cfg1.W) :
    B4 m c (Proc.devRef .tc (Pipeline.arrRef spec1 w)) = (dat1 (Vin1 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev Vout1 : (c : Dev nD) → (b : Ref sig .tc) → Buf (Elt F) ((c : Thread nD τ).loc b) := fun c b => B4 m c b
theorem hF1 (c : Dev nD) (w : Fin cfg1.W) : (dat1 (Vin1 m) c).arrAt w cfg1.N = Vout1 m c (Pipeline.arrRef spec1 w) :=
  (B4_arr m c w).symm
theorem hrest1 (c : Dev nD) : ∀ b, b ∉ Finset.univ.image (Pipeline.arrRef spec1) → Vout1 m c b = Vin1 m c b :=
  fun b hb => B4_of_ne m c b fun w e => hb (Finset.mem_image.mpr ⟨w, Finset.mem_univ _, e⟩)

/-! ## The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := (B4_arr m c 0).trans (((dat1 (Vin1 m) c).arrAt_in 0 rfl _).trans (A_eq1 (Vin1 m) c 0))
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B4_main_arg1 (c : Dev nD) : B4 m c (Proc.devRef .tc main_arg1) = m ((c : Thread nD τ).loc main_arg1) :=
  calc B4 m c (Proc.devRef .tc main_arg1)
    _ = B3 m c (Proc.devRef .tc main_arg1) := (B4_arr m c 3).trans (((dat1 (Vin1 m) c).arrAt_in 3 rfl _).trans (A_eq1 (Vin1 m) c 3))
    _ = B2 m c (Proc.devRef .tc main_arg1) := StableHlo.after_of_writes_sub hostOps1 _ hostOps1_writes (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := StableHlo.after_of_writes_sub hostOps1 _ hostOps1_writes (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl
theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := StableHlo.after_of_writes_sub hostOps1 _ hostOps1_writes (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl
theorem B4_main_arg8 (c : Dev nD) : B4 m c (Proc.devRef .tc main_arg8) = m ((c : Thread nD τ).loc main_arg8) :=
  calc B4 m c (Proc.devRef .tc main_arg8)
    _ = B3 m c (Proc.devRef .tc main_arg8) := B4_of_ne m c main_arg8 (by decide)
    _ = B2 m c (Proc.devRef .tc main_arg8) := StableHlo.after_of_writes_sub hostOps1 _ hostOps1_writes (by decide)
    _ = B1 m c (Proc.devRef .tc main_arg8) := B2_of_ne m c main_arg8 (by decide)
    _ = B0 m c (Proc.devRef .tc main_arg8) := StableHlo.after_of_writes_sub hostOps0 _ hostOps0_writes (by decide)
    _ = m ((c : Thread nD τ).loc main_arg8) := rfl
theorem B4_main_arg9 (c : Dev nD) : B4 m c (Proc.devRef .tc main_arg9) = m ((c : Thread nD τ).loc main_arg9) :=
  calc B4 m c (Proc.devRef .tc main_arg9)
    _ = B3 m c (Proc.devRef .tc main_arg9) := B4_of_ne m c main_arg9 (by decide)
    _ = B2 m c (Proc.devRef .tc main_arg9) := StableHlo.after_of_writes_sub hostOps1 _ hostOps1_writes (by decide)
    _ = B1 m c (Proc.devRef .tc main_arg9) := B2_of_ne m c main_arg9 (by decide)
    _ = B0 m c (Proc.devRef .tc main_arg9) := StableHlo.after_of_writes_sub hostOps0 _ hostOps0_writes (by decide)
    _ = m ((c : Thread nD τ).loc main_arg9) := rfl
theorem B4_main_arg10 (c : Dev nD) : B4 m c (Proc.devRef .tc main_arg10) = m ((c : Thread nD τ).loc main_arg10) :=
  calc B4 m c (Proc.devRef .tc main_arg10)
    _ = B3 m c (Proc.devRef .tc main_arg10) := B4_of_ne m c main_arg10 (by decide)
    _ = B2 m c (Proc.devRef .tc main_arg10) := StableHlo.after_of_writes_sub hostOps1 _ hostOps1_writes (by decide)
    _ = B1 m c (Proc.devRef .tc main_arg10) := B2_of_ne m c main_arg10 (by decide)
    _ = B0 m c (Proc.devRef .tc main_arg10) := StableHlo.after_of_writes_sub hostOps0 _ hostOps0_writes (by decide)
    _ = m ((c : Thread nD τ).loc main_arg10) := rfl
theorem B4_main_arg11 (c : Dev nD) : B4 m c (Proc.devRef .tc main_arg11) = m ((c : Thread nD τ).loc main_arg11) :=
  calc B4 m c (Proc.devRef .tc main_arg11)
    _ = B3 m c (Proc.devRef .tc main_arg11) := B4_of_ne m c main_arg11 (by decide)
    _ = B2 m c (Proc.devRef .tc main_arg11) := StableHlo.after_of_writes_sub hostOps1 _ hostOps1_writes (by decide)
    _ = B1 m c (Proc.devRef .tc main_arg11) := (B2_arr m c 6).trans (((dat0 (Vin0 m) c).arrAt_in 6 rfl _).trans (A_eq0 (Vin0 m) c 6))
    _ = B0 m c (Proc.devRef .tc main_arg11) := StableHlo.after_of_writes_sub hostOps0 _ hostOps0_writes (by decide)
    _ = m ((c : Thread nD τ).loc main_arg11) := rfl
theorem B4_main_arg12 (c : Dev nD) : B4 m c (Proc.devRef .tc main_arg12) = m ((c : Thread nD τ).loc main_arg12) :=
  calc B4 m c (Proc.devRef .tc main_arg12)
    _ = B3 m c (Proc.devRef .tc main_arg12) := B4_of_ne m c main_arg12 (by decide)
    _ = B2 m c (Proc.devRef .tc main_arg12) := StableHlo.after_of_writes_sub hostOps1 _ hostOps1_writes (by decide)
    _ = B1 m c (Proc.devRef .tc main_arg12) := B2_of_ne m c main_arg12 (by decide)
    _ = B0 m c (Proc.devRef .tc main_arg12) := StableHlo.after_of_writes_sub hostOps0 _ hostOps0_writes (by decide)
    _ = m ((c : Thread nD τ).loc main_arg12) := rfl
theorem B4_main_arg13 (c : Dev nD) : B4 m c (Proc.devRef .tc main_arg13) = m ((c : Thread nD τ).loc main_arg13) :=
  calc B4 m c (Proc.devRef .tc main_arg13)
    _ = B3 m c (Proc.devRef .tc main_arg13) := B4_of_ne m c main_arg13 (by decide)
    _ = B2 m c (Proc.devRef .tc main_arg13) := StableHlo.after_of_writes_sub hostOps1 _ hostOps1_writes (by decide)
    _ = B1 m c (Proc.devRef .tc main_arg13) := (B2_arr m c 8).trans (((dat0 (Vin0 m) c).arrAt_in 8 rfl _).trans (A_eq0 (Vin0 m) c 8))
    _ = B0 m c (Proc.devRef .tc main_arg13) := StableHlo.after_of_writes_sub hostOps0 _ hostOps0_writes (by decide)
    _ = m ((c : Thread nD τ).loc main_arg13) := rfl
theorem B4_main_arg14 (c : Dev nD) : B4 m c (Proc.devRef .tc main_arg14) = m ((c : Thread nD τ).loc main_arg14) :=
  calc B4 m c (Proc.devRef .tc main_arg14)
    _ = B3 m c (Proc.devRef .tc main_arg14) := B4_of_ne m c main_arg14 (by decide)
    _ = B2 m c (Proc.devRef .tc main_arg14) := StableHlo.after_of_writes_sub hostOps1 _ hostOps1_writes (by decide)
    _ = B1 m c (Proc.devRef .tc main_arg14) := B2_of_ne m c main_arg14 (by decide)
    _ = B0 m c (Proc.devRef .tc main_arg14) := StableHlo.after_of_writes_sub hostOps0 _ hostOps0_writes (by decide)
    _ = m ((c : Thread nD τ).loc main_arg14) := rfl
theorem B4_main_arg15 (c : Dev nD) : B4 m c (Proc.devRef .tc main_arg15) = m ((c : Thread nD τ).loc main_arg15) :=
  calc B4 m c (Proc.devRef .tc main_arg15)
    _ = B3 m c (Proc.devRef .tc main_arg15) := (B4_arr m c 6).trans (((dat1 (Vin1 m) c).arrAt_in 6 rfl _).trans (A_eq1 (Vin1 m) c 6))
    _ = B2 m c (Proc.devRef .tc main_arg15) := StableHlo.after_of_writes_sub hostOps1 _ hostOps1_writes (by decide)
    _ = B1 m c (Proc.devRef .tc main_arg15) := B2_of_ne m c main_arg15 (by decide)
    _ = B0 m c (Proc.devRef .tc main_arg15) := StableHlo.after_of_writes_sub hostOps0 _ hostOps0_writes (by decide)
    _ = m ((c : Thread nD τ).loc main_arg15) := rfl
theorem B4_main_arg16 (c : Dev nD) : B4 m c (Proc.devRef .tc main_arg16) = m ((c : Thread nD τ).loc main_arg16) :=
  calc B4 m c (Proc.devRef .tc main_arg16)
    _ = B3 m c (Proc.devRef .tc main_arg16) := B4_of_ne m c main_arg16 (by decide)
    _ = B2 m c (Proc.devRef .tc main_arg16) := StableHlo.after_of_writes_sub hostOps1 _ hostOps1_writes (by decide)
    _ = B1 m c (Proc.devRef .tc main_arg16) := B2_of_ne m c main_arg16 (by decide)
    _ = B0 m c (Proc.devRef .tc main_arg16) := StableHlo.after_of_writes_sub hostOps0 _ hostOps0_writes (by decide)
    _ = m ((c : Thread nD τ).loc main_arg16) := rfl
theorem B4_main_arg17 (c : Dev nD) : B4 m c (Proc.devRef .tc main_arg17) = m ((c : Thread nD τ).loc main_arg17) :=
  calc B4 m c (Proc.devRef .tc main_arg17)
    _ = B3 m c (Proc.devRef .tc main_arg17) := (B4_arr m c 8).trans (((dat1 (Vin1 m) c).arrAt_in 8 rfl _).trans (A_eq1 (Vin1 m) c 8))
    _ = B2 m c (Proc.devRef .tc main_arg17) := StableHlo.after_of_writes_sub hostOps1 _ hostOps1_writes (by decide)
    _ = B1 m c (Proc.devRef .tc main_arg17) := B2_of_ne m c main_arg17 (by decide)
    _ = B0 m c (Proc.devRef .tc main_arg17) := StableHlo.after_of_writes_sub hostOps0 _ hostOps0_writes (by decide)
    _ = m ((c : Thread nD τ).loc main_arg17) := rfl
theorem B4_main_arg18 (c : Dev nD) : B4 m c (Proc.devRef .tc main_arg18) = m ((c : Thread nD τ).loc main_arg18) :=
  calc B4 m c (Proc.devRef .tc main_arg18)
    _ = B3 m c (Proc.devRef .tc main_arg18) := B4_of_ne m c main_arg18 (by decide)
    _ = B2 m c (Proc.devRef .tc main_arg18) := StableHlo.after_of_writes_sub hostOps1 _ hostOps1_writes (by decide)
    _ = B1 m c (Proc.devRef .tc main_arg18) := B2_of_ne m c main_arg18 (by decide)
    _ = B0 m c (Proc.devRef .tc main_arg18) := StableHlo.after_of_writes_sub hostOps0 _ hostOps0_writes (by decide)
    _ = m ((c : Thread nD τ).loc main_arg18) := rfl
theorem B4_main_arg19 (c : Dev nD) : B4 m c (Proc.devRef .tc main_arg19) = m ((c : Thread nD τ).loc main_arg19) :=
  calc B4 m c (Proc.devRef .tc main_arg19)
    _ = B3 m c (Proc.devRef .tc main_arg19) := B4_of_ne m c main_arg19 (by decide)
    _ = B2 m c (Proc.devRef .tc main_arg19) := StableHlo.after_of_writes_sub hostOps1 _ hostOps1_writes (by decide)
    _ = B1 m c (Proc.devRef .tc main_arg19) := (B2_arr m c 10).trans (((dat0 (Vin0 m) c).arrAt_in 10 rfl _).trans (A_eq0 (Vin0 m) c 10))
    _ = B0 m c (Proc.devRef .tc main_arg19) := StableHlo.after_of_writes_sub hostOps0 _ hostOps0_writes (by decide)
    _ = m ((c : Thread nD τ).loc main_arg19) := rfl
theorem B4_main_arg20 (c : Dev nD) : B4 m c (Proc.devRef .tc main_arg20) = m ((c : Thread nD τ).loc main_arg20) :=
  calc B4 m c (Proc.devRef .tc main_arg20)
    _ = B3 m c (Proc.devRef .tc main_arg20) := B4_of_ne m c main_arg20 (by decide)
    _ = B2 m c (Proc.devRef .tc main_arg20) := StableHlo.after_of_writes_sub hostOps1 _ hostOps1_writes (by decide)
    _ = B1 m c (Proc.devRef .tc main_arg20) := B2_of_ne m c main_arg20 (by decide)
    _ = B0 m c (Proc.devRef .tc main_arg20) := StableHlo.after_of_writes_sub hostOps0 _ hostOps0_writes (by decide)
    _ = m ((c : Thread nD τ).loc main_arg20) := rfl
theorem B4_main_arg21 (c : Dev nD) : B4 m c (Proc.devRef .tc main_arg21) = m ((c : Thread nD τ).loc main_arg21) :=
  calc B4 m c (Proc.devRef .tc main_arg21)
    _ = B3 m c (Proc.devRef .tc main_arg21) := B4_of_ne m c main_arg21 (by decide)
    _ = B2 m c (Proc.devRef .tc main_arg21) := StableHlo.after_of_writes_sub hostOps1 _ hostOps1_writes (by decide)
    _ = B1 m c (Proc.devRef .tc main_arg21) := (B2_arr m c 12).trans (((dat0 (Vin0 m) c).arrAt_in 12 rfl _).trans (A_eq0 (Vin0 m) c 12))
    _ = B0 m c (Proc.devRef .tc main_arg21) := StableHlo.after_of_writes_sub hostOps0 _ hostOps0_writes (by decide)
    _ = m ((c : Thread nD τ).loc main_arg21) := rfl

/-! ## The proof data family and the thread state -/

/-- Every pipeline's proof data, each at its region's entry contents: a literal match on the pipeline index. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `B4`, the generator register at some state. -/
abbrev Tₙ (c : Dev nD) : sProp 𝕄 := iprop(StableHlo.held (c : Thread nD τ) (Pipeline.ucRefs τ sig) (B4 m c) ∗ ∃ r, prngReg c r)

/-! ## The regions as segments -/

-- a launch lemma stated over a pinned configuration unifies with the printed one only when unification may unfold
-- plain definitions in a metavariable's type
set_option backward.isDefEq.respectTransparency.types false in
/-- Region 0 over the thread state: entered with every unscoped buffer at `B1`, left with them at `B2`. Its arrays are
    split out of the unscoped buffers at entry and put back at what the write-backs left; the generator register passes
    through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a launch lemma stated over a pinned configuration unifies with the printed one only when unification may unfold
-- plain definitions in a metavariable's type
set_option backward.isDefEq.respectTransparency.types false in
/-- Region 1 over the thread state: entered with every unscoped buffer at `B3`, left with them at `B4`. Its arrays are
    split out of the unscoped buffers at entry and put back at what the write-backs left; the generator register passes
    through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's four segments in order. -/
abbrev segsT : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]

-- the launch theorem's implicit arguments are found by unifying its conclusion with this one, which takes unfolding
-- plain definitions in a metavariable's type
set_option backward.isDefEq.respectTransparency.types false in
/-- From any memory with zero counters every weakly fair execution of @main terminates, nothing faulting, and every
    final memory holds each unscoped buffer at `B4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segsT m)
    (fun c Q => by
      rewrite [main_chain c, Pipeline.Seg.run_eq_chain,
        show (segsT m).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: every argument's buffer ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c),
    (h c _ (mem_uc main_arg8 (by decide))).trans (B4_main_arg8 m c),
    (h c _ (mem_uc main_arg9 (by decide))).trans (B4_main_arg9 m c),
    (h c _ (mem_uc main_arg10 (by decide))).trans (B4_main_arg10 m c),
    (h c _ (mem_uc main_arg11 (by decide))).trans (B4_main_arg11 m c),
    (h c _ (mem_uc main_arg12 (by decide))).trans (B4_main_arg12 m c),
    (h c _ (mem_uc main_arg13 (by decide))).trans (B4_main_arg13 m c),
    (h c _ (mem_uc main_arg14 (by decide))).trans (B4_main_arg14 m c),
    (h c _ (mem_uc main_arg15 (by decide))).trans (B4_main_arg15 m c),
    (h c _ (mem_uc main_arg16 (by decide))).trans (B4_main_arg16 m c),
    (h c _ (mem_uc main_arg17 (by decide))).trans (B4_main_arg17 m c),
    (h c _ (mem_uc main_arg18 (by decide))).trans (B4_main_arg18 m c),
    (h c _ (mem_uc main_arg19 (by decide))).trans (B4_main_arg19 m c),
    (h c _ (mem_uc main_arg20 (by decide))).trans (B4_main_arg20 m c),
    (h c _ (mem_uc main_arg21 (by decide))).trans (B4_main_arg21 m c)⟩) (run_all m ρ)

/-- The run with its two results named: the node region's output arrays after its write-backs, beside the frame. -/
theorem run_results (ρ : Dev nD → PrngReg) : θ_run defs (onTc (τ := τ) (main (F := F))) ⟨m, fun _ => 0, ρ⟩ (fun r => ∀ c : Dev nD,
      r.2.mem ((c.tc : Thread nD τ).loc main_v56_0) = (dat1 (Vin1 m) c).arrAt 9 cfg1.N
      ∧ r.2.mem ((c.tc : Thread nD τ).loc main_v56_1) = (dat1 (Vin1 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_v56_0 (by decide))).trans (B4_arr m c 9),
    (h c _ (mem_uc main_v56_1 (by decide))).trans (B4_arr m c 10),
    (h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c),
    (h c _ (mem_uc main_arg8 (by decide))).trans (B4_main_arg8 m c),
    (h c _ (mem_uc main_arg9 (by decide))).trans (B4_main_arg9 m c),
    (h c _ (mem_uc main_arg10 (by decide))).trans (B4_main_arg10 m c),
    (h c _ (mem_uc main_arg11 (by decide))).trans (B4_main_arg11 m c),
    (h c _ (mem_uc main_arg12 (by decide))).trans (B4_main_arg12 m c),
    (h c _ (mem_uc main_arg13 (by decide))).trans (B4_main_arg13 m c),
    (h c _ (mem_uc main_arg14 (by decide))).trans (B4_main_arg14 m c),
    (h c _ (mem_uc main_arg15 (by decide))).trans (B4_main_arg15 m c),
    (h c _ (mem_uc main_arg16 (by decide))).trans (B4_main_arg16 m c),
    (h c _ (mem_uc main_arg17 (by decide))).trans (B4_main_arg17 m c),
    (h c _ (mem_uc main_arg18 (by decide))).trans (B4_main_arg18 m c),
    (h c _ (mem_uc main_arg19 (by decide))).trans (B4_main_arg19 m c),
    (h c _ (mem_uc main_arg20 (by decide))).trans (B4_main_arg20 m c),
    (h c _ (mem_uc main_arg21 (by decide))).trans (B4_main_arg21 m c)⟩) (run_all m ρ)

end Cert.KernelIdeal.Whole

end
-- ==== Proof.SixColumns.lean ====
/-
  Six columns set side by side, read at one entry.

  A vector `v` of length 400000 becomes the column `[400000, 1]` whose entry in row `e` is `v e`. Six such columns
  joined along the second axis make a `[400000, 6]` array; column `j` of the joined array is the `j`-th vector,
  because the columns before it take up exactly `j` places.
-/
import proofs.«431152_j56135222559302_3_alg».proof.Proof.Gen.KernelIdeal
import Idealize.ShloMosaic.Lib.Pipeline.Value
import Idealize.ShloMosaic.Lib.ValueIdx

noncomputable section

namespace Cert.KernelIdeal.SixColumns

open Idealize.ShloMosaic Idealize.ShloMosaic.ValueIdx Cert.KernelIdeal Cert.KernelIdeal.Gen

/-- A vector of length 400000 as a column. -/
abbrev col (v : FVec Ideal S400000 .f32) : FVec Ideal S400000x1 .f32 := broadcastInDim S400000x1 ![0] bcast_S400000_S400000x1_0 v

/-- The column's entry in row `e` is the vector's entry `e`. -/
theorem col_apply (v : FVec Ideal S400000 .f32) (e : Fin 400000) : col v (ix2 e (0 : Fin 1)) = v (ix1 e) := by
  refine broadcastInDim_apply _ _ v (ix2 e (0 : Fin 1)) (ix1 e) (fun a => ?_)
  match a with
  | ⟨0, _⟩ => rfl

/-- The six columns joined, at row `e` and column `j`: the `j`-th vector at `e`. -/
theorem six_cols_apply (v0 v1 v2 v3 v4 v5 : FVec Ideal S400000 .f32) (e : Fin 400000) (j : Fin 6) :
    concatenate S400000x6 1 [⟨S400000x1, col v0⟩, ⟨S400000x1, col v1⟩, ⟨S400000x1, col v2⟩, ⟨S400000x1, col v3⟩, ⟨S400000x1, col v4⟩, ⟨S400000x1, col v5⟩]
        concatenates_S400000x1_S400000x1_S400000x1_S400000x1_S400000x1_S400000x1_S400000x6_d1 (ix2 e j)
      = (![v0 (ix1 e), v1 (ix1 e), v2 (ix1 e), v3 (ix1 e), v4 (ix1 e), v5 (ix1 e)] : Fin 6 → EReal) j := by
  match j with
  | ⟨0, _⟩ =>
    exact (concatenate_apply_piece (1 : Fin S400000x6.rank) [⟨S400000x1, col v0⟩, ⟨S400000x1, col v1⟩, ⟨S400000x1, col v2⟩, ⟨S400000x1, col v3⟩, ⟨S400000x1, col v4⟩, ⟨S400000x1, col v5⟩]
      concatenates_S400000x1_S400000x1_S400000x1_S400000x1_S400000x1_S400000x1_S400000x6_d1 _ 0 (by show 0 < 6; decide) S400000x1 (col v0) rfl rfl 0 rfl (ix2 e (0 : Fin 1))
      (fun b hb => by
        match b with
        | ⟨0, _⟩ => rfl
        | ⟨1, _⟩ => exact absurd rfl hb)
      rfl).trans (col_apply v0 e)
  | ⟨1, _⟩ =>
    exact (concatenate_apply_piece (1 : Fin S400000x6.rank) [⟨S400000x1, col v0⟩, ⟨S400000x1, col v1⟩, ⟨S400000x1, col v2⟩, ⟨S400000x1, col v3⟩, ⟨S400000x1, col v4⟩, ⟨S400000x1, col v5⟩]
      concatenates_S400000x1_S400000x1_S400000x1_S400000x1_S400000x1_S400000x1_S400000x6_d1 _ 1 (by show 1 < 6; decide) S400000x1 (col v1) rfl rfl 1 rfl (ix2 e (0 : Fin 1))
      (fun b hb => by
        match b with
        | ⟨0, _⟩ => rfl
        | ⟨1, _⟩ => exact absurd rfl hb)
      rfl).trans (col_apply v1 e)
  | ⟨2, _⟩ =>
    exact (concatenate_apply_piece (1 : Fin S400000x6.rank) [⟨S400000x1, col v0⟩, ⟨S400000x1, col v1⟩, ⟨S400000x1, col v2⟩, ⟨S400000x1, col v3⟩, ⟨S400000x1, col v4⟩, ⟨S400000x1, col v5⟩]
      concatenates_S400000x1_S400000x1_S400000x1_S400000x1_S400000x1_S400000x1_S400000x6_d1 _ 2 (by show 2 < 6; decide) S400000x1 (col v2) rfl rfl 2 rfl (ix2 e (0 : Fin 1))
      (fun b hb => by
        match b with
        | ⟨0, _⟩ => rfl
        | ⟨1, _⟩ => exact absurd rfl hb)
      rfl).trans (col_apply v2 e)
  | ⟨3, _⟩ =>
    exact (concatenate_apply_piece (1 : Fin S400000x6.rank) [⟨S400000x1, col v0⟩, ⟨S400000x1, col v1⟩, ⟨S400000x1, col v2⟩, ⟨S400000x1, col v3⟩, ⟨S400000x1, col v4⟩, ⟨S400000x1, col v5⟩]
      concatenates_S400000x1_S400000x1_S400000x1_S400000x1_S400000x1_S400000x1_S400000x6_d1 _ 3 (by show 3 < 6; decide) S400000x1 (col v3) rfl rfl 3 rfl (ix2 e (0 : Fin 1))
      (fun b hb => by
        match b with
        | ⟨0, _⟩ => rfl
        | ⟨1, _⟩ => exact absurd rfl hb)
      rfl).trans (col_apply v3 e)
  | ⟨4, _⟩ =>
    exact (concatenate_apply_piece (1 : Fin S400000x6.rank) [⟨S400000x1, col v0⟩, ⟨S400000x1, col v1⟩, ⟨S400000x1, col v2⟩, ⟨S400000x1, col v3⟩, ⟨S400000x1, col v4⟩, ⟨S400000x1, col v5⟩]
      concatenates_S400000x1_S400000x1_S400000x1_S400000x1_S400000x1_S400000x1_S400000x6_d1 _ 4 (by show 4 < 6; decide) S400000x1 (col v4) rfl rfl 4 rfl (ix2 e (0 : Fin 1))
      (fun b hb => by
        match b with
        | ⟨0, _⟩ => rfl
        | ⟨1, _⟩ => exact absurd rfl hb)
      rfl).trans (col_apply v4 e)
  | ⟨5, _⟩ =>
    exact (concatenate_apply_piece (1 : Fin S400000x6.rank) [⟨S400000x1, col v0⟩, ⟨S400000x1, col v1⟩, ⟨S400000x1, col v2⟩, ⟨S400000x1, col v3⟩, ⟨S400000x1, col v4⟩, ⟨S400000x1, col v5⟩]
      concatenates_S400000x1_S400000x1_S400000x1_S400000x1_S400000x1_S400000x1_S400000x6_d1 _ 5 (by show 5 < 6; decide) S400000x1 (col v5) rfl rfl 5 rfl (ix2 e (0 : Fin 1))
      (fun b hb => by
        match b with
        | ⟨0, _⟩ => rfl
        | ⟨1, _⟩ => exact absurd rfl hb)
      rfl).trans (col_apply v5 e)

end Cert.KernelIdeal.SixColumns

end
-- ==== Proof.HostValues.lean ====
/-
  What the two stretches of host operations leave in the arrays the two regions read, as terms of the argument
  arrays (at the extended reals, where a change of float format is the identity).

  Before the edge region: the source and destination feature rows are gathers of `h` at the normalised indices (a
  negative index has the row count added), the coordinate differences a difference of two gathers of `x`, the six
  scalar features one six-column concatenation (the squared distance first), the first-layer weights the two row
  ranges 0 … 255 and 256 … 261 of the message weights, the other weights their arguments. No host operation writes an
  argument, so a bias the region reads through a window is its argument.

  Before the node region: the message array, the scaled-difference array and a column of ones are concatenated
  along the columns, scatter-added into zeros at the source indices, and the result cut into its three column
  ranges; the node weights are their arguments.
-/
import proofs.«431152_j56135222559302_3_alg».proof.Proof.WholeRunIdeal
import Idealize.ShloMosaic.Lib.StableHlo.Run
import Idealize.ShloMosaic.Lib.ValueIdx
import Idealize.ShloMosaic.Lib.Pipeline.Value
import proofs.«431152_j56135222559302_3_alg».proof.Proof.SixColumns

set_option maxRecDepth 16384

noncomputable section

namespace Cert.KernelIdeal.HostValues

open Cert.KernelIdeal Cert.KernelIdeal.Gen Cert.KernelIdeal.Whole
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The argument arrays, by their literal types -/

abbrev a0 : FVec Ideal S50000x128 .f32 := m ((c : Thread nD τ).loc main_arg0)
abbrev a1 : FVec Ideal S50000x3 .f32 := m ((c : Thread nD τ).loc main_arg1)
abbrev a4 : FVec Ideal S400000 .f32 := m ((c : Thread nD τ).loc main_arg4)
abbrev a5 : FVec Ideal S400000 .f32 := m ((c : Thread nD τ).loc main_arg5)
abbrev a6 : FVec Ideal S400000 .f32 := m ((c : Thread nD τ).loc main_arg6)
abbrev a7 : FVec Ideal S400000 .f32 := m ((c : Thread nD τ).loc main_arg7)
abbrev a8 : FVec Ideal S400000 .f32 := m ((c : Thread nD τ).loc main_arg8)
abbrev a9 : FVec Ideal S400000 .f32 := m ((c : Thread nD τ).loc main_arg9)
abbrev a10 : FVec Ideal S262x128 .f32 := m ((c : Thread nD τ).loc main_arg10)
abbrev a11 : FVec Ideal S128 .f32 := m ((c : Thread nD τ).loc main_arg11)
abbrev a12 : FVec Ideal S128x128 .f32 := m ((c : Thread nD τ).loc main_arg12)
abbrev a13 : FVec Ideal S128 .f32 := m ((c : Thread nD τ).loc main_arg13)
abbrev a14 : FVec Ideal S256x128 .f32 := m ((c : Thread nD τ).loc main_arg14)
abbrev a15 : FVec Ideal S128 .f32 := m ((c : Thread nD τ).loc main_arg15)
abbrev a16 : FVec Ideal S128x128 .f32 := m ((c : Thread nD τ).loc main_arg16)
abbrev a17 : FVec Ideal S128 .f32 := m ((c : Thread nD τ).loc main_arg17)
abbrev a18 : FVec Ideal S128x128 .f32 := m ((c : Thread nD τ).loc main_arg18)
abbrev a19 : FVec Ideal S128 .f32 := m ((c : Thread nD τ).loc main_arg19)
abbrev a20 : FVec Ideal S128x1 .f32 := m ((c : Thread nD τ).loc main_arg20)
abbrev a21 : FVec Ideal S1 .f32 := m ((c : Thread nD τ).loc main_arg21)
abbrev a2 : IVec S400000 32 := m ((c : Thread nD τ).loc main_arg2)
abbrev a3 : IVec S400000 32 := m ((c : Thread nD τ).loc main_arg3)

/-- The row indices a gather reads: a negative index has the row count added; as a one-column index array. -/
def nidx (s : IVec S400000 32) : IVec S400000x1 32 :=
  broadcastInDim S400000x1 ![0] bcast_S400000_S400000x1_0 (select (cmpi .slt s (broadcastInDim S400000 ![] bcast_S_S400000 (constantI S_ 32 0#32))) (addi s (broadcastInDim S400000 ![] bcast_S_S400000 (constantI S_ 32 50000#32))) s)

open Cert.KernelIdeal.SixColumns (col)

/-! ## Before the edge region -/

set_option maxHeartbeats 4000000 in
theorem in_v7 : (Vin0 m c main_v7 : FVec Ideal S400000x128 .bf16) = Host.gather gather_S50000x128_S400000x1_S400000x128_1_0_n_n_0_1_1128 (a0 m c) (nidx (a2 m c)) := by
  show StableHlo.after hostOps0 (fun b => m (c, b)) (Proc.devRef .tc main_v7) = _
  after_results
  rfl

set_option maxHeartbeats 4000000 in
theorem in_v14 : (Vin0 m c main_v14 : FVec Ideal S400000x128 .bf16) = Host.gather gather_S50000x128_S400000x1_S400000x128_1_0_n_n_0_1_1128 (a0 m c) (nidx (a3 m c)) := by
  show StableHlo.after hostOps0 (fun b => m (c, b)) (Proc.devRef .tc main_v14) = _
  after_results
  rfl

set_option maxHeartbeats 4000000 in
theorem in_v29 : (Vin0 m c main_v29 : FVec Ideal S400000x3 .f32) = subf (Host.gather gather_S50000x3_S400000x1_S400000x3_1_0_n_n_0_1_13 (a1 m c) (nidx (a2 m c)) : FVec Ideal S400000x3 .f32) (Host.gather gather_S50000x3_S400000x1_S400000x3_1_0_n_n_0_1_13 (a1 m c) (nidx (a3 m c))) := by
  show StableHlo.after hostOps0 (fun b => m (c, b)) (Proc.devRef .tc main_v29) = _
  after_results
  rfl

set_option maxHeartbeats 4000000 in
theorem in_v37 : (Vin0 m c main_v37 : FVec Ideal S400000x6 .f32) = concatenate S400000x6 1 [⟨S400000x1, col (mulf (a4 m c) (a4 m c))⟩, ⟨S400000x1, col (a5 m c)⟩, ⟨S400000x1, col (a6 m c)⟩, ⟨S400000x1, col (a7 m c)⟩, ⟨S400000x1, col (a8 m c)⟩, ⟨S400000x1, col (a9 m c)⟩] concatenates_S400000x1_S400000x1_S400000x1_S400000x1_S400000x1_S400000x1_S400000x6_d1 := by
  show StableHlo.after hostOps0 (fun b => m (c, b)) (Proc.devRef .tc main_v37) = _
  after_results
  rfl

set_option maxHeartbeats 4000000 in
theorem in_v39 : (Vin0 m c main_v39 : FVec Ideal S256x128 .bf16) = extractStridedSlice S256x128 ![0, 0] (a10 m c) slices_S262x128_S256x128_0_0 := by
  show StableHlo.after hostOps0 (fun b => m (c, b)) (Proc.devRef .tc main_v39) = _
  after_results
  rfl

set_option maxHeartbeats 4000000 in
theorem in_v41 : (Vin0 m c main_v41 : FVec Ideal S6x128 .bf16) = extractStridedSlice S6x128 ![256, 0] (a10 m c) slices_S262x128_S6x128_256_0 := by
  show StableHlo.after hostOps0 (fun b => m (c, b)) (Proc.devRef .tc main_v41) = _
  after_results
  rfl

set_option maxHeartbeats 4000000 in
theorem in_v42 : (Vin0 m c main_v42 : FVec Ideal S128x128 .bf16) = a12 m c := by
  show StableHlo.after hostOps0 (fun b => m (c, b)) (Proc.devRef .tc main_v42) = _
  after_results
  rfl

set_option maxHeartbeats 4000000 in
theorem in_v43 : (Vin0 m c main_v43 : FVec Ideal S128x128 .bf16) = a18 m c := by
  show StableHlo.after hostOps0 (fun b => m (c, b)) (Proc.devRef .tc main_v43) = _
  after_results
  rfl

set_option maxHeartbeats 4000000 in
theorem in_v44 : (Vin0 m c main_v44 : FVec Ideal S128x1 .bf16) = a20 m c := by
  show StableHlo.after hostOps0 (fun b => m (c, b)) (Proc.devRef .tc main_v44) = _
  after_results
  rfl

theorem in_arg11 : (Vin0 m c main_arg11 : FVec Ideal S128 .f32) = a11 m c :=
  StableHlo.after_of_writes_sub hostOps0 _ hostOps0_writes (by decide)

theorem in_arg13 : (Vin0 m c main_arg13 : FVec Ideal S128 .f32) = a13 m c :=
  StableHlo.after_of_writes_sub hostOps0 _ hostOps0_writes (by decide)

theorem in_arg19 : (Vin0 m c main_arg19 : FVec Ideal S128 .f32) = a19 m c :=
  StableHlo.after_of_writes_sub hostOps0 _ hostOps0_writes (by decide)

theorem in_arg21 : (Vin0 m c main_arg21 : FVec Ideal S1 .f32) = a21 m c :=
  StableHlo.after_of_writes_sub hostOps0 _ hostOps0_writes (by decide)

/-- The six scalar features of edge `e`, column by column. -/
theorem in_v37_apply (e : Fin 400000) (j : Fin 6) :
    (Vin0 m c main_v37 : FVec Ideal S400000x6 .f32) (ix2 e j)
      = (![a4 m c (ix1 e) * a4 m c (ix1 e), a5 m c (ix1 e), a6 m c (ix1 e), a7 m c (ix1 e), a8 m c (ix1 e), a9 m c (ix1 e)] : Fin 6 → EReal) j := by
  rw [in_v37]
  exact Cert.KernelIdeal.SixColumns.six_cols_apply (mulf (a4 m c) (a4 m c)) (a5 m c) (a6 m c) (a7 m c) (a8 m c) (a9 m c) e j

/-- The first-layer weights' two row ranges. -/
theorem in_v39_apply (k : Fin 256) (q : Fin 128) : (Vin0 m c main_v39 : FVec Ideal S256x128 .bf16) (ix2 k q) = a10 m c (ix2 (Fin.castAdd 6 k) q) := by
  rw [in_v39]
  exact extractStridedSlice_apply _ _ _ _ _ (fun a => by match a with | ⟨0, _⟩ => simp | ⟨1, _⟩ => simp)

theorem in_v41_apply (k : Fin 6) (q : Fin 128) : (Vin0 m c main_v41 : FVec Ideal S6x128 .bf16) (ix2 k q) = a10 m c (ix2 (Fin.natAdd 256 k) q) := by
  rw [in_v41]
  exact extractStridedSlice_apply _ _ _ _ _ (fun a => by match a with | ⟨0, _⟩ => simp | ⟨1, _⟩ => simp)

/-! ## Before the node region -/

/-- The three arrays joined along the columns and scatter-added into zeros at the rows `src` names. -/
def fused (src : IVec S400000 32) (M : S400000x128.Idx → EReal) (D : S400000x3.Idx → EReal) : FVec Ideal S50000x132 .f32 :=
  Host.scatterAdd (F := Ideal) scatter_S50000x132_S400000x1_S400000x132_1_0_0_1
    (broadcastInDim S50000x132 ![] bcast_S_S50000x132 (constant (F := Ideal) S_ .f32 0x00000000#32))
    (broadcastInDim S400000x1 ![0] bcast_S400000_S400000x1_0 src)
    (concatenate S400000x132 1 [⟨S400000x128, M⟩, ⟨S400000x3, D⟩, ⟨S400000x1, broadcastInDim S400000x1 ![] bcast_S_S400000x1 (constant (F := Ideal) S_ .f32 0x3F800000#32)⟩] concatenates_S400000x128_S400000x3_S400000x1_S400000x132_d1)

/-- An argument's buffer at the edge region's exit is the argument. -/
theorem B2_arg (b : Ref sig .tc) (h2 : ∀ w, Pipeline.arrRef spec0 w ≠ b) (h1 : b ∉ hostOps0_W) :
    B2 m c (Proc.devRef .tc b) = m ((c : Thread nD τ).loc b) :=
  (B2_of_ne m c b h2).trans (StableHlo.after_of_writes_sub hostOps0 _ hostOps0_writes h1)

set_option maxHeartbeats 4000000 in
theorem in1_v51 : (Vin1 m c main_v51 : FVec Ideal S50000x128 .f32) = extractStridedSlice S50000x128 ![0, 0] (fused (B2 m c (Proc.devRef .tc main_arg2)) (B2 m c (Proc.devRef .tc main_v45_0)) (B2 m c (Proc.devRef .tc main_v45_1))) slices_S50000x132_S50000x128_0_0 := by
  show StableHlo.after hostOps1 (B2 m c) (Proc.devRef .tc main_v51) = _
  after_results
  rfl

set_option maxHeartbeats 4000000 in
theorem in1_v52 : (Vin1 m c main_v52 : FVec Ideal S50000x3 .f32) = extractStridedSlice S50000x3 ![0, 128] (fused (B2 m c (Proc.devRef .tc main_arg2)) (B2 m c (Proc.devRef .tc main_v45_0)) (B2 m c (Proc.devRef .tc main_v45_1))) slices_S50000x132_S50000x3_0_128 := by
  show StableHlo.after hostOps1 (B2 m c) (Proc.devRef .tc main_v52) = _
  after_results
  rfl

set_option maxHeartbeats 4000000 in
theorem in1_v53 : (Vin1 m c main_v53 : FVec Ideal S50000x1 .f32) = extractStridedSlice S50000x1 ![0, 131] (fused (B2 m c (Proc.devRef .tc main_arg2)) (B2 m c (Proc.devRef .tc main_v45_0)) (B2 m c (Proc.devRef .tc main_v45_1))) slices_S50000x132_S50000x1_0_131 := by
  show StableHlo.after hostOps1 (B2 m c) (Proc.devRef .tc main_v53) = _
  after_results
  rfl

set_option maxHeartbeats 4000000 in
theorem in1_v54 : (Vin1 m c main_v54 : FVec Ideal S256x128 .bf16) = a14 m c := by
  have h : (Vin1 m c main_v54 : FVec Ideal S256x128 .bf16) = (B2 m c (Proc.devRef .tc main_arg14) : FVec Ideal S256x128 .f32) := by
    show StableHlo.after hostOps1 (B2 m c) (Proc.devRef .tc main_v54) = _
    after_results
    rfl
  exact h.trans (B2_arg m c main_arg14 (by decide) (by decide))

set_option maxHeartbeats 4000000 in
theorem in1_v55 : (Vin1 m c main_v55 : FVec Ideal S128x128 .bf16) = a16 m c := by
  have h : (Vin1 m c main_v55 : FVec Ideal S128x128 .bf16) = (B2 m c (Proc.devRef .tc main_arg16) : FVec Ideal S128x128 .f32) := by
    show StableHlo.after hostOps1 (B2 m c) (Proc.devRef .tc main_v55) = _
    after_results
    rfl
  exact h.trans (B2_arg m c main_arg16 (by decide) (by decide))

theorem in1_arg0 : (Vin1 m c main_arg0 : FVec Ideal S50000x128 .f32) = a0 m c :=
  (StableHlo.after_of_writes_sub hostOps1 _ hostOps1_writes (by decide)).trans (B2_arg m c main_arg0 (by decide) (by decide))

theorem in1_arg1 : (Vin1 m c main_arg1 : FVec Ideal S50000x3 .f32) = a1 m c :=
  (StableHlo.after_of_writes_sub hostOps1 _ hostOps1_writes (by decide)).trans (B2_arg m c main_arg1 (by decide) (by decide))

theorem in1_arg15 : (Vin1 m c main_arg15 : FVec Ideal S128 .f32) = a15 m c :=
  (StableHlo.after_of_writes_sub hostOps1 _ hostOps1_writes (by decide)).trans (B2_arg m c main_arg15 (by decide) (by decide))

theorem in1_arg17 : (Vin1 m c main_arg17 : FVec Ideal S128 .f32) = a17 m c :=
  (StableHlo.after_of_writes_sub hostOps1 _ hostOps1_writes (by decide)).trans (B2_arg m c main_arg17 (by decide) (by decide))

theorem B2_src : (B2 m c (Proc.devRef .tc main_arg2) : IVec S400000 32) = a2 m c := B2_arg m c main_arg2 (by decide) (by decide)

end Cert.KernelIdeal.HostValues

end
-- ==== Proof.LayerSpec.lean ====
/-
  The message-passing layer's mathematics on the extended reals, index by index, over plain functions of
  finite indices (no program, no array shape).

  An edge `e` carries a feature row `feat = [h_src | h_dst | six scalars]` of length 262. Two dense layers with
  the activation `silu x = x · σ(x)`, `σ(x) = 1 / (1 + e⁻ˣ)`, turn it into the message row `msg` (length 128); two
  more, closed by `tanh`, turn the message into one coefficient `coef`, which scales the edge's coordinate
  difference. A node `n` averages the messages and the scaled differences of the edges whose source index is `n`
  (a sum over those edges divided by `max (count, 1)`), feeds `[h | mean message]` through two more dense layers
  and adds the result to `h`; the mean scaled difference is added to `x`.

  A dense layer's output is `(∑ k, a k · W k) + b`: a finite sum in the commutative monoid of the extended reals,
  so splitting the sum along a concatenation (`Fin.sum_univ_add`) needs no finiteness.
-/
import Idealize.ShloMosaic.PureOps.Ideal
import Mathlib.Algebra.BigOperators.Fin

noncomputable section

namespace Cert.Layer

open Idealize.ShloMosaic

/-- `x · σ(x)`, with `σ(x) = 1 / (1 + e⁻ˣ)` at the extended reals (`σ ⊥ = 0`, `σ ⊤ = 1`). -/
def silu (x : EReal) : EReal := x * Ideal.logistic x

/-- The same, with `σ` spelt out as the quotient. -/
theorem silu_eq (x : EReal) : silu x = x * Ideal.div 1 (1 + Ideal.exp (-x)) := rfl

/-- One output of a dense layer: the inputs against one column of the weights, plus that column's bias. -/
def dense {K : ℕ} (a W : Fin K → EReal) (b : EReal) : EReal := (∑ k, a k * W k) + b

/-- A dense layer over a concatenated input is the two partial sums, then the bias. -/
theorem dense_append {m n : ℕ} (a₁ : Fin m → EReal) (a₂ : Fin n → EReal) (W : Fin (m + n) → EReal) (b : EReal) :
    dense (Fin.append a₁ a₂) W b
      = ((∑ k, a₁ k * W (Fin.castAdd n k)) + ∑ k, a₂ k * W (Fin.natAdd m k)) + b := by
  unfold dense
  rw [Fin.sum_univ_add]
  simp only [Fin.append_left, Fin.append_right]

/-- An edge's feature row: source features, destination features, the six scalar features. -/
def feat (hs hd : Fin 128 → EReal) (x6 : Fin 6 → EReal) : Fin 262 → EReal :=
  Fin.append (Fin.append hs hd) x6

section Edge

variable (W1 : Fin 262 → Fin 128 → EReal) (b1 : Fin 128 → EReal)
  (W2 : Fin 128 → Fin 128 → EReal) (b2 : Fin 128 → EReal)
  (cW1 : Fin 128 → Fin 128 → EReal) (cb1 : Fin 128 → EReal)
  (cW2 : Fin 128 → EReal) (cb2 : EReal)

/-- The message MLP's hidden row. -/
def hidden (f : Fin 262 → EReal) (c : Fin 128) : EReal := silu (dense f (W1 · c) (b1 c))

/-- The message row of an edge with feature row `f`. -/
def msg (f : Fin 262 → EReal) (c : Fin 128) : EReal :=
  silu (dense (hidden W1 b1 f) (W2 · c) (b2 c))

/-- The coefficient MLP's hidden row, from a message row. -/
def chidden (μ : Fin 128 → EReal) (c : Fin 128) : EReal := silu (dense μ (cW1 · c) (cb1 c))

/-- The coordinate coefficient of an edge with message row `μ`. -/
def coefOf (μ : Fin 128 → EReal) : EReal := Ideal.tanh (dense (chidden cW1 cb1 μ) cW2 cb2)

end Edge

section Node

variable {E N : ℕ}

/-- The sum of `v` over the edges whose (signed) source word is node `n`. -/
def segsum (src : Fin E → BitVec 32) (v : Fin E → EReal) (n : Fin N) : EReal :=
  ∑ e ∈ Finset.univ.filter (fun e : Fin E => (src e).toInt = (n.val : ℤ)), v e

/-- The mean's denominator: the number of such edges, at least one. -/
def denom (src : Fin E → BitVec 32) (n : Fin N) : EReal := max (0 + segsum src (fun _ => (1 : EReal)) n) 1

/-- The mean over those edges (the sum into a zero, over the denominator). -/
def segmean (src : Fin E → BitVec 32) (v : Fin E → EReal) (n : Fin N) : EReal :=
  Ideal.div (0 + segsum src v n) (denom src n)

variable (hW1 : Fin 256 → Fin 128 → EReal) (hb1 : Fin 128 → EReal)
  (hW2 : Fin 128 → Fin 128 → EReal) (hb2 : Fin 128 → EReal)

/-- The node MLP's hidden row, from `[h | mean message]`. -/
def nhidden (hrow mrow : Fin 128 → EReal) (c : Fin 128) : EReal :=
  silu (dense (Fin.append hrow mrow : Fin 256 → EReal) (hW1 · c) (hb1 c))

/-- The node update of the features: `h + MLP [h | mean message]`. -/
def hNew (hrow mrow : Fin 128 → EReal) (c : Fin 128) : EReal :=
  hrow c + dense (nhidden hW1 hb1 hrow mrow) (hW2 · c) (hb2 c)

end Node

/-! ## The whole layer, from the gathered rows -/

section Top

variable {E N : ℕ}
variable (src : Fin E → BitVec 32) (HS HD : Fin E → Fin 128 → EReal) (X6 : Fin E → Fin 6 → EReal)
  (DF : Fin E → Fin 3 → EReal)
  (W1 : Fin 262 → Fin 128 → EReal) (b1 : Fin 128 → EReal)
  (W2 : Fin 128 → Fin 128 → EReal) (b2 : Fin 128 → EReal)
  (cW1 : Fin 128 → Fin 128 → EReal) (cb1 : Fin 128 → EReal)
  (cW2 : Fin 128 → EReal) (cb2 : EReal)
  (hW1 : Fin 256 → Fin 128 → EReal) (hb1 : Fin 128 → EReal)
  (hW2 : Fin 128 → Fin 128 → EReal) (hb2 : Fin 128 → EReal)

/-- Edge `e`'s message row. -/
def edgeMsg (e : Fin E) (c : Fin 128) : EReal := msg W1 b1 W2 b2 (feat (HS e) (HD e) (X6 e)) c

/-- Edge `e`'s scaled coordinate difference. -/
def edgeDelta (e : Fin E) (a : Fin 3) : EReal :=
  DF e a * coefOf cW1 cb1 cW2 cb2 (edgeMsg HS HD X6 W1 b1 W2 b2 e)

/-- The layer's first result: node `n`'s new features. -/
def hOut (h : Fin N → Fin 128 → EReal) (n : Fin N) (c : Fin 128) : EReal :=
  hNew hW1 hb1 hW2 hb2 (h n) (fun j => segmean src (fun e => edgeMsg HS HD X6 W1 b1 W2 b2 e j) n) c

/-- The layer's second result: node `n`'s new coordinates. -/
def xOut (x : Fin N → Fin 3 → EReal) (n : Fin N) (a : Fin 3) : EReal :=
  x n a + segmean src (fun e => edgeDelta HS HD X6 DF W1 b1 W2 b2 cW1 cb1 cW2 cb2 e a) n

end Top

/-- The word of `1.0` denotes the extended real `1`. -/
theorem ofBits_one_f32 : Ideal.ofBits .f32 0x3F800000#32 = 1 := by
  simp [Ideal.ofBits, Ideal.ieee, -EReal.coe_mul]; norm_num

end Cert.Layer

end
-- ==== Proof.EdgePayload.lean ====
/-
  The edge kernel's two stored values, read entry by entry on the extended reals.

  For an edge row `r` the kernel forms the feature row `[h_src | h_dst | six scalars]` of length 262 = 256 + 6, feeds it
  through two dense layers with `silu x = x · σ(x)` (the first one as two partial products, over the first 256 and the
  last 6 rows of its weights), which gives the message row; two further dense layers closed by `tanh`, the last with a
  single output column, give one coefficient, which scales the row's coordinate difference. Every matrix product at an
  entry is the finite sum over the contraction index; every bias is one row repeated; narrowing a format changes no value.
-/
import proofs.«431152_j56135222559302_3_alg».proof.Proof.Gen.KernelIdeal.Skeleton
import proofs.«431152_j56135222559302_3_alg».proof.Proof.LayerSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.EdgeValue

open Idealize.ShloMosaic Idealize.ShloMosaic.ValueIdx Cert.KernelIdeal Cert.KernelIdeal.Gen

/-! ## The four matrix products as sums over the contraction index -/

theorem lhs_d256_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_d256_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_d256_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_d256_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The 256-wide product at (r, c): row `r` of the left operand against column `c` of the right, into a zero accumulator. -/
theorem mm_d256_apply (a : FVec Ideal S4000x256 .bf16) (w : FVec Ideal S256x128 .bf16) (r : Fin 4000) (c : Fin 128) :
    matmul dot_S4000x256_S256x128_S4000x128_1_0_0_1_n_n none a w (constant (F := Ideal) S4000x128 .f32 0x00000000#32) (ix2 r c)
      = ∑ k : Fin 256, a (ix2 r k) * w (ix2 k c) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 r c) ((ValueIdx.contrEquiv1 dot_S4000x256_S256x128_S4000x128_1_0_0_1_n_n 256 rfl rfl).symm k) = ix2 r k := funext fun x => Fin.ext (by
    match x with
    | ⟨0, _⟩ => exact lhs_d256_0 _ _
    | ⟨1, _⟩ => exact (lhs_d256_1 _ _).trans hk)
  have er : dot_S4000x256_S256x128_S4000x128_1_0_0_1_n_n.rhsIdx (ix2 r c) ((ValueIdx.contrEquiv1 dot_S4000x256_S256x128_S4000x128_1_0_0_1_n_n 256 rfl rfl).symm k) = ix2 k c := funext fun x => Fin.ext (by
    match x with
    | ⟨0, _⟩ => exact (rhs_d256_0 _ _).trans hk
    | ⟨1, _⟩ => exact rhs_d256_1 _ _)
  rw [el, er]

theorem lhs_d6_0 (i : S4000x128.Idx) (q : dot_S4000x6_S6x128_S4000x128_1_0_0_1_n_n.contr.Idx) :
    (dot_S4000x6_S6x128_S4000x128_1_0_0_1_n_n.lhsIdx i q 0).val = (i 0).val := by
  unfold DotDims.lhsIdx
  rw [dif_neg (show ¬(0 : Fin S4000x6.rank) ∈ dot_S4000x6_S6x128_S4000x128_1_0_0_1_n_n.lhsBatch by decide), dif_pos (show (0 : Fin S4000x6.rank) ∈ dot_S4000x6_S6x128_S4000x128_1_0_0_1_n_n.lhsNonContracting by decide)]
  rfl
theorem lhs_d6_1 (i : S4000x128.Idx) (q : dot_S4000x6_S6x128_S4000x128_1_0_0_1_n_n.contr.Idx) :
    (dot_S4000x6_S6x128_S4000x128_1_0_0_1_n_n.lhsIdx i q 1).val = (q ⟨0, by decide⟩).val :=
  dot_S4000x6_S6x128_S4000x128_1_0_0_1_n_n.lhsIdx_val_of_single rfl i q
theorem rhs_d6_0 (i : S4000x128.Idx) (q : dot_S4000x6_S6x128_S4000x128_1_0_0_1_n_n.contr.Idx) :
    (dot_S4000x6_S6x128_S4000x128_1_0_0_1_n_n.rhsIdx i q 0).val = (q ⟨0, by decide⟩).val :=
  dot_S4000x6_S6x128_S4000x128_1_0_0_1_n_n.rhsIdx_val_of_single rfl i q
theorem rhs_d6_1 (i : S4000x128.Idx) (q : dot_S4000x6_S6x128_S4000x128_1_0_0_1_n_n.contr.Idx) :
    (dot_S4000x6_S6x128_S4000x128_1_0_0_1_n_n.rhsIdx i q 1).val = (i 1).val := by
  unfold DotDims.rhsIdx
  rw [dif_neg (show ¬(1 : Fin S6x128.rank) ∈ dot_S4000x6_S6x128_S4000x128_1_0_0_1_n_n.rhsBatch by decide), dif_pos (show (1 : Fin S6x128.rank) ∈ dot_S4000x6_S6x128_S4000x128_1_0_0_1_n_n.rhsNonContracting by decide)]
  rfl

/-- The 6-wide product at (r, c): row `r` of the left operand against column `c` of the right, into a zero accumulator. -/
theorem mm_d6_apply (a : FVec Ideal S4000x6 .bf16) (w : FVec Ideal S6x128 .bf16) (r : Fin 4000) (c : Fin 128) :
    matmul dot_S4000x6_S6x128_S4000x128_1_0_0_1_n_n none a w (constant (F := Ideal) S4000x128 .f32 0x00000000#32) (ix2 r c)
      = ∑ k : Fin 6, a (ix2 r k) * w (ix2 k c) := by
  simp only [matmul]
  rw [Ideal.matmul_constant_zero_apply, ← Equiv.sum_comp (ValueIdx.contrEquiv1 dot_S4000x6_S6x128_S4000x128_1_0_0_1_n_n 6 rfl rfl).symm]
  refine Finset.sum_congr rfl fun k _ => ?_
  have hk := ValueIdx.contrEquiv1_symm_val dot_S4000x6_S6x128_S4000x128_1_0_0_1_n_n 6 rfl rfl k
  have el : dot_S4000x6_S6x128_S4000x128_1_0_0_1_n_n.lhsIdx (ix2 r c) ((ValueIdx.contrEquiv1 dot_S4000x6_S6x128_S4000x128_1_0_0_1_n_n 6 rfl rfl).symm k) = ix2 r k := funext fun x => Fin.ext (by
    match x with
    | ⟨0, _⟩ => exact lhs_d6_0 _ _
    | ⟨1, _⟩ => exact (lhs_d6_1 _ _).trans hk)
  have er : dot_S4000x6_S6x128_S4000x128_1_0_0_1_n_n.rhsIdx (ix2 r c) ((ValueIdx.contrEquiv1 dot_S4000x6_S6x128_S4000x128_1_0_0_1_n_n 6 rfl rfl).symm k) = ix2 k c := funext fun x => Fin.ext (by
    match x with
    | ⟨0, _⟩ => exact (rhs_d6_0 _ _).trans hk
    | ⟨1, _⟩ => exact rhs_d6_1 _ _)
  rw [el, er]

theorem lhs_d128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_d128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_d128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_d128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The 128-wide product at (r, c): row `r` of the left operand against column `c` of the right, into a zero accumulator. -/
theorem mm_d128_apply (a : FVec Ideal S4000x128 .bf16) (w : FVec Ideal S128x128 .bf16) (r : Fin 4000) (c : Fin 128) :
    matmul dot_S4000x128_S128x128_S4000x128_1_0_0_1_n_n none a w (constant (F := Ideal) S4000x128 .f32 0x00000000#32) (ix2 r c)
      = ∑ k : Fin 128, a (ix2 r k) * w (ix2 k c) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r c) ((ValueIdx.contrEquiv1 dot_S4000x128_S128x128_S4000x128_1_0_0_1_n_n 128 rfl rfl).symm k) = ix2 r k := funext fun x => Fin.ext (by
    match x with
    | ⟨0, _⟩ => exact lhs_d128_0 _ _
    | ⟨1, _⟩ => exact (lhs_d128_1 _ _).trans hk)
  have er : dot_S4000x128_S128x128_S4000x128_1_0_0_1_n_n.rhsIdx (ix2 r c) ((ValueIdx.contrEquiv1 dot_S4000x128_S128x128_S4000x128_1_0_0_1_n_n 128 rfl rfl).symm k) = ix2 k c := funext fun x => Fin.ext (by
    match x with
    | ⟨0, _⟩ => exact (rhs_d128_0 _ _).trans hk
    | ⟨1, _⟩ => exact rhs_d128_1 _ _)
  rw [el, er]

theorem lhs_d128c_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_d128c_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_d128c_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_d128c_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The 128-wide product with a single output column, at (r, c): row `r` against that column, into a zero accumulator. -/
theorem mm_d128c_apply (a : FVec Ideal S4000x128 .bf16) (w : FVec Ideal S128x1 .bf16) (r : Fin 4000) (c : Fin 1) :
    matmul dot_S4000x128_S128x1_S4000x1_1_0_0_1_n_n none a w (constant (F := Ideal) S4000x1 .f32 0x00000000#32) (ix2 r c)
      = ∑ k : Fin 128, a (ix2 r k) * w (ix2 k c) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 r c) ((ValueIdx.contrEquiv1 dot_S4000x128_S128x1_S4000x1_1_0_0_1_n_n 128 rfl rfl).symm k) = ix2 r k := funext fun x => Fin.ext (by
    match x with
    | ⟨0, _⟩ => exact lhs_d128c_0 _ _
    | ⟨1, _⟩ => exact (lhs_d128c_1 _ _).trans hk)
  have er : dot_S4000x128_S128x1_S4000x1_1_0_0_1_n_n.rhsIdx (ix2 r c) ((ValueIdx.contrEquiv1 dot_S4000x128_S128x1_S4000x1_1_0_0_1_n_n 128 rfl rfl).symm k) = ix2 k c := funext fun x => Fin.ext (by
    match x with
    | ⟨0, _⟩ => exact (rhs_d128c_0 _ _).trans hk
    | ⟨1, _⟩ => exact rhs_d128c_1 _ _)
  rw [el, er]

/-! ## Layout operations at an index -/

/-- Two 128-wide row blocks laid side by side, read at column `k`, are the two rows appended. -/
theorem cat_apply (x₁ x₂ : FVec Ideal S4000x128 .bf16) (h : Shape.Concatenates [S4000x128, S4000x128] S4000x256 1)
    (r : Fin 4000) (k : Fin 256) :
    concatenate S4000x256 1 [⟨S4000x128, x₁⟩, ⟨S4000x128, x₂⟩] h (ix2 r k)
      = (Fin.append (fun j : Fin 128 => x₁ (ix2 r j)) (fun j : Fin 128 => x₂ (ix2 r j)) : Fin 256 → EReal) k := by
  refine Fin.addCases (m := 128) (n := 128)
    (motive := fun k : Fin (128 + 128) => concatenate S4000x256 1 [⟨S4000x128, x₁⟩, ⟨S4000x128, x₂⟩] h (ix2 r k)
      = (Fin.append (fun j : Fin 128 => x₁ (ix2 r j)) (fun j : Fin 128 => x₂ (ix2 r j))) k) (fun j => ?_) (fun j => ?_) k
  · rw [Fin.append_left]
    exact concatenate_pair_apply_left (1 : Fin S4000x256.rank) x₁ x₂ h (ix2 r (Fin.castAdd 128 j)) rfl (ix2 r j)
      (fun b => match b with
        | ⟨0, _⟩ => rfl
        | ⟨1, _⟩ => rfl)
  · rw [Fin.append_right]
    exact concatenate_pair_apply_right (1 : Fin S4000x256.rank) x₁ x₂ h (ix2 r (Fin.natAdd 128 j)) rfl rfl (ix2 r j)
      (fun b => match b with
        | ⟨0, _⟩ => fun _ => rfl
        | ⟨1, _⟩ => fun hne => absurd rfl hne)
      (show j.val + 128 = 128 + j.val from Nat.add_comm _ _)

/-- A bias row `[128]`, viewed as `[1,128]` and repeated down 4000 rows, reads its entry at the column. -/
theorem bias_apply (b : FVec Ideal S128 .f32) (h₁ : S128.ShapeCasts S1x128) (h₂ : S1x128.Broadcasts S4000x128)
    (r : Fin 4000) (c : Fin 128) :
    broadcastTo S4000x128 (shapeCast S1x128 b h₁) h₂ (ix2 r c) = b (ix1 c) := by
  rw [broadcastTo_1b_ab_apply, shapeCast_a_1a_apply]

/-- The one-entry bias `[1]`, viewed as `[1,1]` and repeated down 4000 rows, reads its entry. -/
theorem bias1_apply (b : FVec Ideal S1 .f32) (h₁ : S1.ShapeCasts S1x1) (h₂ : S1x1.Broadcasts S4000x1)
    (r : Fin 4000) (u : Fin 1) :
    broadcastTo S4000x1 (shapeCast S1x1 b h₁) h₂ (ix2 r u) = b (ix1 u) := by
  rw [broadcastTo_1b_ab_apply, shapeCast_a_1a_apply]

/-- A column `[4000,1]` repeated across 3 columns reads the column's entry of the row. -/
theorem col_apply (v : FVec Ideal S4000x1 .f32) (h : S4000x1.Broadcasts S4000x3) (r : Fin 4000) (a : Fin 3) :
    broadcastTo S4000x3 v h (ix2 r a) = v (ix2 r (0 : Fin 1)) := by
  refine broadcastTo_apply v h (ix2 r a) (ix2 r (0 : Fin 1)) fun ax => ?_
  match ax with
  | ⟨0, _⟩ => rfl
  | ⟨1, _⟩ => rfl

/-! ## The layers at an index -/

/-- `x · σ(x)` at an index is `silu` of the entry. -/
theorem silu_apply (x : FVec Ideal S4000x128 .f32) (i : S4000x128.Idx) :
    mulf x (logistic x) i = Cert.Layer.silu (x i) := rfl

/-- The message MLP's first dense layer at (r, c): the row `[h_src | h_dst]` against the first 256 rows of the weights,
    plus the six scalars against the last 6 rows, plus the bias, is the dense layer over the 262-long feature row. -/
theorem lin1_apply (v0 v2 : FVec Ideal S4000x128 .bf16) (v6 : FVec Ideal S4000x6 .f32) (v10 : FVec Ideal S256x128 .bf16)
    (v13 : FVec Ideal S6x128 .bf16) (v17 : FVec Ideal S128 .f32)
    (hA : S4000x128.ShapeCasts S4000x128) (h6 : S4000x6.ShapeCasts S4000x6) (hlt : FTy.bits .bf16 < FTy.bits .f32)
    (hcat : Shape.Concatenates [S4000x128, S4000x128] S4000x256 1) (h10 : S256x128.ShapeCasts S256x128)
    (h13 : S6x128.ShapeCasts S6x128) (hb₁ : S128.ShapeCasts S1x128) (hb₂ : S1x128.Broadcasts S4000x128)
    (W1 : Fin 262 → Fin 128 → EReal)
    (hWa : ∀ (k : Fin 256) (c : Fin 128), v10 (ix2 k c) = W1 (Fin.castAdd 6 k) c)
    (hWb : ∀ (k : Fin 6) (c : Fin 128), v13 (ix2 k c) = W1 (Fin.natAdd 256 k) c)
    (r : Fin 4000) (c : Fin 128) :
    addf (addf
        (matmul dot_S4000x256_S256x128_S4000x128_1_0_0_1_n_n none
          (concatenate S4000x256 1 [⟨S4000x128, shapeCast S4000x128 v0 hA⟩, ⟨S4000x128, shapeCast S4000x128 v2 hA⟩] hcat)
          (shapeCast S256x128 v10 h10) (constant (F := Ideal) S4000x128 .f32 0x00000000#32))
        (matmul dot_S4000x6_S6x128_S4000x128_1_0_0_1_n_n none
          (truncf .bf16 (shapeCast S4000x6 v6 h6) hlt) (shapeCast S6x128 v13 h13)
          (constant (F := Ideal) S4000x128 .f32 0x00000000#32)))
      (broadcastTo S4000x128 (shapeCast S1x128 v17 hb₁) hb₂) (ix2 r c)
    = Cert.Layer.dense
        (Cert.Layer.feat (fun k => v0 (ix2 r k)) (fun k => v2 (ix2 r k)) (fun k => v6 (ix2 r k)))
        (W1 · c) (v17 (ix1 c)) := by
  rw [addf_apply, addf_apply, mm_d256_apply, mm_d6_apply, bias_apply]
  simp only [shapeCast_self]
  unfold Cert.Layer.feat
  rw [Cert.Layer.dense_append]
  congr 2
  · refine Finset.sum_congr rfl fun k _ => ?_
    rw [cat_apply, hWa]
  · refine Finset.sum_congr rfl fun k _ => ?_
    rw [truncf_apply, hWb]

/-- A 128-wide dense layer at (r, c): row `r` of the input against column `c` of the weights, plus the bias. -/
theorem lin128_apply (x : FVec Ideal S4000x128 .f32) (w : FVec Ideal S128x128 .bf16) (b : FVec Ideal S128 .f32)
    (hlt : FTy.bits .bf16 < FTy.bits .f32) (hw : S128x128.ShapeCasts S128x128)
    (hb₁ : S128.ShapeCasts S1x128) (hb₂ : S1x128.Broadcasts S4000x128) (r : Fin 4000) (c : Fin 128) :
    addf (matmul dot_S4000x128_S128x128_S4000x128_1_0_0_1_n_n none (truncf .bf16 x hlt) (shapeCast S128x128 w hw)
        (constant (F := Ideal) S4000x128 .f32 0x00000000#32))
      (broadcastTo S4000x128 (shapeCast S1x128 b hb₁) hb₂) (ix2 r c)
    = Cert.Layer.dense (fun k => x (ix2 r k)) (fun k => w (ix2 k c)) (b (ix1 c)) := by
  rw [addf_apply, mm_d128_apply, bias_apply, shapeCast_self]
  rfl

/-- The last dense layer, with its single output column, at (r, u): row `r` of the input against that column, plus the
    one-entry bias. -/
theorem lin1col_apply (x : FVec Ideal S4000x128 .f32) (w : FVec Ideal S128x1 .bf16) (b : FVec Ideal S1 .f32)
    (hlt : FTy.bits .bf16 < FTy.bits .f32) (hw : S128x1.ShapeCasts S128x1)
    (hb₁ : S1.ShapeCasts S1x1) (hb₂ : S1x1.Broadcasts S4000x1) (r : Fin 4000) (u : Fin 1) :
    addf (matmul dot_S4000x128_S128x1_S4000x1_1_0_0_1_n_n none (truncf .bf16 x hlt) (shapeCast S128x1 w hw)
        (constant (F := Ideal) S4000x1 .f32 0x00000000#32))
      (broadcastTo S4000x1 (shapeCast S1x1 b hb₁) hb₂) (ix2 r u)
    = Cert.Layer.dense (fun k => x (ix2 r k)) (fun k => w (ix2 k u)) (b (ix1 u)) := by
  rw [addf_apply, mm_d128c_apply, bias1_apply, shapeCast_self]
  rfl

/-- `tanh` at an index is `tanh` of the entry. -/
theorem tanh_apply (x : FVec Ideal S4000x1 .f32) (i : S4000x1.Idx) : tanh x i = Ideal.tanh (x i) := rfl

/-! ## The two stored values -/

/-- The message block at (r, c) is the message MLP of edge row `r`'s feature row, at column `c`. -/
theorem pay3_apply (v0 v2 : Vec Ideal S4000x128 .bf16) (v6 : Vec Ideal S4000x6 .f32) (v10 : Vec Ideal S256x128 .bf16)
    (v13 : Vec Ideal S6x128 .bf16) (v17 : Vec Ideal S128 .f32) (v24 : Vec Ideal S128x128 .bf16) (v27 : Vec Ideal S128 .f32)
    (W1 : Fin 262 → Fin 128 → EReal)
    (hWa : ∀ (k : Fin 256) (c : Fin 128), v10 (ix2 k c) = W1 (Fin.castAdd 6 k) c)
    (hWb : ∀ (k : Fin 6) (c : Fin 128), v13 (ix2 k c) = W1 (Fin.natAdd 256 k) c)
    (r : Fin 4000) (c : Fin 128) :
    k0_pay3 (F := Ideal) v0 v2 v6 v10 v13 v17 v24 v27 (ix2 r c)
      = Cert.Layer.msg W1 (fun c => v17 (ix1 c)) (fun k c => v24 (ix2 k c)) (fun c => v27 (ix1 c))
          (Cert.Layer.feat (fun k => v0 (ix2 r k)) (fun k => v2 (ix2 r k)) (fun k => v6 (ix2 r k))) c := by
  simp only [k0_pay3]
  rw [silu_apply, lin128_apply]
  unfold Cert.Layer.msg
  refine congrArg Cert.Layer.silu (congrArg (fun f => Cert.Layer.dense f _ _) (funext fun k => ?_))
  rw [silu_apply, lin1_apply v0 v2 v6 v10 v13 v17 _ _ _ _ _ _ _ _ W1 hWa hWb]
  rfl

/-- The scaled-difference block at (r, a) is edge row `r`'s coordinate difference at `a` times the coefficient MLP of its
    message row. -/
theorem pay1_apply (v4 : Vec Ideal S4000x3 .f32) (v0 v2 : Vec Ideal S4000x128 .bf16) (v6 : Vec Ideal S4000x6 .f32)
    (v10 : Vec Ideal S256x128 .bf16) (v13 : Vec Ideal S6x128 .bf16) (v17 : Vec Ideal S128 .f32)
    (v24 : Vec Ideal S128x128 .bf16) (v27 : Vec Ideal S128 .f32) (v35 : Vec Ideal S128x128 .bf16) (v38 : Vec Ideal S128 .f32)
    (v45 : Vec Ideal S128x1 .bf16) (v48 : Vec Ideal S1 .f32)
    (W1 : Fin 262 → Fin 128 → EReal)
    (hWa : ∀ (k : Fin 256) (c : Fin 128), v10 (ix2 k c) = W1 (Fin.castAdd 6 k) c)
    (hWb : ∀ (k : Fin 6) (c : Fin 128), v13 (ix2 k c) = W1 (Fin.natAdd 256 k) c)
    (r : Fin 4000) (a : Fin 3) :
    k0_pay1 (F := Ideal) (k0_pay2 v4) (k0_pay4 v0 v2 v6 v10 v13 v17 v24 v27) v35 v38 v45 v48 (ix2 r a)
      = v4 (ix2 r a) * Cert.Layer.coefOf (fun k c => v35 (ix2 k c)) (fun c => v38 (ix1 c))
          (fun k => v45 (ix2 k (0 : Fin 1))) (v48 (ix1 (0 : Fin 1)))
          (fun c => Cert.Layer.msg W1 (fun c => v17 (ix1 c)) (fun k c => v24 (ix2 k c)) (fun c => v27 (ix1 c))
            (Cert.Layer.feat (fun k => v0 (ix2 r k)) (fun k => v2 (ix2 r k)) (fun k => v6 (ix2 r k))) c) := by
  simp only [k0_pay1, k0_pay2, k0_pay4]
  rw [mulf_apply, shapeCast_self, col_apply, tanh_apply, lin1col_apply]
  unfold Cert.Layer.coefOf
  refine congrArg (fun t => v4 (ix2 r a) * Ideal.tanh t) (congrArg (fun f => Cert.Layer.dense f _ _) (funext fun k => ?_))
  rw [silu_apply, lin128_apply]
  unfold Cert.Layer.chidden
  refine congrArg Cert.Layer.silu (congrArg (fun f => Cert.Layer.dense f _ _) (funext fun j => ?_))
  exact pay3_apply v0 v2 v6 v10 v13 v17 v24 v27 W1 hWa hWb r j

end Cert.KernelIdeal.EdgeValue

end
-- ==== Proof.EdgeArrays.lean ====
/-
  From blocks to whole arrays, for the edge stage.

  The stage's grid has 100 points; point `t` sees rows 4000·t … 4000·t + 3999 of the four per-edge arrays and the nine
  weight and bias arrays whole, and writes back rows 4000·t … 4000·t + 3999 of the message array and of the
  scaled-difference array. Row `ρ` of an output therefore lies in the block of point `ρ / 4000`, the blocks tile the
  array, and each output array after all the write-backs is one function of the arrays' rows: at (e, q) the message
  row of edge `e`, at (e, a) edge `e`'s coordinate difference times its coefficient. The first layer's 262 × 128 weights
  are the 256-row array over the 6-row array.
-/
import proofs.«431152_j56135222559302_3_alg».proof.Proof.EdgeRegionIdeal
import proofs.«431152_j56135222559302_3_alg».proof.Proof.EdgePayload
import proofs.«431152_j56135222559302_3_alg».proof.Proof.LayerSpec
import Idealize.ShloMosaic.Lib.Pipeline.Value
import Idealize.ShloMosaic.Lib.ValueIdx

noncomputable section

namespace Cert.KernelIdeal.EdgeArrays

open Cert.KernelIdeal Cert.KernelIdeal.Gen Cert.KernelIdeal.Whole
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## The arrays the region finds, each at its literal type -/

/-- Gathered source features, one row per edge. -/
abbrev aHS : Vec Ideal S400000x128 .bf16 := V c main_v7
/-- Gathered destination features, one row per edge. -/
abbrev aHD : Vec Ideal S400000x128 .bf16 := V c main_v14
/-- Coordinate differences, one row per edge. -/
abbrev aDF : Vec Ideal S400000x3 .f32 := V c main_v29
/-- The six scalar features, one row per edge. -/
abbrev aX6 : Vec Ideal S400000x6 .f32 := V c main_v37
/-- First message layer's weights, rows 0 … 255. -/
abbrev aW1a : Vec Ideal S256x128 .bf16 := V c main_v39
/-- First message layer's weights, rows 256 … 261. -/
abbrev aW1b : Vec Ideal S6x128 .bf16 := V c main_v41
/-- First message layer's bias. -/
abbrev ab1 : Vec Ideal S128 .f32 := V c main_arg11
/-- Second message layer's weights. -/
abbrev aW2 : Vec Ideal S128x128 .bf16 := V c main_v42
/-- Second message layer's bias. -/
abbrev ab2 : Vec Ideal S128 .f32 := V c main_arg13
/-- First coefficient layer's weights. -/
abbrev acW1 : Vec Ideal S128x128 .bf16 := V c main_v43
/-- First coefficient layer's bias. -/
abbrev acb1 : Vec Ideal S128 .f32 := V c main_arg19
/-- Second coefficient layer's weights: one column. -/
abbrev acW2 : Vec Ideal S128x1 .bf16 := V c main_v44
/-- Second coefficient layer's bias: one entry. -/
abbrev acb2 : Vec Ideal S1 .f32 := V c main_arg21

/-- The first message layer's 262 × 128 weights: the 256-row part over the 6-row part. -/
def W1of : Fin 262 → Fin 128 → EReal := fun k q =>
  Fin.append (fun k' : Fin 256 => aW1a V c (ix2 k' q)) (fun k' : Fin 6 => aW1b V c (ix2 k' q)) k

/-- Edge `e`'s message row, from the arrays' rows. -/
def msgAt (e : Fin 400000) (q : Fin 128) : EReal :=
  Cert.Layer.msg (W1of V c) (fun q => ab1 V c (ix1 q)) (fun k q => aW2 V c (ix2 k q)) (fun q => ab2 V c (ix1 q))
    (Cert.Layer.feat (fun k => aHS V c (ix2 e k)) (fun k => aHD V c (ix2 e k)) (fun k => aX6 V c (ix2 e k))) q

/-- Edge `e`'s scaled coordinate difference, from the arrays' rows. -/
def deltaAt (e : Fin 400000) (a : Fin 3) : EReal :=
  aDF V c (ix2 e a) * Cert.Layer.coefOf (fun k q => acW1 V c (ix2 k q)) (fun q => acb1 V c (ix1 q))
    (fun k => acW2 V c (ix2 k (0 : Fin 1))) (acb2 V c (ix1 (0 : Fin 1))) (msgAt V c e)

/-! ## The index maps over the grid -/

theorem hz2 : (![0, 0] : Fin 2 → Nat) = fun _ => 0 := funext fun a => by fin_cases a <;> rfl
theorem hz1 : (![0] : Fin 1 → Nat) = fun _ => 0 := funext fun a => by fin_cases a; rfl

/-- The windows that move with the point sit at block `(t, 0)`; the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0 :=
  (by decide +kernel : ∀ t : Fin grid0.N, _)

theorem N_lt (t : Fin cfg0.N) : t.val < 100 := t.isLt

/-! ## Each window's block, read off its array -/

/-- Window 0's block at point `t`, at (r, k), is row `4000·t + r` of its array, at column `k`. -/
theorem blk0_apply (t : Fin cfg0.N) (r : Fin 4000) (k : Fin 128) :
    (iblk0 V c 0 t : Vec Ideal S4000x128 _) (ix2 r k)
      = aHS V c (ix2 (⟨4000 * t.val + r.val, by have h1 := N_lt t; have h2 := r.isLt; omega⟩ : Fin 400000) k) := by
  have e0 : win0_0.index t (0 : Fin 2) = t.val := (idx_facts t).1
  have e1 : win0_0.index t (1 : Fin 2) = 0 := (idx_facts t).2.1
  unfold iblk0
  rw [View.read_apply]
  show V c main_v7 _ = V c main_v7 _
  congr 1
  funext a
  apply Fin.ext
  match a with
  | ⟨0, _⟩ => show win0_0.index t (0 : Fin 2) * 4000 + 1 * r.val = 4000 * t.val + r.val; rw [e0]; omega
  | ⟨1, _⟩ => show win0_0.index t (1 : Fin 2) * 128 + 1 * k.val = k.val; rw [e1]; omega

/-- Window 1's block at point `t`, at (r, k), is row `4000·t + r` of its array, at column `k`. -/
theorem blk1_apply (t : Fin cfg0.N) (r : Fin 4000) (k : Fin 128) :
    (iblk0 V c 1 t : Vec Ideal S4000x128 _) (ix2 r k)
      = aHD V c (ix2 (⟨4000 * t.val + r.val, by have h1 := N_lt t; have h2 := r.isLt; omega⟩ : Fin 400000) k) := by
  have e0 : win0_1.index t (0 : Fin 2) = t.val := (idx_facts t).2.2.1
  have e1 : win0_1.index t (1 : Fin 2) = 0 := (idx_facts t).2.2.2.1
  unfold iblk0
  rw [View.read_apply]
  show V c main_v14 _ = V c main_v14 _
  congr 1
  funext a
  apply Fin.ext
  match a with
  | ⟨0, _⟩ => show win0_1.index t (0 : Fin 2) * 4000 + 1 * r.val = 4000 * t.val + r.val; rw [e0]; omega
  | ⟨1, _⟩ => show win0_1.index t (1 : Fin 2) * 128 + 1 * k.val = k.val; rw [e1]; omega

/-- Window 2's block at point `t`, at (r, k), is row `4000·t + r` of its array, at column `k`. -/
theorem blk2_apply (t : Fin cfg0.N) (r : Fin 4000) (k : Fin 3) :
    (iblk0 V c 2 t : Vec Ideal S4000x3 _) (ix2 r k)
      = aDF V c (ix2 (⟨4000 * t.val + r.val, by have h1 := N_lt t; have h2 := r.isLt; omega⟩ : Fin 400000) k) := by
  have e0 : win0_2.index t (0 : Fin 2) = t.val := (idx_facts t).2.2.2.2.1
  have e1 : win0_2.index t (1 : Fin 2) = 0 := (idx_facts t).2.2.2.2.2.1
  unfold iblk0
  rw [View.read_apply]
  show V c main_v29 _ = V c main_v29 _
  congr 1
  funext a
  apply Fin.ext
  match a with
  | ⟨0, _⟩ => show win0_2.index t (0 : Fin 2) * 4000 + 1 * r.val = 4000 * t.val + r.val; rw [e0]; omega
  | ⟨1, _⟩ => show win0_2.index t (1 : Fin 2) * 3 + 1 * k.val = k.val; rw [e1]; omega

/-- Window 3's block at point `t`, at (r, k), is row `4000·t + r` of its array, at column `k`. -/
theorem blk3_apply (t : Fin cfg0.N) (r : Fin 4000) (k : Fin 6) :
    (iblk0 V c 3 t : Vec Ideal S4000x6 _) (ix2 r k)
      = aX6 V c (ix2 (⟨4000 * t.val + r.val, by have h1 := N_lt t; have h2 := r.isLt; omega⟩ : Fin 400000) k) := by
  have e0 : win0_3.index t (0 : Fin 2) = t.val := (idx_facts t).2.2.2.2.2.2.1
  have e1 : win0_3.index t (1 : Fin 2) = 0 := (idx_facts t).2.2.2.2.2.2.2.1
  unfold iblk0
  rw [View.read_apply]
  show V c main_v37 _ = V c main_v37 _
  congr 1
  funext a
  apply Fin.ext
  match a with
  | ⟨0, _⟩ => show win0_3.index t (0 : Fin 2) * 4000 + 1 * r.val = 4000 * t.val + r.val; rw [e0]; omega
  | ⟨1, _⟩ => show win0_3.index t (1 : Fin 2) * 6 + 1 * k.val = k.val; rw [e1]; omega

/-- Window 4 is its whole array at every point. -/
theorem blk4_eq (t : Fin cfg0.N) : (iblk0 V c 4 t : Vec Ideal S256x128 _) = aW1a V c := by
  have e0 : win0_4.index t (0 : Fin 2) = 0 := (idx_whole t).1
  have e1 : win0_4.index t (1 : Fin 2) = 0 := (idx_whole t).2.1
  funext x
  unfold iblk0
  rw [View.read_apply]
  show V c main_v39 _ = V c main_v39 x
  congr 1
  funext a
  apply Fin.ext
  match a with
  | ⟨0, _⟩ => show win0_4.index t (0 : Fin 2) * 256 + 1 * (x 0).val = (x 0).val; rw [e0]; omega
  | ⟨1, _⟩ => show win0_4.index t (1 : Fin 2) * 128 + 1 * (x 1).val = (x 1).val; rw [e1]; omega

/-- Window 5 is its whole array at every point. -/
theorem blk5_eq (t : Fin cfg0.N) : (iblk0 V c 5 t : Vec Ideal S6x128 _) = aW1b V c := by
  have e0 : win0_5.index t (0 : Fin 2) = 0 := (idx_whole t).2.2.1
  have e1 : win0_5.index t (1 : Fin 2) = 0 := (idx_whole t).2.2.2.1
  funext x
  unfold iblk0
  rw [View.read_apply]
  show V c main_v41 _ = V c main_v41 x
  congr 1
  funext a
  apply Fin.ext
  match a with
  | ⟨0, _⟩ => show win0_5.index t (0 : Fin 2) * 6 + 1 * (x 0).val = (x 0).val; rw [e0]; omega
  | ⟨1, _⟩ => show win0_5.index t (1 : Fin 2) * 128 + 1 * (x 1).val = (x 1).val; rw [e1]; omega

/-- Window 6 is its whole array at every point. -/
theorem blk6_eq (t : Fin cfg0.N) : (iblk0 V c 6 t : Vec Ideal S128 _) = ab1 V c := by
  have e0 : win0_6.index t (0 : Fin 1) = 0 := (idx_whole t).2.2.2.2.1
  funext x
  unfold iblk0
  rw [View.read_apply]
  show V c main_arg11 _ = V c main_arg11 x
  congr 1
  funext a
  apply Fin.ext
  match a with
  | ⟨0, _⟩ => show win0_6.index t (0 : Fin 1) * 128 + 1 * (x 0).val = (x 0).val; rw [e0]; omega

/-- Window 7 is its whole array at every point. -/
theorem blk7_eq (t : Fin cfg0.N) : (iblk0 V c 7 t : Vec Ideal S128x128 _) = aW2 V c := by
  have e0 : win0_7.index t (0 : Fin 2) = 0 := (idx_whole t).2.2.2.2.2.1
  have e1 : win0_7.index t (1 : Fin 2) = 0 := (idx_whole t).2.2.2.2.2.2.1
  funext x
  unfold iblk0
  rw [View.read_apply]
  show V c main_v42 _ = V c main_v42 x
  congr 1
  funext a
  apply Fin.ext
  match a with
  | ⟨0, _⟩ => show win0_7.index t (0 : Fin 2) * 128 + 1 * (x 0).val = (x 0).val; rw [e0]; omega
  | ⟨1, _⟩ => show win0_7.index t (1 : Fin 2) * 128 + 1 * (x 1).val = (x 1).val; rw [e1]; omega

/-- Window 8 is its whole array at every point. -/
theorem blk8_eq (t : Fin cfg0.N) : (iblk0 V c 8 t : Vec Ideal S128 _) = ab2 V c := by
  have e0 : win0_8.index t (0 : Fin 1) = 0 := (idx_whole t).2.2.2.2.2.2.2.1
  funext x
  unfold iblk0
  rw [View.read_apply]
  show V c main_arg13 _ = V c main_arg13 x
  congr 1
  funext a
  apply Fin.ext
  match a with
  | ⟨0, _⟩ => show win0_8.index t (0 : Fin 1) * 128 + 1 * (x 0).val = (x 0).val; rw [e0]; omega

/-- Window 9 is its whole array at every point. -/
theorem blk9_eq (t : Fin cfg0.N) : (iblk0 V c 9 t : Vec Ideal S128x128 _) = acW1 V c := by
  have e0 : win0_9.index t (0 : Fin 2) = 0 := (idx_whole t).2.2.2.2.2.2.2.2.1
  have e1 : win0_9.index t (1 : Fin 2) = 0 := (idx_whole t).2.2.2.2.2.2.2.2.2.1
  funext x
  unfold iblk0
  rw [View.read_apply]
  show V c main_v43 _ = V c main_v43 x
  congr 1
  funext a
  apply Fin.ext
  match a with
  | ⟨0, _⟩ => show win0_9.index t (0 : Fin 2) * 128 + 1 * (x 0).val = (x 0).val; rw [e0]; omega
  | ⟨1, _⟩ => show win0_9.index t (1 : Fin 2) * 128 + 1 * (x 1).val = (x 1).val; rw [e1]; omega

/-- Window 10 is its whole array at every point. -/
theorem blk10_eq (t : Fin cfg0.N) : (iblk0 V c 10 t : Vec Ideal S128 _) = acb1 V c := by
  have e0 : win0_10.index t (0 : Fin 1) = 0 := (idx_whole t).2.2.2.2.2.2.2.2.2.2.1
  funext x
  unfold iblk0
  rw [View.read_apply]
  show V c main_arg19 _ = V c main_arg19 x
  congr 1
  funext a
  apply Fin.ext
  match a with
  | ⟨0, _⟩ => show win0_10.index t (0 : Fin 1) * 128 + 1 * (x 0).val = (x 0).val; rw [e0]; omega

/-- Window 11 is its whole array at every point. -/
theorem blk11_eq (t : Fin cfg0.N) : (iblk0 V c 11 t : Vec Ideal S128x1 _) = acW2 V c := by
  have e0 : win0_11.index t (0 : Fin 2) = 0 := (idx_whole t).2.2.2.2.2.2.2.2.2.2.2.1
  have e1 : win0_11.index t (1 : Fin 2) = 0 := (idx_whole t).2.2.2.2.2.2.2.2.2.2.2.2.1
  funext x
  unfold iblk0
  rw [View.read_apply]
  show V c main_v44 _ = V c main_v44 x
  congr 1
  funext a
  apply Fin.ext
  match a with
  | ⟨0, _⟩ => show win0_11.index t (0 : Fin 2) * 128 + 1 * (x 0).val = (x 0).val; rw [e0]; omega
  | ⟨1, _⟩ => show win0_11.index t (1 : Fin 2) * 1 + 1 * (x 1).val = (x 1).val; rw [e1]; omega

/-- Window 12 is its whole array at every point. -/
theorem blk12_eq (t : Fin cfg0.N) : (iblk0 V c 12 t : Vec Ideal S1 _) = acb2 V c := by
  have e0 : win0_12.index t (0 : Fin 1) = 0 := (idx_whole t).2.2.2.2.2.2.2.2.2.2.2.2.2
  funext x
  unfold iblk0
  rw [View.read_apply]
  show V c main_arg21 _ = V c main_arg21 x
  congr 1
  funext a
  apply Fin.ext
  match a with
  | ⟨0, _⟩ => show win0_12.index t (0 : Fin 1) * 1 + 1 * (x 0).val = (x 0).val; rw [e0]; omega

/-! ## Each body result, from the arrays' rows -/

theorem W1of_left (k : Fin 256) (q : Fin 128) : W1of V c (Fin.castAdd 6 k) q = aW1a V c (ix2 k q) := by
  unfold W1of; exact Fin.append_left _ _ k
theorem W1of_right (k : Fin 6) (q : Fin 128) : W1of V c (Fin.natAdd 256 k) q = aW1b V c (ix2 k q) := by
  unfold W1of; exact Fin.append_right _ _ k

/-- The row of the arrays that point `t`'s block row `r` is. -/
abbrev rowOf (t : Fin cfg0.N) (r : Fin 4000) : Fin 400000 :=
  ⟨4000 * t.val + r.val, by have h1 := N_lt t; have h2 := r.isLt; omega⟩

/-- The message block of point `t` at (r, q) is the message row of edge `4000·t + r`, at `q`. -/
theorem pay3_blk (t : Fin cfg0.N) (r : Fin 4000) (q : Fin 128) :
    k0_pay3 (F := Ideal) (iblk0 V c 0 t) (iblk0 V c 1 t) (iblk0 V c 3 t) (iblk0 V c 4 t) (iblk0 V c 5 t) (iblk0 V c 6 t)
      (iblk0 V c 7 t) (iblk0 V c 8 t) (ix2 r q) = msgAt V c (rowOf t r) q := by
  rw [Cert.KernelIdeal.EdgeValue.pay3_apply _ _ _ _ _ _ _ _ (W1of V c)
    (fun k q => by rw [blk4_eq, W1of_left]) (fun k q => by rw [blk5_eq, W1of_right])]
  unfold msgAt
  simp only [blk0_apply, blk1_apply, blk3_apply, blk6_eq, blk7_eq, blk8_eq]

/-- The scaled-difference block of point `t` at (r, a) is edge `4000·t + r`'s scaled coordinate difference, at `a`. -/
theorem pay1_blk (t : Fin cfg0.N) (r : Fin 4000) (a : Fin 3) :
    k0_pay1 (F := Ideal) (k0_pay2 (iblk0 V c 2 t))
      (k0_pay4 (iblk0 V c 0 t) (iblk0 V c 1 t) (iblk0 V c 3 t) (iblk0 V c 4 t) (iblk0 V c 5 t) (iblk0 V c 6 t)
        (iblk0 V c 7 t) (iblk0 V c 8 t))
      (iblk0 V c 9 t) (iblk0 V c 10 t) (iblk0 V c 11 t) (iblk0 V c 12 t) (ix2 r a) = deltaAt V c (rowOf t r) a := by
  rw [Cert.KernelIdeal.EdgeValue.pay1_apply _ _ _ _ _ _ _ _ _ _ _ _ _ (W1of V c)
    (fun k q => by rw [blk4_eq, W1of_left]) (fun k q => by rw [blk5_eq, W1of_right])]
  unfold deltaAt msgAt
  simp only [blk0_apply, blk1_apply, blk2_apply, blk3_apply, blk6_eq, blk7_eq, blk8_eq, blk9_eq, blk10_eq, blk11_eq, blk12_eq]

/-! ## From blocks to the arrays -/

/-- What the message array ends holding, as one function of the index. -/
abbrev G13 : S400000x128.Idx → EReal := fun i => msgAt V c (i 0) (i 1)
/-- What the scaled-difference array ends holding, as one function of the index. -/
abbrev G14 : S400000x3.Idx → EReal := fun i => deltaAt V c (i 0) (i 1)

/-- What point `t` writes back to window 13's array is block `t` of `G13`. -/
theorem flushed13_eq (t : Fin cfg0.N) :
    (dat0 V c).flushed 13 t = ((cfg0.win 13).blk t).view.read (Elt Ideal) (G13 V c) := by
  show (cfg0.win 13).cut (grid0.coords t) ((dat0 V c).after 13 t) = _
  rw [after0_13]
  unfold out0_13
  rw [View.canon_unit_zero hz2]
  simp only [View.ld_unit_zero (S := S4000x128) hz2, View.ld_unit_zero (S := S4000x3) hz2, View.ld_unit_zero (S := S4000x6) hz2, View.ld_unit_zero (S := S256x128) hz2, View.ld_unit_zero (S := S6x128) hz2, View.ld_unit_zero (S := S128) hz1, View.ld_unit_zero (S := S128x128) hz2, View.ld_unit_zero (S := S128x1) hz2, View.ld_unit_zero (S := S1) hz1]
  have e0 : win0_13.index t (0 : Fin 2) = t.val := (idx_facts t).2.2.2.2.2.2.2.2.1
  have e1 : win0_13.index t (1 : Fin 2) = 0 := (idx_facts t).2.2.2.2.2.2.2.2.2.1
  funext j
  obtain ⟨r, q, rfl⟩ : ∃ (r : Fin 4000) (q : Fin 128), j = ix2 r q := ⟨j 0, j 1, eq_ix2 j⟩
  refine (pay3_blk V c t r q).trans ?_
  show msgAt V c _ q = msgAt V c ((((cfg0.win 13).blk t).view.emb (ix2 r q)) 0) ((((cfg0.win 13).blk t).view.emb (ix2 r q)) 1)
  congr 1
  · apply Fin.ext
    show 4000 * t.val + r.val = win0_13.index t (0 : Fin 2) * 4000 + 1 * r.val
    rw [e0]; omega
  · apply Fin.ext
    show q.val = win0_13.index t (1 : Fin 2) * 128 + 1 * q.val
    rw [e1]; omega

/-- An index of window 13's array is in point `t`'s block iff each coordinate is in the block's range on its axis. -/
theorem mem_blk13 (t : Fin cfg0.N) (i : S400000x128.Idx) :
    i ∈ ((cfg0.win 13).blk t).view.set ↔ ∀ a : Fin 2, win0_13.index t a * S4000x128.size a ≤ (i a).val ∧ (i a).val < win0_13.index t a * S4000x128.size a + S4000x128.size a := by
  show i ∈ ((View.whole main_v45_0).slice (win0_13.rect t)).set ↔ _
  rw [View.set_slice_whole, Rect.mem_set_unit]
  exact Iff.rfl

/-- Row `ρ` of window 13's array lies in the block of point `ρ / 4000`: the blocks tile the array. -/
theorem cover13 (i : S400000x128.Idx) :
    ∃ t : Fin cfg0.N, (cfg0.win 13).flush t = true ∧ i ∈ ((cfg0.win 13).blk t).view.set := by
  have hi0 : (i 0).val < 400000 := (i 0).isLt
  have hi1 : (i 1).val < 128 := (i 1).isLt
  have hlt : (i 0).val / 4000 < cfg0.N := by show (i 0).val / 4000 < 100; omega
  obtain ⟨t, ht⟩ : ∃ t : Fin cfg0.N, t.val = (i 0).val / 4000 := ⟨⟨(i 0).val / 4000, hlt⟩, rfl⟩
  have e0 : win0_13.index t (0 : Fin 2) = t.val := (idx_facts t).2.2.2.2.2.2.2.2.1
  have e1 : win0_13.index t (1 : Fin 2) = 0 := (idx_facts t).2.2.2.2.2.2.2.2.2.1
  refine ⟨t, flush0_13 t, ?_⟩
  rw [mem_blk13]
  intro a
  match a with
  | ⟨0, _⟩ =>
    show win0_13.index t (0 : Fin 2) * 4000 ≤ (i 0).val ∧ (i 0).val < win0_13.index t (0 : Fin 2) * 4000 + 4000
    rw [e0, ht]; omega
  | ⟨1, _⟩ =>
    show win0_13.index t (1 : Fin 2) * 128 ≤ (i 1).val ∧ (i 1).val < win0_13.index t (1 : Fin 2) * 128 + 128
    rw [e1]; omega

/-- Window 13's array after all the write-backs is `G13`. -/
theorem final13 : (dat0 V c).arrAt 13 cfg0.N = G13 V c :=
  (dat0 V c).arrAt_eq_of_cover 13 (G13 V c) (fun t _ => flushed13_eq V c t) (cover13)

/-- What point `t` writes back to window 14's array is block `t` of `G14`. -/
theorem flushed14_eq (t : Fin cfg0.N) :
    (dat0 V c).flushed 14 t = ((cfg0.win 14).blk t).view.read (Elt Ideal) (G14 V c) := by
  show (cfg0.win 14).cut (grid0.coords t) ((dat0 V c).after 14 t) = _
  rw [after0_14]
  unfold out0_14
  rw [View.canon_unit_zero hz2]
  simp only [View.ld_unit_zero (S := S4000x128) hz2, View.ld_unit_zero (S := S4000x3) hz2, View.ld_unit_zero (S := S4000x6) hz2, View.ld_unit_zero (S := S256x128) hz2, View.ld_unit_zero (S := S6x128) hz2, View.ld_unit_zero (S := S128) hz1, View.ld_unit_zero (S := S128x128) hz2, View.ld_unit_zero (S := S128x1) hz2, View.ld_unit_zero (S := S1) hz1]
  have e0 : win0_14.index t (0 : Fin 2) = t.val := (idx_facts t).2.2.2.2.2.2.2.2.2.2.1
  have e1 : win0_14.index t (1 : Fin 2) = 0 := (idx_facts t).2.2.2.2.2.2.2.2.2.2.2
  funext j
  obtain ⟨r, q, rfl⟩ : ∃ (r : Fin 4000) (q : Fin 3), j = ix2 r q := ⟨j 0, j 1, eq_ix2 j⟩
  refine (pay1_blk V c t r q).trans ?_
  show deltaAt V c _ q = deltaAt V c ((((cfg0.win 14).blk t).view.emb (ix2 r q)) 0) ((((cfg0.win 14).blk t).view.emb (ix2 r q)) 1)
  congr 1
  · apply Fin.ext
    show 4000 * t.val + r.val = win0_14.index t (0 : Fin 2) * 4000 + 1 * r.val
    rw [e0]; omega
  · apply Fin.ext
    show q.val = win0_14.index t (1 : Fin 2) * 3 + 1 * q.val
    rw [e1]; omega

/-- An index of window 14's array is in point `t`'s block iff each coordinate is in the block's range on its axis. -/
theorem mem_blk14 (t : Fin cfg0.N) (i : S400000x3.Idx) :
    i ∈ ((cfg0.win 14).blk t).view.set ↔ ∀ a : Fin 2, win0_14.index t a * S4000x3.size a ≤ (i a).val ∧ (i a).val < win0_14.index t a * S4000x3.size a + S4000x3.size a := by
  show i ∈ ((View.whole main_v45_1).slice (win0_14.rect t)).set ↔ _
  rw [View.set_slice_whole, Rect.mem_set_unit]
  exact Iff.rfl

/-- Row `ρ` of window 14's array lies in the block of point `ρ / 4000`: the blocks tile the array. -/
theorem cover14 (i : S400000x3.Idx) :
    ∃ t : Fin cfg0.N, (cfg0.win 14).flush t = true ∧ i ∈ ((cfg0.win 14).blk t).view.set := by
  have hi0 : (i 0).val < 400000 := (i 0).isLt
  have hi1 : (i 1).val < 3 := (i 1).isLt
  have hlt : (i 0).val / 4000 < cfg0.N := by show (i 0).val / 4000 < 100; omega
  obtain ⟨t, ht⟩ : ∃ t : Fin cfg0.N, t.val = (i 0).val / 4000 := ⟨⟨(i 0).val / 4000, hlt⟩, rfl⟩
  have e0 : win0_14.index t (0 : Fin 2) = t.val := (idx_facts t).2.2.2.2.2.2.2.2.2.2.1
  have e1 : win0_14.index t (1 : Fin 2) = 0 := (idx_facts t).2.2.2.2.2.2.2.2.2.2.2
  refine ⟨t, flush0_14 t, ?_⟩
  rw [mem_blk14]
  intro a
  match a with
  | ⟨0, _⟩ =>
    show win0_14.index t (0 : Fin 2) * 4000 ≤ (i 0).val ∧ (i 0).val < win0_14.index t (0 : Fin 2) * 4000 + 4000
    rw [e0, ht]; omega
  | ⟨1, _⟩ =>
    show win0_14.index t (1 : Fin 2) * 3 ≤ (i 1).val ∧ (i 1).val < win0_14.index t (1 : Fin 2) * 3 + 3
    rw [e1]; omega

/-- Window 14's array after all the write-backs is `G14`. -/
theorem final14 : (dat0 V c).arrAt 14 cfg0.N = G14 V c :=
  (dat0 V c).arrAt_eq_of_cover 14 (G14 V c) (fun t _ => flushed14_eq V c t) (cover14)

/-- The message array after the region, at (e, q), is edge `e`'s message row at `q`. -/
theorem final13_apply (e : Fin 400000) (q : Fin 128) :
    (Cert.KernelIdeal.Whole.dat0 V c).arrAt 13 cfg0.N (ix2 e q) = msgAt V c e q := by
  rw [final13]

/-- The scaled-difference array after the region, at (e, a), is edge `e`'s scaled coordinate difference at `a`. -/
theorem final14_apply (e : Fin 400000) (a : Fin 3) :
    (Cert.KernelIdeal.Whole.dat0 V c).arrAt 14 cfg0.N (ix2 e a) = deltaAt V c e a := by
  rw [final14]

end Cert.KernelIdeal.EdgeArrays

end
-- ==== Proof.EdgeOfArgs.lean ====
/-
  The edge stage's two output arrays in terms of the program's arguments.

  Before the edge stage the host has gathered each edge's source and destination feature rows and its coordinate
  difference, has set the six scalar features side by side (the first one squared), has cut the first layer's
  262 × 128 weights into its first 256 rows and its last 6, and has handed the other weights and biases on unchanged.
  Putting the two row ranges back together gives the weights whole, so edge `e`'s message row and its scaled
  coordinate difference are the layer's `edgeMsg` and `edgeDelta` of the gathered rows, the six scalars and the
  arguments' weights and biases.
-/
import proofs.«431152_j56135222559302_3_alg».proof.Proof.HostValues
import proofs.«431152_j56135222559302_3_alg».proof.Proof.EdgeArrays
import proofs.«431152_j56135222559302_3_alg».proof.Proof.LayerSpec

noncomputable section

namespace Cert.KernelIdeal.EdgeOfArgs

open Cert.KernelIdeal Cert.KernelIdeal.Gen
open Cert.KernelIdeal.HostValues Cert.KernelIdeal.EdgeArrays Cert.KernelIdeal.Whole
open Idealize.ShloMosaic Idealize.ShloMosaic.TcCoe Idealize.SL.Sem Idealize.ShloMosaic.ValueIdx

variable (m : (ℓ : Loc nD τ sig) → Buf (Elt Ideal) ℓ) (c : Dev nD)

/-- Edge `e`'s gathered source features. -/
abbrev HS (e : Fin 400000) (k : Fin 128) : EReal := (Vin0 m c main_v7 : FVec Ideal S400000x128 .bf16) (ix2 e k)
/-- Edge `e`'s gathered destination features. -/
abbrev HD (e : Fin 400000) (k : Fin 128) : EReal := (Vin0 m c main_v14 : FVec Ideal S400000x128 .bf16) (ix2 e k)
/-- Edge `e`'s coordinate difference. -/
abbrev DF (e : Fin 400000) (a : Fin 3) : EReal := (Vin0 m c main_v29 : FVec Ideal S400000x3 .f32) (ix2 e a)
/-- Edge `e`'s six scalar features: the first argument's entry squared, then the other five entries. -/
def X6 (e : Fin 400000) : Fin 6 → EReal :=
  ![a4 m c (ix1 e) * a4 m c (ix1 e), a5 m c (ix1 e), a6 m c (ix1 e), a7 m c (ix1 e), a8 m c (ix1 e), a9 m c (ix1 e)]

/-! ## Each piece the stage reads, as the arguments -/

/-- The two row ranges put back together are the first layer's weights whole. -/
theorem W1of_args : W1of (Vin0 m) c = fun k q => a10 m c (ix2 k q) := by
  funext k q
  have hA : (fun k' : Fin 256 => aW1a (Vin0 m) c (ix2 k' q)) = fun k' => a10 m c (ix2 (Fin.castAdd 6 k') q) :=
    funext fun k' => in_v39_apply m c k' q
  have hB : (fun k' : Fin 6 => aW1b (Vin0 m) c (ix2 k' q)) = fun k' => a10 m c (ix2 (Fin.natAdd 256 k') q) :=
    funext fun k' => in_v41_apply m c k' q
  show Fin.append (fun k' : Fin 256 => aW1a (Vin0 m) c (ix2 k' q)) (fun k' : Fin 6 => aW1b (Vin0 m) c (ix2 k' q)) k
      = a10 m c (ix2 k q)
  rw [hA, hB]
  exact congrFun (Fin.append_castAdd_natAdd (m := 256) (n := 6) (f := fun k => a10 m c (ix2 k q))) k

theorem b1_args : (fun q => ab1 (Vin0 m) c (ix1 q)) = fun q => a11 m c (ix1 q) := by
  funext q; exact congrFun (in_arg11 m c) _
theorem W2_args : (fun k q => aW2 (Vin0 m) c (ix2 k q)) = fun k q => a12 m c (ix2 k q) := by
  funext k q; exact congrFun (in_v42 m c) _
theorem b2_args : (fun q => ab2 (Vin0 m) c (ix1 q)) = fun q => a13 m c (ix1 q) := by
  funext q; exact congrFun (in_arg13 m c) _
theorem cW1_args : (fun k q => acW1 (Vin0 m) c (ix2 k q)) = fun k q => a18 m c (ix2 k q) := by
  funext k q; exact congrFun (in_v43 m c) _
theorem cb1_args : (fun q => acb1 (Vin0 m) c (ix1 q)) = fun q => a19 m c (ix1 q) := by
  funext q; exact congrFun (in_arg19 m c) _
theorem cW2_args : (fun k => acW2 (Vin0 m) c (ix2 k (0 : Fin 1))) = fun k => a20 m c (ix2 k (0 : Fin 1)) := by
  funext k; exact congrFun (in_v44 m c) _
theorem cb2_args : acb2 (Vin0 m) c (ix1 (0 : Fin 1)) = a21 m c (ix1 (0 : Fin 1)) :=
  congrFun (in_arg21 m c) _
theorem X6_args (e : Fin 400000) : (fun k => aX6 (Vin0 m) c (ix2 e k)) = X6 m c e := by
  funext k; exact in_v37_apply m c e k

/-! ## The message row and the scaled difference of an edge -/

/-- Edge `e`'s message row is the layer's, of the gathered rows, the six scalars and the arguments' weights. -/
theorem msg_of_args (e : Fin 400000) (q : Fin 128) :
    msgAt (Vin0 m) c e q
      = Cert.Layer.edgeMsg (HS m c) (HD m c) (X6 m c) (fun k q => a10 m c (ix2 k q)) (fun q => a11 m c (ix1 q))
          (fun k q => a12 m c (ix2 k q)) (fun q => a13 m c (ix1 q)) e q := by
  unfold msgAt Cert.Layer.edgeMsg
  rw [W1of_args, b1_args, W2_args, b2_args, X6_args]

/-- Edge `e`'s scaled coordinate difference is the layer's, likewise. -/
theorem delta_of_args (e : Fin 400000) (a : Fin 3) :
    deltaAt (Vin0 m) c e a
      = Cert.Layer.edgeDelta (HS m c) (HD m c) (X6 m c) (DF m c) (fun k q => a10 m c (ix2 k q)) (fun q => a11 m c (ix1 q))
          (fun k q => a12 m c (ix2 k q)) (fun q => a13 m c (ix1 q)) (fun k q => a18 m c (ix2 k q))
          (fun q => a19 m c (ix1 q)) (fun k => a20 m c (ix2 k (0 : Fin 1))) (a21 m c (ix1 (0 : Fin 1))) e a := by
  have hmsg : msgAt (Vin0 m) c e
      = Cert.Layer.edgeMsg (HS m c) (HD m c) (X6 m c) (fun k q => a10 m c (ix2 k q)) (fun q => a11 m c (ix1 q))
          (fun k q => a12 m c (ix2 k q)) (fun q => a13 m c (ix1 q)) e := funext fun q => msg_of_args m c e q
  unfold deltaAt Cert.Layer.edgeDelta
  rw [hmsg, cW1_args, cb1_args, cW2_args, cb2_args]

/-! ## The two arrays after the edge stage -/

/-- The message array after the edge stage, at (e, q). -/
theorem out13_of_args (e : Fin 400000) (q : Fin 128) :
    (B2 m c (Proc.devRef .tc main_v45_0) : FVec Ideal S400000x128 .f32) (ix2 e q)
      = Cert.Layer.edgeMsg (HS m c) (HD m c) (X6 m c) (fun k q => a10 m c (ix2 k q)) (fun q => a11 m c (ix1 q))
          (fun k q => a12 m c (ix2 k q)) (fun q => a13 m c (ix1 q)) e q :=
  (congrFun (B2_arr m c 13) _).trans ((final13_apply (Vin0 m) c e q).trans (msg_of_args m c e q))

/-- The scaled-difference array after the edge stage, at (e, a). -/
theorem out14_of_args (e : Fin 400000) (a : Fin 3) :
    (B2 m c (Proc.devRef .tc main_v45_1) : FVec Ideal S400000x3 .f32) (ix2 e a)
      = Cert.Layer.edgeDelta (HS m c) (HD m c) (X6 m c) (DF m c) (fun k q => a10 m c (ix2 k q)) (fun q => a11 m c (ix1 q))
          (fun k q => a12 m c (ix2 k q)) (fun q => a13 m c (ix1 q)) (fun k q => a18 m c (ix2 k q))
          (fun q => a19 m c (ix1 q)) (fun k => a20 m c (ix2 k (0 : Fin 1))) (a21 m c (ix1 (0 : Fin 1))) e a :=
  (congrFun (B2_arr m c 14) _).trans ((final14_apply (Vin0 m) c e a).trans (delta_of_args m c e a))

end Cert.KernelIdeal.EdgeOfArgs

end
-- ==== Proof.NodePayload.lean ====
/-
  The node step's two stored values, read at one index on the extended reals.

  A node row `r` holds its features `h`, the summed messages `s`, the summed scaled differences `t`, its coordinates
  `x` and the count `n` of its incoming edges. The divisor is `max (n, 1)`, the same on every column of the row. The
  mean message is `s / max (n, 1)`; the row `[h | mean message]` of length 256 goes through a dense layer, the
  activation `x · σ(x)`, and a second dense layer, and the outcome is added to `h`. The new coordinates are
  `x + t / max (n, 1)`.

  Each dense layer is a matrix product read at an index as the finite sum over its one contracted axis, plus a bias
  row repeated on every node row.
-/
import proofs.«431152_j56135222559302_3_alg».proof.Proof.Gen.KernelIdeal.Skeleton
import proofs.«431152_j56135222559302_3_alg».proof.Proof.LayerSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.NodeValue

open Idealize.ShloMosaic Idealize.ShloMosaic.ValueIdx Cert.KernelIdeal Cert.KernelIdeal.Gen

/-! ## The divisor and its repetition along a row -/

/-- The divisor column at row `r`: the count there, at least one. -/
theorem pay1_apply (v1 : Vec Ideal S2000x1 .f32) (r : Fin 2000) :
    k1_pay1 (F := Ideal) v1 (ix2 r (0 : Fin 1)) = max (v1 (ix2 r (0 : Fin 1))) 1 := by
  unfold k1_pay1
  rw [shapeCast_self]
  show max (v1 (ix2 r (0 : Fin 1))) (Ideal.ofBits .f32 0x3F800000#32) = _
  rw [Cert.Layer.ofBits_one_f32]

/-- A column repeated over 128 columns reads the column's entry of the same row. -/
theorem bcast128_apply (x : FVec Ideal S2000x1 .f32) (r : Fin 2000) (c : Fin 128) :
    broadcastTo S2000x128 x broadcasts_S2000x1_S2000x128 (ix2 r c) = x (ix2 r (0 : Fin 1)) := by
  refine broadcastTo_apply x _ (ix2 r c) (ix2 r (0 : Fin 1)) (fun a => ?_)
  match a with
  | ⟨0, _⟩ => rfl
  | ⟨1, _⟩ => rfl

/-- A column repeated over 3 columns reads the column's entry of the same row. -/
theorem bcast3_apply (x : FVec Ideal S2000x1 .f32) (r : Fin 2000) (a : Fin 3) :
    broadcastTo S2000x3 x broadcasts_S2000x1_S2000x3 (ix2 r a) = x (ix2 r (0 : Fin 1)) := by
  refine broadcastTo_apply x _ (ix2 r a) (ix2 r (0 : Fin 1)) (fun b => ?_)
  match b with
  | ⟨0, _⟩ => rfl
  | ⟨1, _⟩ => rfl

/-- A bias row of length 128, viewed as one row and repeated on every node row, reads its entry of the column. -/
theorem bias_apply (b : FVec Ideal S128 .f32) (r : Fin 2000) (c : Fin 128) :
    broadcastTo S2000x128 (shapeCast S1x128 b shapeCasts_S128_S1x128) broadcasts_S1x128_S2000x128 (ix2 r c)
      = b (ix1 c) := by
  rw [broadcastTo_apply _ _ (ix2 r c) (ix2 (0 : Fin 1) c) (fun a => by
    match a with
    | ⟨0, _⟩ => rfl
    | ⟨1, _⟩ => rfl)]
  rw [shapeCast_addUnit_apply ![128] b shapeCasts_S128_S1x128 (ix2 (0 : Fin 1) c)]
  congr 1
  funext d
  match d with
  | ⟨0, _⟩ => rfl

/-! ## The row `[h | mean message]` -/

/-- The two-piece concatenation along the columns, at a column of the first piece. -/
theorem cat_left_apply (x y : FVec Ideal S2000x128 .f32) (r : Fin 2000) (k : Fin 128) :
    concatenate S2000x256 1 [⟨S2000x128, x⟩, ⟨S2000x128, y⟩] concatenates_S2000x128_S2000x128_S2000x256_d1
        (ix2 r (Fin.castAdd 128 k : Fin 256)) = x (ix2 r k) := by
  refine concatenate_pair_apply_left (1 : Fin S2000x256.rank) x y _ (ix2 r (Fin.castAdd 128 k : Fin 256)) rfl (ix2 r k)
    (fun b => ?_)
  match b with
  | ⟨0, _⟩ => rfl
  | ⟨1, _⟩ => rfl

/-- The two-piece concatenation along the columns, at a column of the second piece. -/
theorem cat_right_apply (x y : FVec Ideal S2000x128 .f32) (r : Fin 2000) (k : Fin 128) :
    concatenate S2000x256 1 [⟨S2000x128, x⟩, ⟨S2000x128, y⟩] concatenates_S2000x128_S2000x128_S2000x256_d1
        (ix2 r (Fin.natAdd 128 k : Fin 256)) = y (ix2 r k) := by
  refine concatenate_pair_apply_right (1 : Fin S2000x256.rank) x y _ (ix2 r (Fin.natAdd 128 k : Fin 256)) rfl rfl (ix2 r k)
    (fun b hb => ?_) ?_
  · match b with
    | ⟨0, _⟩ => rfl
    | ⟨1, _⟩ => exact absurd rfl hb
  · show k.val + 128 = 128 + k.val
    omega

/-- The concatenated row is the two rows appended. -/
theorem cat_apply (x y : FVec Ideal S2000x128 .f32) (r : Fin 2000) (j : Fin 256) :
    concatenate S2000x256 1 [⟨S2000x128, x⟩, ⟨S2000x128, y⟩] concatenates_S2000x128_S2000x128_S2000x256_d1 (ix2 r j)
      = (Fin.append (fun k : Fin 128 => x (ix2 r k)) (fun k : Fin 128 => y (ix2 r k)) : Fin 256 → EReal) j := by
  refine Fin.addCases (m := 128) (n := 128)
    (motive := fun j : Fin (128 + 128) =>
      concatenate S2000x256 1 [⟨S2000x128, x⟩, ⟨S2000x128, y⟩] concatenates_S2000x128_S2000x128_S2000x256_d1 (ix2 r (j : Fin 256))
        = Fin.append (fun k : Fin 128 => x (ix2 r k)) (fun k : Fin 128 => y (ix2 r k)) j) (fun k => ?_) (fun k => ?_) j
  · rw [Fin.append_left]; exact cat_left_apply x y r k
  · rw [Fin.append_right]; exact cat_right_apply x y r k

/-! ## The two matrix products at an index -/

/- The operand indices of the first product at an output index and a contraction index, axis by axis: the left
   operand is read at (row, contracted column), the right at (contracted column, column). -/
theorem lhs_mm1_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mm1_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mm1_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mm1_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The first product, `[2000, 256] · [256, 128]` into zero, at `(r, c)`: the sum over the 256 contracted columns. -/
theorem mm1_apply (A : FVec Ideal S2000x256 .bf16) (W : FVec Ideal S256x128 .bf16) (r : Fin 2000) (c : Fin 128) :
    matmul dot_S2000x256_S256x128_S2000x128_1_0_0_1_n_n none A W (constant S2000x128 .f32 0x00000000#32) (ix2 r c)
      = ∑ k : Fin 256, A (ix2 r k) * W (ix2 k c) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 r c) ((contrEquiv1 dot_S2000x256_S256x128_S2000x128_1_0_0_1_n_n 256 rfl rfl).symm k) = ix2 r k := funext fun a => Fin.ext (by
    match a with
    | ⟨0, _⟩ => exact lhs_mm1_0 _ _
    | ⟨1, _⟩ => exact (lhs_mm1_1 _ _).trans hk)
  have er : dot_S2000x256_S256x128_S2000x128_1_0_0_1_n_n.rhsIdx (ix2 r c) ((contrEquiv1 dot_S2000x256_S256x128_S2000x128_1_0_0_1_n_n 256 rfl rfl).symm k) = ix2 k c := funext fun a => Fin.ext (by
    match a with
    | ⟨0, _⟩ => exact (rhs_mm1_0 _ _).trans hk
    | ⟨1, _⟩ => exact rhs_mm1_1 _ _)
  rw [el, er]

/- The same four coordinates for the second product. -/
theorem lhs_mm2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The second product, `[2000, 128] · [128, 128]` into zero, at `(r, c)`: the sum over the 128 contracted columns. -/
theorem mm2_apply (A : FVec Ideal S2000x128 .bf16) (W : FVec Ideal S128x128 .bf16) (r : Fin 2000) (c : Fin 128) :
    matmul dot_S2000x128_S128x128_S2000x128_1_0_0_1_n_n none A W (constant S2000x128 .f32 0x00000000#32) (ix2 r c)
      = ∑ k : Fin 128, A (ix2 r k) * W (ix2 k c) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r c) ((contrEquiv1 dot_S2000x128_S128x128_S2000x128_1_0_0_1_n_n 128 rfl rfl).symm k) = ix2 r k := funext fun a => Fin.ext (by
    match a with
    | ⟨0, _⟩ => exact lhs_mm2_0 _ _
    | ⟨1, _⟩ => exact (lhs_mm2_1 _ _).trans hk)
  have er : dot_S2000x128_S128x128_S2000x128_1_0_0_1_n_n.rhsIdx (ix2 r c) ((contrEquiv1 dot_S2000x128_S128x128_S2000x128_1_0_0_1_n_n 128 rfl rfl).symm k) = ix2 k c := funext fun a => Fin.ext (by
    match a with
    | ⟨0, _⟩ => exact (rhs_mm2_0 _ _).trans hk
    | ⟨1, _⟩ => exact rhs_mm2_1 _ _)
  rw [el, er]

/-! ## The node update at an index -/

/-- At the extended reals the logistic of a vector, at an index, is the logistic of the entry. -/
theorem logistic_apply {s : Shape} {φ : FTy} (a : FVec Ideal s φ) (i : s.Idx) : logistic a i = Ideal.logistic (a i) := rfl

/-- The mean message at `(r, k)`: the summed message over the divisor of the row. -/
theorem mean_apply (v1 : Vec Ideal S2000x1 .f32) (v5 : Vec Ideal S2000x128 .f32) (r : Fin 2000) (k : Fin 128) :
    divf (shapeCast S2000x128 v5 shapeCasts_S2000x128_S2000x128)
        (broadcastTo S2000x128 (k1_pay1 (F := Ideal) v1) broadcasts_S2000x1_S2000x128) (ix2 r k)
      = Ideal.div (v5 (ix2 r k)) (max (v1 (ix2 r (0 : Fin 1))) 1) := by
  rw [shapeCast_self, divf_apply, bcast128_apply, pay1_apply]

/-- The first dense layer at `(r, k)`, over the row `[x | y]`. -/
theorem lin1_apply (x y : FVec Ideal S2000x128 .f32) (v11 : FVec Ideal S256x128 .bf16) (v14 : FVec Ideal S128 .f32)
    (r : Fin 2000) (k : Fin 128) :
    addf (matmul dot_S2000x256_S256x128_S2000x128_1_0_0_1_n_n none
            (truncf .bf16 (concatenate S2000x256 1 [⟨S2000x128, x⟩, ⟨S2000x128, y⟩] concatenates_S2000x128_S2000x128_S2000x256_d1) bitsLt_bf16_f32)
            (shapeCast S256x128 v11 shapeCasts_S256x128_S256x128) (constant S2000x128 .f32 0x00000000#32))
         (broadcastTo S2000x128 (shapeCast S1x128 v14 shapeCasts_S128_S1x128) broadcasts_S1x128_S2000x128) (ix2 r k)
      = Cert.Layer.dense (Fin.append (fun j : Fin 128 => x (ix2 r j)) (fun j : Fin 128 => y (ix2 r j)) : Fin 256 → EReal)
          (fun j => v11 (ix2 j k)) (v14 (ix1 k)) := by
  rw [addf_apply, shapeCast_self, mm1_apply, bias_apply]
  unfold Cert.Layer.dense
  refine congrArg (· + v14 (ix1 k)) (Finset.sum_congr rfl fun j _ => ?_)
  rw [truncf_apply, cat_apply]

/-- The second dense layer at `(r, c)`, over a hidden row `a`. -/
theorem lin2_apply (a : FVec Ideal S2000x128 .f32) (v21 : FVec Ideal S128x128 .bf16) (v24 : FVec Ideal S128 .f32)
    (r : Fin 2000) (c : Fin 128) :
    addf (matmul dot_S2000x128_S128x128_S2000x128_1_0_0_1_n_n none (truncf .bf16 a bitsLt_bf16_f32)
            (shapeCast S128x128 v21 shapeCasts_S128x128_S128x128) (constant S2000x128 .f32 0x00000000#32))
         (broadcastTo S2000x128 (shapeCast S1x128 v24 shapeCasts_S128_S1x128) broadcasts_S1x128_S2000x128) (ix2 r c)
      = Cert.Layer.dense (fun k : Fin 128 => a (ix2 r k)) (fun k => v21 (ix2 k c)) (v24 (ix1 c)) := by
  rw [addf_apply, shapeCast_self, mm2_apply, bias_apply]
  unfold Cert.Layer.dense
  refine congrArg (· + v24 (ix1 c)) (Finset.sum_congr rfl fun k _ => ?_)
  rw [truncf_apply]

/-- The node update over a features block `x` and a mean-message block `y`, at `(r, c)`. -/
theorem node_apply (x y : FVec Ideal S2000x128 .f32) (v11 : FVec Ideal S256x128 .bf16) (v14 : FVec Ideal S128 .f32)
    (v21 : FVec Ideal S128x128 .bf16) (v24 : FVec Ideal S128 .f32) (r : Fin 2000) (c : Fin 128) :
    (have l1 : FVec Ideal S2000x128 .f32 :=
        addf (matmul dot_S2000x256_S256x128_S2000x128_1_0_0_1_n_n none
              (truncf .bf16 (concatenate S2000x256 1 [⟨S2000x128, x⟩, ⟨S2000x128, y⟩] concatenates_S2000x128_S2000x128_S2000x256_d1) bitsLt_bf16_f32)
              (shapeCast S256x128 v11 shapeCasts_S256x128_S256x128) (constant S2000x128 .f32 0x00000000#32))
           (broadcastTo S2000x128 (shapeCast S1x128 v14 shapeCasts_S128_S1x128) broadcasts_S1x128_S2000x128)
     addf x (addf (matmul dot_S2000x128_S128x128_S2000x128_1_0_0_1_n_n none (truncf .bf16 (mulf l1 (logistic l1)) bitsLt_bf16_f32)
              (shapeCast S128x128 v21 shapeCasts_S128x128_S128x128) (constant S2000x128 .f32 0x00000000#32))
           (broadcastTo S2000x128 (shapeCast S1x128 v24 shapeCasts_S128_S1x128) broadcasts_S1x128_S2000x128))) (ix2 r c)
      = Cert.Layer.hNew (fun k c => v11 (ix2 k c)) (fun c => v14 (ix1 c)) (fun k c => v21 (ix2 k c)) (fun c => v24 (ix1 c))
          (fun k => x (ix2 r k)) (fun k => y (ix2 r k)) c := by
  show x (ix2 r c) + _ = _
  rw [lin2_apply]
  unfold Cert.Layer.hNew
  refine congrArg (x (ix2 r c) + ·) (congrArg (fun a : Fin 128 → EReal => Cert.Layer.dense a (fun k => v21 (ix2 k c)) (v24 (ix1 c))) (funext fun k => ?_))
  rw [mulf_apply, logistic_apply, lin1_apply]
  rfl

/-- THE FIRST STORED VALUE at `(r, c)`: the node update of the features of row `r`, with the mean message
    `s / max (n, 1)`. -/
theorem pay2_apply (v0 : Vec Ideal S2000x128 .f32) (v1 : Vec Ideal S2000x1 .f32) (v5 : Vec Ideal S2000x128 .f32)
    (v11 : Vec Ideal S256x128 .bf16) (v14 : Vec Ideal S128 .f32) (v21 : Vec Ideal S128x128 .bf16) (v24 : Vec Ideal S128 .f32)
    (r : Fin 2000) (c : Fin 128) :
    k1_pay2 (F := Ideal) v0 v1 v5 v11 v14 v21 v24 (ix2 r c)
      = Cert.Layer.hNew (fun k c => v11 (ix2 k c)) (fun c => v14 (ix1 c)) (fun k c => v21 (ix2 k c)) (fun c => v24 (ix1 c))
          (fun k => v0 (ix2 r k)) (fun k => Ideal.div (v5 (ix2 r k)) (max (v1 (ix2 r (0 : Fin 1))) 1)) c := by
  have hm : (fun k : Fin 128 => divf (shapeCast S2000x128 v5 shapeCasts_S2000x128_S2000x128)
        (broadcastTo S2000x128 (k1_pay1 (F := Ideal) v1) broadcasts_S2000x1_S2000x128) (ix2 r k))
      = fun k => Ideal.div (v5 (ix2 r k)) (max (v1 (ix2 r (0 : Fin 1))) 1) := funext fun k => mean_apply v1 v5 r k
  rw [← hm]
  unfold k1_pay2
  exact node_apply v0 (divf (shapeCast S2000x128 v5 shapeCasts_S2000x128_S2000x128)
        (broadcastTo S2000x128 (k1_pay1 (F := Ideal) v1) broadcasts_S2000x1_S2000x128)) v11 v14 v21 v24 r c

/-- THE SECOND STORED VALUE at `(r, a)`: the coordinate plus the mean scaled difference `t / max (n, 1)`. -/
theorem pay3_apply (v1 : Vec Ideal S2000x1 .f32) (v30 v34 : Vec Ideal S2000x3 .f32) (r : Fin 2000) (a : Fin 3) :
    k1_pay3 (F := Ideal) v1 v30 v34 (ix2 r a)
      = v34 (ix2 r a) + Ideal.div (v30 (ix2 r a)) (max (v1 (ix2 r (0 : Fin 1))) 1) := by
  unfold k1_pay3
  show v34 (ix2 r a) + Ideal.div (shapeCast S2000x3 v30 shapeCasts_S2000x3_S2000x3 (ix2 r a))
      (broadcastTo S2000x3 (k1_pay1 (F := Ideal) v1) broadcasts_S2000x1_S2000x3 (ix2 r a)) = _
  rw [shapeCast_self, bcast3_apply, pay1_apply]

end Cert.KernelIdeal.NodeValue

end
-- ==== Proof.NodeArrays.lean ====
/-
  The node step's two result arrays after all their write-backs, read at one index on the extended reals.

  The step runs over 25 points. Point `t` sees rows `2000 · t … 2000 · t + 1999` of the five node arrays (features,
  summed messages, edge counts, coordinates, summed scaled differences) and the two weight matrices and two bias rows
  whole, and writes rows `2000 · t … 2000 · t + 1999` of the two results. Row `p` of a block at point `t` is row
  `2000 · t + p` of its array, so what point `t` writes is block `t` of ONE array: node `n`'s new features are the
  node update of its features with its mean message `s / max (count, 1)`, and its new coordinates are
  `x + d / max (count, 1)`. The 25 blocks tile the 50000 rows (row `n` lies in block `n / 2000`), so each result
  array ends equal to that array everywhere.
-/
import proofs.«431152_j56135222559302_3_alg».proof.Proof.NodeRegionIdeal
import proofs.«431152_j56135222559302_3_alg».proof.Proof.NodePayload
import proofs.«431152_j56135222559302_3_alg».proof.Proof.LayerSpec
import Idealize.ShloMosaic.Lib.Pipeline.Value
import Idealize.ShloMosaic.Lib.ValueIdx

noncomputable section

namespace Cert.KernelIdeal.NodeArrays

open Cert.KernelIdeal Cert.KernelIdeal.Gen Cert.KernelIdeal.Whole Cert.KernelIdeal.NodeValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## The arrays the node step reads, by their literal types -/

/-- The node features, `[50000, 128]`. -/
abbrev nH : Vec Ideal S50000x128 .f32 := V c main_arg0
/-- The summed messages, `[50000, 128]`. -/
abbrev nMS : Vec Ideal S50000x128 .f32 := V c main_v51
/-- The incoming-edge counts, `[50000, 1]`. -/
abbrev nCN : Vec Ideal S50000x1 .f32 := V c main_v53
/-- The node coordinates, `[50000, 3]`. -/
abbrev nX : Vec Ideal S50000x3 .f32 := V c main_arg1
/-- The summed scaled differences, `[50000, 3]`. -/
abbrev nDS : Vec Ideal S50000x3 .f32 := V c main_v52
/-- The first dense layer's weights, `[256, 128]`. -/
abbrev nW1 : Vec Ideal S256x128 .bf16 := V c main_v54
/-- The first dense layer's bias, `[128]`. -/
abbrev nb1 : Vec Ideal S128 .f32 := V c main_arg15
/-- The second dense layer's weights, `[128, 128]`. -/
abbrev nW2 : Vec Ideal S128x128 .bf16 := V c main_v55
/-- The second dense layer's bias, `[128]`. -/
abbrev nb2 : Vec Ideal S128 .f32 := V c main_arg17

/-! ## Where a block sits in its array -/

theorem hz2 : (![0, 0] : Fin 2 → Nat) = fun _ => 0 := funext fun a => by fin_cases a <;> rfl
theorem hz1 : (![0] : Fin 1 → Nat) = fun _ => 0 := funext fun a => by fin_cases a <;> rfl

/-- The block index maps over the 25 points: the seven row-blocked windows sit at block `(t, 0)`, the four whole
    arrays at block `0`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-- Row `p` of the block of point `t` is row `2000 · t + p` of the array. -/
abbrev rowAt (t : Fin cfg1.N) (p : Fin 2000) : Fin 50000 :=
  ⟨t.val * 2000 + p.val, by have h : t.val < grid1.N := t.isLt; rw [N_1] at h; have := p.isLt; omega⟩

/-- The features' block at point `t`, at `(p, k)`. -/
theorem blk0_apply (t : Fin cfg1.N) (p : Fin 2000) (k : Fin 128) :
    (iblk1 V c 0 t : Vec Ideal S2000x128 .f32) (ix2 p k) = nH V c (ix2 (rowAt t p) k) := by
  unfold iblk1
  rw [View.read_apply]
  show V c main_arg0 _ = V c main_arg0 _
  congr 1
  funext a; apply Fin.ext
  match a with
  | ⟨0, _⟩ => show win1_0.index t (0 : Fin 2) * 2000 + 1 * p.val = t.val * 2000 + p.val; rw [(idx_facts t).1.1]; omega
  | ⟨1, _⟩ => show win1_0.index t (1 : Fin 2) * 128 + 1 * k.val = k.val; rw [(idx_facts t).1.2]; omega

/-- The summed messages' block at point `t`, at `(p, k)`. -/
theorem blk1_apply (t : Fin cfg1.N) (p : Fin 2000) (k : Fin 128) :
    (iblk1 V c 1 t : Vec Ideal S2000x128 .f32) (ix2 p k) = nMS V c (ix2 (rowAt t p) k) := by
  unfold iblk1
  rw [View.read_apply]
  show V c main_v51 _ = V c main_v51 _
  congr 1
  funext a; apply Fin.ext
  match a with
  | ⟨0, _⟩ => show win1_1.index t (0 : Fin 2) * 2000 + 1 * p.val = t.val * 2000 + p.val; rw [(idx_facts t).2.1.1]; omega
  | ⟨1, _⟩ => show win1_1.index t (1 : Fin 2) * 128 + 1 * k.val = k.val; rw [(idx_facts t).2.1.2]; omega

/-- The counts' block at point `t`, at `(p, z)`. -/
theorem blk2_apply (t : Fin cfg1.N) (p : Fin 2000) (z : Fin 1) :
    (iblk1 V c 2 t : Vec Ideal S2000x1 .f32) (ix2 p z) = nCN V c (ix2 (rowAt t p) z) := by
  unfold iblk1
  rw [View.read_apply]
  show V c main_v53 _ = V c main_v53 _
  congr 1
  funext a; apply Fin.ext
  match a with
  | ⟨0, _⟩ => show win1_2.index t (0 : Fin 2) * 2000 + 1 * p.val = t.val * 2000 + p.val; rw [(idx_facts t).2.2.1.1]; omega
  | ⟨1, _⟩ => show win1_2.index t (1 : Fin 2) * 1 + 1 * z.val = z.val; rw [(idx_facts t).2.2.1.2]; omega

/-- The coordinates' block at point `t`, at `(p, a)`. -/
theorem blk3_apply (t : Fin cfg1.N) (p : Fin 2000) (a : Fin 3) :
    (iblk1 V c 3 t : Vec Ideal S2000x3 .f32) (ix2 p a) = nX V c (ix2 (rowAt t p) a) := by
  unfold iblk1
  rw [View.read_apply]
  show V c main_arg1 _ = V c main_arg1 _
  congr 1
  funext b; apply Fin.ext
  match b with
  | ⟨0, _⟩ => show win1_3.index t (0 : Fin 2) * 2000 + 1 * p.val = t.val * 2000 + p.val; rw [(idx_facts t).2.2.2.1.1]; omega
  | ⟨1, _⟩ => show win1_3.index t (1 : Fin 2) * 3 + 1 * a.val = a.val; rw [(idx_facts t).2.2.2.1.2]; omega

/-- The summed differences' block at point `t`, at `(p, a)`. -/
theorem blk4_apply (t : Fin cfg1.N) (p : Fin 2000) (a : Fin 3) :
    (iblk1 V c 4 t : Vec Ideal S2000x3 .f32) (ix2 p a) = nDS V c (ix2 (rowAt t p) a) := by
  unfold iblk1
  rw [View.read_apply]
  show V c main_v52 _ = V c main_v52 _
  congr 1
  funext b; apply Fin.ext
  match b with
  | ⟨0, _⟩ => show win1_4.index t (0 : Fin 2) * 2000 + 1 * p.val = t.val * 2000 + p.val; rw [(idx_facts t).2.2.2.2.1.1]; omega
  | ⟨1, _⟩ => show win1_4.index t (1 : Fin 2) * 3 + 1 * a.val = a.val; rw [(idx_facts t).2.2.2.2.1.2]; omega

/-- The first weights are seen whole at every point. -/
theorem blk5_apply (t : Fin cfg1.N) (k : Fin 256) (q : Fin 128) :
    (iblk1 V c 5 t : Vec Ideal S256x128 .bf16) (ix2 k q) = nW1 V c (ix2 k q) := by
  unfold iblk1
  rw [View.read_apply]
  show V c main_v54 _ = V c main_v54 _
  congr 1
  funext b; apply Fin.ext
  match b with
  | ⟨0, _⟩ => show win1_5.index t (0 : Fin 2) * 256 + 1 * k.val = k.val; rw [(idx_facts t).2.2.2.2.2.1.1]; omega
  | ⟨1, _⟩ => show win1_5.index t (1 : Fin 2) * 128 + 1 * q.val = q.val; rw [(idx_facts t).2.2.2.2.2.1.2]; omega

/-- The first bias is seen whole at every point. -/
theorem blk6_apply (t : Fin cfg1.N) (q : Fin 128) :
    (iblk1 V c 6 t : Vec Ideal S128 .f32) (ix1 q) = nb1 V c (ix1 q) := by
  unfold iblk1
  rw [View.read_apply]
  show V c main_arg15 _ = V c main_arg15 _
  congr 1
  funext b; apply Fin.ext
  match b with
  | ⟨0, _⟩ => show win1_6.index t (0 : Fin 1) * 128 + 1 * q.val = q.val; rw [(idx_facts t).2.2.2.2.2.2.1]; omega

/-- The second weights are seen whole at every point. -/
theorem blk7_apply (t : Fin cfg1.N) (k q : Fin 128) :
    (iblk1 V c 7 t : Vec Ideal S128x128 .bf16) (ix2 k q) = nW2 V c (ix2 k q) := by
  unfold iblk1
  rw [View.read_apply]
  show V c main_v55 _ = V c main_v55 _
  congr 1
  funext b; apply Fin.ext
  match b with
  | ⟨0, _⟩ => show win1_7.index t (0 : Fin 2) * 128 + 1 * k.val = k.val; rw [(idx_facts t).2.2.2.2.2.2.2.1.1]; omega
  | ⟨1, _⟩ => show win1_7.index t (1 : Fin 2) * 128 + 1 * q.val = q.val; rw [(idx_facts t).2.2.2.2.2.2.2.1.2]; omega

/-- The second bias is seen whole at every point. -/
theorem blk8_apply (t : Fin cfg1.N) (q : Fin 128) :
    (iblk1 V c 8 t : Vec Ideal S128 .f32) (ix1 q) = nb2 V c (ix1 q) := by
  unfold iblk1
  rw [View.read_apply]
  show V c main_arg17 _ = V c main_arg17 _
  congr 1
  funext b; apply Fin.ext
  match b with
  | ⟨0, _⟩ => show win1_8.index t (0 : Fin 1) * 128 + 1 * q.val = q.val; rw [(idx_facts t).2.2.2.2.2.2.2.2.1]; omega

/-- An array of the new features' shape, read through the block of point `t`, at `(p, q)`. -/
theorem read9_apply (G : S50000x128.Idx → Elt Ideal .f32) (t : Fin cfg1.N) (p : Fin 2000) (q : Fin 128) :
    ((cfg1.win 9).blk t).view.read (Elt Ideal) G (ix2 p q) = G (ix2 (rowAt t p) q) := by
  rw [View.read_apply]
  show G _ = G _
  congr 1
  funext b; apply Fin.ext
  match b with
  | ⟨0, _⟩ => show win1_9.index t (0 : Fin 2) * 2000 + 1 * p.val = t.val * 2000 + p.val; rw [(idx_facts t).2.2.2.2.2.2.2.2.2.1.1]; omega
  | ⟨1, _⟩ => show win1_9.index t (1 : Fin 2) * 128 + 1 * q.val = q.val; rw [(idx_facts t).2.2.2.2.2.2.2.2.2.1.2]; omega

/-- An array of the new coordinates' shape, read through the block of point `t`, at `(p, a)`. -/
theorem read10_apply (G : S50000x3.Idx → Elt Ideal .f32) (t : Fin cfg1.N) (p : Fin 2000) (a : Fin 3) :
    ((cfg1.win 10).blk t).view.read (Elt Ideal) G (ix2 p a) = G (ix2 (rowAt t p) a) := by
  rw [View.read_apply]
  show G _ = G _
  congr 1
  funext b; apply Fin.ext
  match b with
  | ⟨0, _⟩ => show win1_10.index t (0 : Fin 2) * 2000 + 1 * p.val = t.val * 2000 + p.val; rw [(idx_facts t).2.2.2.2.2.2.2.2.2.2.1]; omega
  | ⟨1, _⟩ => show win1_10.index t (1 : Fin 2) * 3 + 1 * a.val = a.val; rw [(idx_facts t).2.2.2.2.2.2.2.2.2.2.2]; omega

/-! ## The new features, as one array -/

/-- Node `n`'s new features at column `q`: the node update of its features with its mean message. -/
def g9 (n : Fin 50000) (q : Fin 128) : EReal :=
  Cert.Layer.hNew (fun k q => nW1 V c (ix2 k q)) (fun q => nb1 V c (ix1 q)) (fun k q => nW2 V c (ix2 k q)) (fun q => nb2 V c (ix1 q))
    (fun k => nH V c (ix2 n k)) (fun k => Ideal.div (nMS V c (ix2 n k)) (max (nCN V c (ix2 n (0 : Fin 1))) 1)) q

/-- The same as an array. -/
def G9 : S50000x128.Idx → Elt Ideal .f32 := fun i => g9 V c (i 0) (i 1)

/-- WHAT POINT `t` WRITES BACK to the new features is block `t` of that array. -/
theorem flushed9_eq (t : Fin cfg1.N) :
    (dat1 V c).flushed 9 t = ((cfg1.win 9).blk t).view.read (Elt Ideal) (G9 V c) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S2000x1) hz2,
    View.ld_unit_zero (S := S256x128) hz2, View.ld_unit_zero (S := S128) hz1, View.ld_unit_zero (S := S128x128) hz2]
  funext j
  obtain ⟨p, q, rfl⟩ : ∃ (p : Fin 2000) (q : Fin 128), j = ix2 p q := ⟨j 0, j 1, eq_ix2 j⟩
  refine Eq.trans ?_ (read9_apply (G9 V c) t p q).symm
  refine (pay2_apply (iblk1 V c 0 t) (iblk1 V c 2 t) (iblk1 V c 1 t) (iblk1 V c 5 t) (iblk1 V c 6 t) (iblk1 V c 7 t) (iblk1 V c 8 t) p q).trans ?_
  show _ = g9 V c (rowAt t p) q
  unfold g9
  simp only [blk0_apply V c, blk1_apply V c, blk2_apply V c, blk5_apply V c, blk6_apply V c, blk7_apply V c, blk8_apply V c]

/-- An index of the new features is in point `t`'s block iff each coordinate is in the block's range. -/
theorem mem_blk9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v56_0).slice (win1_9.rect t)).set ↔ _
  rw [View.set_slice_whole, Rect.mem_set_unit]
  exact Iff.rfl

/-- Every index of the new features is in the block of the point `row / 2000`. -/
theorem cover9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  refine ⟨⟨(i 0).val / 2000, by rw [show cfg1.N = 25 from N_1]; omega⟩, flush1_9 _, ?_⟩
  rw [mem_blk9]
  intro a
  match a with
  | ⟨0, _⟩ =>
    show win1_9.index _ (0 : Fin 2) * 2000 ≤ (i 0).val ∧ (i 0).val < win1_9.index _ (0 : Fin 2) * 2000 + 2000
    rw [(idx_facts _).2.2.2.2.2.2.2.2.2.1.1]
    show (i 0).val / 2000 * 2000 ≤ (i 0).val ∧ (i 0).val < (i 0).val / 2000 * 2000 + 2000
    omega
  | ⟨1, _⟩ =>
    show win1_9.index _ (1 : Fin 2) * 128 ≤ (i 1).val ∧ (i 1).val < win1_9.index _ (1 : Fin 2) * 128 + 128
    rw [(idx_facts _).2.2.2.2.2.2.2.2.2.1.2]
    omega

/-- THE NEW FEATURES after the node step: that array. -/
theorem final9 : (dat1 V c).arrAt 9 cfg1.N = G9 V c :=
  (dat1 V c).arrAt_eq_of_cover 9 (G9 V c) (fun t _ => flushed9_eq V c t) (cover9)

/-- THE NEW FEATURES at `(n, q)`. -/
theorem final9_apply (n : Fin 50000) (q : Fin 128) :
    (Cert.KernelIdeal.Whole.dat1 V c).arrAt 9 cfg1.N (ix2 n q)
      = Cert.Layer.hNew (fun k q => nW1 V c (ix2 k q)) (fun q => nb1 V c (ix1 q)) (fun k q => nW2 V c (ix2 k q)) (fun q => nb2 V c (ix1 q))
          (fun k => nH V c (ix2 n k)) (fun k => Ideal.div (nMS V c (ix2 n k)) (max (nCN V c (ix2 n (0 : Fin 1))) 1)) q := by
  rw [final9]
  rfl

/-! ## The new coordinates, as one array -/

/-- Node `n`'s new coordinate `a`: the coordinate plus the mean scaled difference. -/
def g10 (n : Fin 50000) (a : Fin 3) : EReal :=
  nX V c (ix2 n a) + Ideal.div (nDS V c (ix2 n a)) (max (nCN V c (ix2 n (0 : Fin 1))) 1)

/-- The same as an array. -/
def G10 : S50000x3.Idx → Elt Ideal .f32 := fun i => g10 V c (i 0) (i 1)

/-- WHAT POINT `t` WRITES BACK to the new coordinates is block `t` of that array. -/
theorem flushed10_eq (t : Fin cfg1.N) :
    (dat1 V c).flushed 10 t = ((cfg1.win 10).blk t).view.read (Elt Ideal) (G10 V c) := by
  show (cfg1.win 10).cut (grid1.coords t) ((dat1 V c).after 10 t) = _
  rw [after1_10]
  unfold out1_10
  rw [View.canon_unit_zero hz2]
  simp only [View.ld_unit_zero (S := S2000x3) hz2, View.ld_unit_zero (S := S2000x1) hz2]
  funext j
  obtain ⟨p, a, rfl⟩ : ∃ (p : Fin 2000) (a : Fin 3), j = ix2 p a := ⟨j 0, j 1, eq_ix2 j⟩
  refine Eq.trans ?_ (read10_apply (G10 V c) t p a).symm
  refine (pay3_apply (iblk1 V c 2 t) (iblk1 V c 4 t) (iblk1 V c 3 t) p a).trans ?_
  show _ = g10 V c (rowAt t p) a
  unfold g10
  rw [blk3_apply V c, blk4_apply V c, blk2_apply V c]

/-- An index of the new coordinates is in point `t`'s block iff each coordinate is in the block's range. -/
theorem mem_blk10 (t : Fin cfg1.N) (i : S50000x3.Idx) :
    i ∈ ((cfg1.win 10).blk t).view.set ↔ ∀ a : Fin 2, win1_10.index t a * S2000x3.size a ≤ (i a).val ∧ (i a).val < win1_10.index t a * S2000x3.size a + S2000x3.size a := by
  show i ∈ ((View.whole main_v56_1).slice (win1_10.rect t)).set ↔ _
  rw [View.set_slice_whole, Rect.mem_set_unit]
  exact Iff.rfl

/-- Every index of the new coordinates is in the block of the point `row / 2000`. -/
theorem cover10 (i : S50000x3.Idx) :
    ∃ t : Fin cfg1.N, (cfg1.win 10).flush t = true ∧ i ∈ ((cfg1.win 10).blk t).view.set := by
  have hi0 : (i 0).val < 50000 := (i 0).isLt
  have hi1 : (i 1).val < 3 := (i 1).isLt
  refine ⟨⟨(i 0).val / 2000, by rw [show cfg1.N = 25 from N_1]; omega⟩, flush1_10 _, ?_⟩
  rw [mem_blk10]
  intro a
  match a with
  | ⟨0, _⟩ =>
    show win1_10.index _ (0 : Fin 2) * 2000 ≤ (i 0).val ∧ (i 0).val < win1_10.index _ (0 : Fin 2) * 2000 + 2000
    rw [(idx_facts _).2.2.2.2.2.2.2.2.2.2.1]
    show (i 0).val / 2000 * 2000 ≤ (i 0).val ∧ (i 0).val < (i 0).val / 2000 * 2000 + 2000
    omega
  | ⟨1, _⟩ =>
    show win1_10.index _ (1 : Fin 2) * 3 ≤ (i 1).val ∧ (i 1).val < win1_10.index _ (1 : Fin 2) * 3 + 3
    rw [(idx_facts _).2.2.2.2.2.2.2.2.2.2.2]
    omega

/-- THE NEW COORDINATES after the node step: that array. -/
theorem final10 : (dat1 V c).arrAt 10 cfg1.N = G10 V c :=
  (dat1 V c).arrAt_eq_of_cover 10 (G10 V c) (fun t _ => flushed10_eq V c t) (cover10)

/-- THE NEW COORDINATES at `(n, a)`. -/
theorem final10_apply (n : Fin 50000) (a : Fin 3) :
    (Cert.KernelIdeal.Whole.dat1 V c).arrAt 10 cfg1.N (ix2 n a)
      = nX V c (ix2 n a) + Ideal.div (nDS V c (ix2 n a)) (max (nCN V c (ix2 n (0 : Fin 1))) 1) := by
  rw [final10]
  rfl

end Cert.KernelIdeal.NodeArrays

end
-- ==== Proof.LibScatterSum.lean ====
/-
  A float scatter-add whose scatter indices name ROWS (one start index per update row, the index vector of length
  one on the indices' last axis, the update's second axis the window) read at the extended reals as a sum over the
  update rows: the operand's element plus the updates of the rows whose (signed) start index is that element's row.
  An update whose start index is outside the operand contributes nothing, so no range fact about the indices is
  needed. Stated for the two forms a segment sum takes: matrix updates into a matrix, vector updates into a vector.
-/
import Idealize.ShloMosaic.PureOps.Ideal
import Idealize.ShloMosaic.PureOps.Contract
import Idealize.ShloMosaic.Lib.ValueIdx

noncomputable section

namespace Cert.LibScatterSum

open Idealize.ShloMosaic Idealize.ShloMosaic.ValueIdx

/-! ## Matrix form: row indices into a matrix -/

section Rows
variable {N E C : ℕ}

/-- The dimension numbers of a row scatter: updates `[E, C]` whose second axis is the window, into an operand
    `[N, C]` whose first axis is the inserted one, the start index's one component naming that first axis, the
    index vector on the scatter indices' last axis. -/
private abbrev rowsDims
    (wf : ScatterDims.WF (⟨2, ![N, C]⟩ : Shape) (⟨2, ![E, 1]⟩ : Shape) (⟨2, ![E, C]⟩ : Shape) [1] [0] [0] 1) :
    ScatterDims (⟨2, ![N, C]⟩ : Shape) (⟨2, ![E, 1]⟩ : Shape) (⟨2, ![E, C]⟩ : Shape) := ⟨[1], [0], [0], 1, wf⟩

variable (wf : ScatterDims.WF (⟨2, ![N, C]⟩ : Shape) (⟨2, ![E, 1]⟩ : Shape) (⟨2, ![E, C]⟩ : Shape) [1] [0] [0] 1)
  (idx : IVec (⟨2, ![E, 1]⟩ : Shape) 32) (j : (⟨2, ![E, C]⟩ : Shape).Idx)

/-- On the operand's row axis the window of update `j` starts at the signed index word of `j`'s row. -/
private theorem rows_start0 : (rowsDims wf).start j idx 0 = (idx (ix2 (j 0) (0 : Fin 1))).toInt := by
  unfold ScatterDims.start
  rw [dif_pos (show (0 : Fin 2) ∈ ([0] : List (Fin 2)) from List.mem_singleton.mpr rfl)]
  congr 2
  funext b; refine Fin.ext ?_
  match b with
  | ⟨0, _⟩ => rfl
  | ⟨1, _⟩ => rfl

/-- On the operand's column axis, which no start index component names, the window starts at `0`. -/
private theorem rows_start1 : (rowsDims wf).start j idx 1 = 0 := by
  unfold ScatterDims.start
  rw [dif_neg (show ¬ (1 : Fin 2) ∈ ([0] : List (Fin 2)) by decide)]

/-- The row axis is inserted: the window coordinate there is `0`. -/
private theorem rows_window0 : (rowsDims wf).window j 0 = 0 := by
  unfold ScatterDims.window
  have hk : (rowsDims wf).sKept = [1] := rfl
  rw [dif_neg (by rw [hk]; exact fun h => absurd (List.mem_singleton.mp h) (show ¬ ((0 : Fin 2) = 1) by decide))]

/-- The column axis carries the update's window axis: the window coordinate there is `j`'s column. -/
private theorem rows_window1 : (rowsDims wf).window j 1 = (j 1).val := by
  unfold ScatterDims.window
  have hk : (rowsDims wf).sKept = [1] := rfl
  rw [dif_pos (by rw [hk]; exact List.mem_singleton.mpr rfl)]
  rfl

/-- Update `j` lands at `(n, c)` exactly when its row's signed index word is `n` and its column is `c`; an index
    word outside `[0, N)` lands nowhere. -/
private theorem rows_resultIdx?_iff (n : Fin N) (c : Fin C) :
    (rowsDims wf).resultIdx? j idx = some (ix2 n c)
      ↔ (idx (ix2 (j 0) (0 : Fin 1))).toInt = (n.val : ℤ) ∧ j 1 = c := by
  unfold ScatterDims.resultIdx?
  constructor
  · intro h
    split at h
    · rename_i hr
      have h' := Option.some.inj h
      have h0 : ((rowsDims wf).start j idx 0 + (rowsDims wf).window j 0).toNat = n.val :=
        congrArg (fun i : (⟨2, ![N, C]⟩ : Shape).Idx => (i 0).val) h'
      have h1 : ((rowsDims wf).start j idx 1 + (rowsDims wf).window j 1).toNat = c.val :=
        congrArg (fun i : (⟨2, ![N, C]⟩ : Shape).Idx => (i 1).val) h'
      have hr0 := (hr 0).1
      rw [rows_start0, rows_window0] at h0 hr0
      rw [rows_start1, rows_window1] at h1
      exact ⟨by omega, Fin.ext (by omega)⟩
    · exact absurd h (by simp)
  · rintro ⟨h0, h1⟩
    have hr : ∀ a, 0 ≤ (rowsDims wf).start j idx a + (rowsDims wf).window j a ∧
        (rowsDims wf).start j idx a + (rowsDims wf).window j a < (⟨2, ![N, C]⟩ : Shape).size a := by
      intro a
      match a with
      | ⟨0, _⟩ =>
        show 0 ≤ (rowsDims wf).start j idx 0 + (rowsDims wf).window j 0 ∧
          (rowsDims wf).start j idx 0 + (rowsDims wf).window j 0 < ((N : ℕ) : ℤ)
        rw [rows_start0, rows_window0, h0]
        have := n.isLt
        omega
      | ⟨1, _⟩ =>
        show 0 ≤ (rowsDims wf).start j idx 1 + (rowsDims wf).window j 1 ∧
          (rowsDims wf).start j idx 1 + (rowsDims wf).window j 1 < ((C : ℕ) : ℤ)
        rw [rows_start1, rows_window1]
        have := idx2_lt1 j
        omega
    rw [dif_pos hr]
    congr 1
    funext a
    refine Fin.ext ?_
    match a with
    | ⟨0, _⟩ =>
      show ((rowsDims wf).start j idx 0 + (rowsDims wf).window j 0).toNat = n.val
      rw [rows_start0, rows_window0, h0]
      omega
    | ⟨1, _⟩ =>
      show ((rowsDims wf).start j idx 1 + (rowsDims wf).window j 1).toNat = c.val
      rw [rows_start1, rows_window1, ← h1]
      omega

end Rows

/-- Matrix form: `x[idx[e,0], :] += upd[e, :]` for every update row `e`. -/
theorem scatterAdd_rows_apply {N E C : ℕ}
    (d : ScatterDims (⟨2, ![N, C]⟩ : Shape) (⟨2, ![E, 1]⟩ : Shape) (⟨2, ![E, C]⟩ : Shape))
    (huw : d.updateWindowDims = [1]) (hiw : d.insertedWindowDims = [0])
    (hsd : d.scatterDimsToOperandDims = [0]) (hiv : d.indexVectorDim = 1)
    (x : FVec Ideal (⟨2, ![N, C]⟩ : Shape) .f32) (idx : IVec (⟨2, ![E, 1]⟩ : Shape) 32)
    (upd : FVec Ideal (⟨2, ![E, C]⟩ : Shape) .f32) (n : Fin N) (c : Fin C) :
    Host.scatterAdd (F := Ideal) d x idx upd (ix2 n c)
      = x (ix2 n c) + ∑ e ∈ Finset.univ.filter (fun e : Fin E => (idx (ix2 e (0 : Fin 1))).toInt = (n.val : ℤ)),
          upd (ix2 e c) := by
  obtain ⟨uw, iw, sd, iv, wf⟩ := d
  subst huw hiw hsd hiv
  show x (ix2 n c) + ∑ j ∈ Finset.univ.filter (fun j => (rowsDims wf).resultIdx? j idx = some (ix2 n c)), upd j = _
  congr 1
  -- the sum over the updates landing at (n, c), as a double sum over rows and columns; in row e only column c counts
  rw [Finset.sum_filter, sum_idx2, Finset.sum_filter]
  refine Finset.sum_congr rfl fun e _ => ?_
  calc (∑ b, if (rowsDims wf).resultIdx? (ix2 e b) idx = some (ix2 n c) then upd (ix2 e b) else 0)
      = ∑ b : Fin C, if ((idx (ix2 e (0 : Fin 1))).toInt = (n.val : ℤ) ∧ b = c) then upd (ix2 e b) else 0 :=
        Finset.sum_congr rfl fun b _ => if_congr (rows_resultIdx?_iff wf idx (ix2 e b) n c) rfl rfl
    _ = _ := by
        by_cases hP : (idx (ix2 e (0 : Fin 1))).toInt = (n.val : ℤ)
        · simp [hP]
        · simp [hP]

/-! ## Vector form: indices into a vector -/

section Vec
variable {N E : ℕ}

/-- The dimension numbers of an element scatter: updates `[E]` with no window axis, into an operand `[N]` whose
    one axis is the inserted one and the one the start index's component names. -/
private abbrev vecDims
    (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) := ⟨[], [0], [0], 1, wf⟩

variable (wf : ScatterDims.WF (⟨1, ![N]⟩ : Shape) (⟨2, ![E, 1]⟩ : Shape) (⟨1, ![E]⟩ : Shape) [] [0] [0] 1)
  (idx : IVec (⟨2, ![E, 1]⟩ : Shape) 32) (j : (⟨1, ![E]⟩ : Shape).Idx)

/-- The window of update `j` starts at the signed index word of `j`. -/
private theorem vec_start0 : (vecDims wf).start j idx 0 = (idx (ix2 (j 0) (0 : Fin 1))).toInt := by
  unfold ScatterDims.start
  rw [dif_pos (show (0 : Fin 1) ∈ ([0] : List (Fin 1)) from List.mem_singleton.mpr rfl)]
  congr 2
  funext b; refine Fin.ext ?_
  match b with
  | ⟨0, _⟩ => rfl
  | ⟨1, _⟩ => rfl

/-- The operand's one axis is inserted: the window coordinate there is `0`. -/
private theorem vec_window0 : (vecDims wf).window j 0 = 0 := by
  unfold ScatterDims.window
  have hk : (vecDims wf).sKept = [] := rfl
  rw [dif_neg (by rw [hk]; exact List.not_mem_nil)]

/-- Update `j` lands at `n` exactly when its signed index word is `n`; an index word outside `[0, N)` lands
    nowhere. -/
private theorem vec_resultIdx?_iff (n : Fin N) :
    (vecDims wf).resultIdx? j idx = some (ix1 n) ↔ (idx (ix2 (j 0) (0 : Fin 1))).toInt = (n.val : ℤ) := by
  unfold ScatterDims.resultIdx?
  constructor
  · intro h
    split at h
    · rename_i hr
      have h' := Option.some.inj h
      have h0 : ((vecDims wf).start j idx 0 + (vecDims wf).window j 0).toNat = n.val :=
        congrArg (fun i : (⟨1, ![N]⟩ : Shape).Idx => (i 0).val) h'
      have hr0 := (hr 0).1
      rw [vec_start0, vec_window0] at h0 hr0
      omega
    · exact absurd h (by simp)
  · intro h0
    have hr : ∀ a, 0 ≤ (vecDims wf).start j idx a + (vecDims wf).window j a ∧
        (vecDims wf).start j idx a + (vecDims wf).window j a < (⟨1, ![N]⟩ : Shape).size a := by
      intro a
      match a with
      | ⟨0, _⟩ =>
        show 0 ≤ (vecDims wf).start j idx 0 + (vecDims wf).window j 0 ∧
          (vecDims wf).start j idx 0 + (vecDims wf).window j 0 < ((N : ℕ) : ℤ)
        rw [vec_start0, vec_window0, h0]
        have := n.isLt
        omega
    rw [dif_pos hr]
    congr 1
    funext a
    refine Fin.ext ?_
    match a with
    | ⟨0, _⟩ =>
      show ((vecDims wf).start j idx 0 + (vecDims wf).window j 0).toNat = n.val
      rw [vec_start0, vec_window0, h0]
      omega

/-- A rank-1 index set is its one coordinate's range … -/
private def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

end Vec

/-- Vector form: `x[idx[e,0]] += upd[e]` for every update `e`. -/
theorem scatterAdd_vec_apply {N E : ℕ}
    (d : ScatterDims (⟨1, ![N]⟩ : Shape) (⟨2, ![E, 1]⟩ : Shape) (⟨1, ![E]⟩ : Shape))
    (huw : d.updateWindowDims = []) (hiw : d.insertedWindowDims = [0])
    (hsd : d.scatterDimsToOperandDims = [0]) (hiv : d.indexVectorDim = 1)
    (x : FVec Ideal (⟨1, ![N]⟩ : Shape) .f32) (idx : IVec (⟨2, ![E, 1]⟩ : Shape) 32)
    (upd : FVec Ideal (⟨1, ![E]⟩ : Shape) .f32) (n : Fin N) :
    Host.scatterAdd (F := Ideal) d x idx upd (ix1 n)
      = x (ix1 n) + ∑ e ∈ Finset.univ.filter (fun e : Fin E => (idx (ix2 e (0 : Fin 1))).toInt = (n.val : ℤ)),
          upd (ix1 e) := by
  obtain ⟨uw, iw, sd, iv, wf⟩ := d
  subst huw hiw hsd hiv
  show x (ix1 n) + ∑ j ∈ Finset.univ.filter (fun j => (vecDims wf).resultIdx? j idx = some (ix1 n)), upd j = _
  congr 1
  rw [Finset.sum_filter, sum_idx1, Finset.sum_filter]
  exact Finset.sum_congr rfl fun e _ => if_congr (vec_resultIdx?_iff wf idx (ix1 e) n) rfl rfl

end Cert.LibScatterSum

end
-- ==== Proof.SegmentSums.lean ====
/-
  The fused segment sum of the layer, read at the extended reals. The message rows `[400000, 128]`, the scaled
  coordinate differences `[400000, 3]` and a column of ones `[400000, 1]` are laid side by side into rows of 132;
  the rows are added into a zero array `[50000, 132]` at the rows the source words name; the result is cut back into
  its columns `0 … 127`, `128 … 130` and `131`. Read at one element, each cut is zero plus the sum over the edges
  whose (signed) source word is that node: of the message entry, of the scaled difference entry, and of `1` (the
  number of such edges). No range fact about the source words is needed: an edge whose word names no node adds
  nothing on either side.
-/
import proofs.«431152_j56135222559302_3_alg».proof.Proof.Gen.KernelIdeal
import proofs.«431152_j56135222559302_3_alg».proof.Proof.LibScatterSum
import proofs.«431152_j56135222559302_3_alg».proof.Proof.LayerSpec
import Idealize.ShloMosaic.Lib.Pipeline.Value
import Idealize.ShloMosaic.Lib.ValueIdx
import Idealize.ShloMosaic.PureOps.Ideal.Laws

noncomputable section

namespace Cert.KernelIdeal.SegmentSums

open Idealize.ShloMosaic Idealize.ShloMosaic.ValueIdx Cert.KernelIdeal
open Cert.KernelIdeal.Facts₀

/-- The column of ones: the word of `1.0` broadcast to `[400000, 1]`. -/
abbrev onesCol : S400000x1.Idx → EReal :=
  broadcastInDim S400000x1 ![] bcast_S_S400000x1 (constant (F := Ideal) S_ .f32 0x3F800000#32)

/-- The scattered rows `[400000, 132]`: message row, scaled difference row, one. -/
abbrev updates (M : S400000x128.Idx → EReal) (D : S400000x3.Idx → EReal) : S400000x132.Idx → EReal :=
  concatenate S400000x132 1 [⟨S400000x128, M⟩, ⟨S400000x3, D⟩, ⟨S400000x1, onesCol⟩]
    concatenates_S400000x128_S400000x3_S400000x1_S400000x132_d1

/-- The fused segment sum `[50000, 132]`: the rows of `updates` added into a zero array at the rows `src` names. -/
abbrev table (src : IVec S400000 32) (M : S400000x128.Idx → EReal) (D : S400000x3.Idx → EReal) :
    S50000x132.Idx → EReal :=
  Host.scatterAdd (F := Ideal) scatter_S50000x132_S400000x1_S400000x132_1_0_0_1
    (broadcastInDim S50000x132 ![] bcast_S_S50000x132 (constant (F := Ideal) S_ .f32 0x00000000#32))
    (broadcastInDim S400000x1 ![0] bcast_S400000_S400000x1_0 src) (updates M D)

variable (src : IVec S400000 32) (M : S400000x128.Idx → EReal) (D : S400000x3.Idx → EReal)

/-- Columns `0 … 127` of a scattered row are the message row. -/
theorem updates_msg (e : Fin 400000) (q : Fin 128) :
    updates M D (ix2 e (⟨q.val, by omega⟩ : Fin 132)) = M (ix2 e q) := by
  refine concatenate_apply_piece (t := S400000x132) (1 : Fin 2) [⟨S400000x128, M⟩, ⟨S400000x3, D⟩, ⟨S400000x1, onesCol⟩] _ _ 0 (by simp) S400000x128 M rfl rfl 0 rfl (ix2 e q) ?_ ?_
  · intro b hb
    match b with
    | ⟨0, _⟩ => rfl
    | ⟨1, _⟩ => exact absurd rfl hb
  · show 0 + q.val = q.val
    omega

/-- Columns `128 … 130` of a scattered row are the scaled difference row. -/
theorem updates_delta (e : Fin 400000) (a : Fin 3) :
    updates M D (ix2 e (⟨128 + a.val, by omega⟩ : Fin 132)) = D (ix2 e a) := by
  refine concatenate_apply_piece (t := S400000x132) (1 : Fin 2) [⟨S400000x128, M⟩, ⟨S400000x3, D⟩, ⟨S400000x1, onesCol⟩] _ _ 1 (by simp) S400000x3 D rfl rfl 128 rfl (ix2 e a) ?_ ?_
  · intro b hb
    match b with
    | ⟨0, _⟩ => rfl
    | ⟨1, _⟩ => exact absurd rfl hb
  · rfl

/-- Column `131` of a scattered row is `1`. -/
theorem updates_one (e : Fin 400000) :
    updates M D (ix2 e (⟨131, by omega⟩ : Fin 132)) = 1 := by
  have h : updates M D (ix2 e (⟨131, by omega⟩ : Fin 132)) = onesCol (ix2 e (0 : Fin 1)) := by
    refine concatenate_apply_piece (t := S400000x132) (1 : Fin 2) [⟨S400000x128, M⟩, ⟨S400000x3, D⟩, ⟨S400000x1, onesCol⟩] _ _ 2 (by simp) S400000x1 onesCol rfl rfl 131 rfl (ix2 e (0 : Fin 1)) ?_ ?_
    · intro b hb
      match b with
      | ⟨0, _⟩ => rfl
      | ⟨1, _⟩ => exact absurd rfl hb
    · rfl
  rw [h]
  show broadcastInDim S400000x1 ![] bcast_S_S400000x1 (constant (F := Ideal) S_ .f32 0x3F800000#32) (ix2 e (0 : Fin 1)) = 1
  rw [broadcastInDim_apply _ _ _ _ ix0 (fun a => a.elim0), constant_apply, Cert.Layer.ofBits_one_f32]

/-- The zero array `[50000, 132]` reads `0` everywhere. -/
theorem zeros_apply (i : S50000x132.Idx) :
    broadcastInDim S50000x132 ![] bcast_S_S50000x132 (constant (F := Ideal) S_ .f32 0x00000000#32) i = (0 : EReal) := by
  rw [broadcastInDim_apply _ _ _ _ ix0 (fun a => a.elim0), constant_apply, Ideal.ofBits_zero_f32]

/-- The row-index array `[400000, 1]` reads the source word of its row. -/
theorem srcCol_apply (e : Fin 400000) :
    broadcastInDim S400000x1 ![0] bcast_S400000_S400000x1_0 src (ix2 e (0 : Fin 1)) = src (ix1 e) := by
  refine broadcastInDim_apply _ _ _ _ (ix1 e) fun a => ?_
  match a with
  | ⟨0, _⟩ =>
    rw [if_neg (show ¬ S400000.size ⟨0, by decide⟩ = 1 by decide)]
    rfl

/-- The fused segment sum read at `(n, col)`: zero plus the sum, over the edges whose source word is `n`, of
    column `col` of their scattered rows. -/
theorem table_apply (n : Fin 50000) (col : Fin 132) :
    table src M D (ix2 n col)
      = 0 + Cert.Layer.segsum (fun e => src (ix1 e)) (fun e => updates M D (ix2 e col)) n := by
  unfold Cert.Layer.segsum
  have h := Cert.LibScatterSum.scatterAdd_rows_apply scatter_S50000x132_S400000x1_S400000x132_1_0_0_1 rfl rfl rfl rfl
    (broadcastInDim S50000x132 ![] bcast_S_S50000x132 (constant (F := Ideal) S_ .f32 0x00000000#32))
    (broadcastInDim S400000x1 ![0] bcast_S400000_S400000x1_0 src) (updates M D) n col
  rw [zeros_apply] at h
  rw [show table src M D (ix2 n col) = _ from h]
  refine congrArg (fun t : EReal => 0 + t) (Finset.sum_congr ?_ fun _ _ => rfl)
  exact Finset.filter_congr fun e _ => by rw [srcCol_apply]

/-- Columns `0 … 127` of the fused segment sum: the message rows summed over each node's edges. -/
theorem sum_msg (n : Fin 50000) (q : Fin 128) :
    extractStridedSlice S50000x128 ![0, 0] (table src M D) slices_S50000x132_S50000x128_0_0 (ix2 n q)
      = 0 + Cert.Layer.segsum (fun e => src (ix1 e)) (fun e => M (ix2 e q)) n := by
  have hs : extractStridedSlice S50000x128 ![0, 0] (table src M D) slices_S50000x132_S50000x128_0_0 (ix2 n q)
      = table src M D (ix2 n (⟨q.val, by omega⟩ : Fin 132)) := by
    refine extractStridedSlice_apply _ _ _ _ _ fun a => ?_
    match a with
    | ⟨0, _⟩ => show n.val = 0 + n.val; omega
    | ⟨1, _⟩ => show q.val = 0 + q.val; omega
  rw [hs, table_apply]
  exact congrArg (fun v => 0 + Cert.Layer.segsum (fun e => src (ix1 e)) v n) (funext fun e => updates_msg M D e q)

/-- Columns `128 … 130` of the fused segment sum: the scaled differences summed over each node's edges. -/
theorem sum_delta (n : Fin 50000) (a : Fin 3) :
    extractStridedSlice S50000x3 ![0, 128] (table src M D) slices_S50000x132_S50000x3_0_128 (ix2 n a)
      = 0 + Cert.Layer.segsum (fun e => src (ix1 e)) (fun e => D (ix2 e a)) n := by
  have hs : extractStridedSlice S50000x3 ![0, 128] (table src M D) slices_S50000x132_S50000x3_0_128 (ix2 n a)
      = table src M D (ix2 n (⟨128 + a.val, by omega⟩ : Fin 132)) := by
    refine extractStridedSlice_apply _ _ _ _ _ fun b => ?_
    match b with
    | ⟨0, _⟩ => show n.val = 0 + n.val; omega
    | ⟨1, _⟩ => rfl
  rw [hs, table_apply]
  exact congrArg (fun v => 0 + Cert.Layer.segsum (fun e => src (ix1 e)) v n) (funext fun e => updates_delta M D e a)

/-- Column `131` of the fused segment sum: the number of each node's edges. -/
theorem sum_count (n : Fin 50000) :
    extractStridedSlice S50000x1 ![0, 131] (table src M D) slices_S50000x132_S50000x1_0_131 (ix2 n (0 : Fin 1))
      = 0 + Cert.Layer.segsum (fun e => src (ix1 e)) (fun _ => (1 : EReal)) n := by
  have hs : extractStridedSlice S50000x1 ![0, 131] (table src M D) slices_S50000x132_S50000x1_0_131 (ix2 n (0 : Fin 1))
      = table src M D (ix2 n (⟨131, by omega⟩ : Fin 132)) := by
    refine extractStridedSlice_apply _ _ _ _ _ fun b => ?_
    match b with
    | ⟨0, _⟩ => show n.val = 0 + n.val; omega
    | ⟨1, _⟩ => rfl
  rw [hs, table_apply]
  exact congrArg (fun v => 0 + Cert.Layer.segsum (fun e => src (ix1 e)) v n) (funext fun e => updates_one M D e)

/-! ## The same three reads, for an array known to be the fused segment sum -/

/-- `sum_msg` for any array `X` equal to the fused segment sum. -/
theorem sum_msg_of {X : S50000x132.Idx → EReal} (hT : X = table src M D) (n : Fin 50000) (q : Fin 128) :
    extractStridedSlice S50000x128 ![0, 0] X slices_S50000x132_S50000x128_0_0 (ix2 n q)
      = 0 + Cert.Layer.segsum (fun e => src (ix1 e)) (fun e => M (ix2 e q)) n := by
  subst hT; exact sum_msg src M D n q

/-- `sum_delta` for any array `X` equal to the fused segment sum. -/
theorem sum_delta_of {X : S50000x132.Idx → EReal} (hT : X = table src M D) (n : Fin 50000) (a : Fin 3) :
    extractStridedSlice S50000x3 ![0, 128] X slices_S50000x132_S50000x3_0_128 (ix2 n a)
      = 0 + Cert.Layer.segsum (fun e => src (ix1 e)) (fun e => D (ix2 e a)) n := by
  subst hT; exact sum_delta src M D n a

/-- `sum_count` for any array `X` equal to the fused segment sum. -/
theorem sum_count_of {X : S50000x132.Idx → EReal} (hT : X = table src M D) (n : Fin 50000) :
    extractStridedSlice S50000x1 ![0, 131] X slices_S50000x132_S50000x1_0_131 (ix2 n (0 : Fin 1))
      = 0 + Cert.Layer.segsum (fun e => src (ix1 e)) (fun _ => (1 : EReal)) n := by
  subst hT; exact sum_count src M D n

end Cert.KernelIdeal.SegmentSums

end
-- ==== Proof.KernelValue.lean ====
/-
  The kernel program's two results as the layer's specification of the argument arrays.

  The node region's output arrays are, row by row, the node update of the arrays the region finds: the features,
  the summed messages, the edge counts, the coordinates, the summed scaled differences. The second host stretch made
  the three sums from ONE scatter-add: the message array, the scaled-difference array and a column of ones joined
  along the columns, added into zeros at each edge's source row, then cut back into the three column ranges; read
  at a node, each range is the sum over the edges whose source word is that node of the message, the scaled
  difference, or one. The edge region's output arrays are, row by row, the message and the scaled difference of the
  gathered feature rows. Put together, node `n`'s new features are the node update of `h n` and the mean message of
  its edges, and its new coordinates `x n` plus the mean scaled difference: `hOut` and `xOut`.
-/
import proofs.«431152_j56135222559302_3_alg».proof.Proof.HostValues
import proofs.«431152_j56135222559302_3_alg».proof.Proof.EdgeOfArgs
import proofs.«431152_j56135222559302_3_alg».proof.Proof.NodeArrays
import proofs.«431152_j56135222559302_3_alg».proof.Proof.SegmentSums
import proofs.«431152_j56135222559302_3_alg».proof.Proof.LayerSpec

set_option maxRecDepth 16384

noncomputable section

namespace Cert.KernelIdeal.KernelValue

open Cert.KernelIdeal Cert.KernelIdeal.Gen Cert.KernelIdeal.Whole Cert.KernelIdeal.HostValues Cert.KernelIdeal.EdgeOfArgs
  Cert.KernelIdeal.NodeArrays Cert.KernelIdeal.SegmentSums
open Idealize.ShloMosaic Idealize.ShloMosaic.TcCoe Idealize.SL.Sem Idealize.ShloMosaic.ValueIdx

variable (m : (ℓ : Loc nD τ sig) → Buf (Elt Ideal) ℓ) (c : Dev nD)

/-- The fused scatter-add of the second host stretch is the joined-and-scattered table of its three operands. -/
theorem fused_eq (src : IVec S400000 32) (M : S400000x128.Idx → EReal) (D : S400000x3.Idx → EReal) :
    fused src M D = table src M D := rfl

/-- The summed messages at node `n`, column `q`. -/
theorem nMS_apply (n : Fin 50000) (q : Fin 128) :
    nMS (Vin1 m) c (ix2 n q) = 0 + Cert.Layer.segsum (fun e => a2 m c (ix1 e)) (fun e => Cert.Layer.edgeMsg (HS m c) (HD m c) (X6 m c) (fun k q => a10 m c (ix2 k q)) (fun q => a11 m c (ix1 q)) (fun k q => a12 m c (ix2 k q)) (fun q => a13 m c (ix1 q)) e q) n := by
  show (Vin1 m c main_v51 : FVec Ideal S50000x128 .f32) (ix2 n q) = _
  rw [in1_v51]
  refine (sum_msg_of _ _ _ (fused_eq _ _ _) n q).trans ?_
  rw [B2_src]
  exact congrArg (fun t : EReal => 0 + t) (Finset.sum_congr rfl fun e _ => out13_of_args m c e q)

/-- The summed scaled differences at node `n`, coordinate `a`. -/
theorem nDS_apply (n : Fin 50000) (a : Fin 3) :
    nDS (Vin1 m) c (ix2 n a) = 0 + Cert.Layer.segsum (fun e => a2 m c (ix1 e)) (fun e => Cert.Layer.edgeDelta (HS m c) (HD m c) (X6 m c) (DF m c) (fun k q => a10 m c (ix2 k q)) (fun q => a11 m c (ix1 q)) (fun k q => a12 m c (ix2 k q)) (fun q => a13 m c (ix1 q)) (fun k q => a18 m c (ix2 k q)) (fun q => a19 m c (ix1 q)) (fun k => a20 m c (ix2 k (0 : Fin 1))) (a21 m c (ix1 (0 : Fin 1))) e a) n := by
  show (Vin1 m c main_v52 : FVec Ideal S50000x3 .f32) (ix2 n a) = _
  rw [in1_v52]
  refine (sum_delta_of _ _ _ (fused_eq _ _ _) n a).trans ?_
  rw [B2_src]
  exact congrArg (fun t : EReal => 0 + t) (Finset.sum_congr rfl fun e _ => out14_of_args m c e a)

/-- The edge count of node `n`. -/
theorem nCN_apply (n : Fin 50000) :
    nCN (Vin1 m) c (ix2 n (0 : Fin 1)) = 0 + Cert.Layer.segsum (fun e => a2 m c (ix1 e)) (fun _ => (1 : EReal)) n := by
  show (Vin1 m c main_v53 : FVec Ideal S50000x1 .f32) (ix2 n (0 : Fin 1)) = _
  rw [in1_v53]
  refine (sum_count_of _ _ _ (fused_eq _ _ _) n).trans ?_
  rw [B2_src]

/-- THE FIRST RESULT: node `n`'s new features. -/
theorem kernel_out0 (n : Fin 50000) (q : Fin 128) :
    (dat1 (Vin1 m) c).arrAt 9 cfg1.N (ix2 n q)
      = Cert.Layer.hOut (fun e => a2 m c (ix1 e)) (HS m c) (HD m c) (X6 m c) (fun k q => a10 m c (ix2 k q)) (fun q => a11 m c (ix1 q)) (fun k q => a12 m c (ix2 k q)) (fun q => a13 m c (ix1 q))
          (fun k q => a14 m c (ix2 k q)) (fun q => a15 m c (ix1 q)) (fun k q => a16 m c (ix2 k q)) (fun q => a17 m c (ix1 q))
          (fun n q => a0 m c (ix2 n q)) n q := by
  have e1 : (fun (k : Fin 256) (q : Fin 128) => nW1 (Vin1 m) c (ix2 k q)) = fun k q => a14 m c (ix2 k q) :=
    funext fun k => funext fun q => congrFun (in1_v54 m c) _
  have e2 : (fun (q : Fin 128) => nb1 (Vin1 m) c (ix1 q)) = fun q => a15 m c (ix1 q) :=
    funext fun q => congrFun (in1_arg15 m c) _
  have e3 : (fun (k : Fin 128) (q : Fin 128) => nW2 (Vin1 m) c (ix2 k q)) = fun k q => a16 m c (ix2 k q) :=
    funext fun k => funext fun q => congrFun (in1_v55 m c) _
  have e4 : (fun (q : Fin 128) => nb2 (Vin1 m) c (ix1 q)) = fun q => a17 m c (ix1 q) :=
    funext fun q => congrFun (in1_arg17 m c) _
  have e5 : (fun (k : Fin 128) => nH (Vin1 m) c (ix2 n k)) = fun k => a0 m c (ix2 n k) :=
    funext fun k => congrFun (in1_arg0 m c) _
  have e6 : (fun (k : Fin 128) => Ideal.div (nMS (Vin1 m) c (ix2 n k)) (max (nCN (Vin1 m) c (ix2 n (0 : Fin 1))) 1))
      = fun j => Cert.Layer.segmean (fun e => a2 m c (ix1 e)) (fun e => Cert.Layer.edgeMsg (HS m c) (HD m c) (X6 m c) (fun k q => a10 m c (ix2 k q)) (fun q => a11 m c (ix1 q)) (fun k q => a12 m c (ix2 k q)) (fun q => a13 m c (ix1 q)) e j) n :=
    funext fun k => by rw [nMS_apply, nCN_apply]; rfl
  rw [final9_apply (Vin1 m) c n q, e1, e2, e3, e4, e5, e6]
  rfl

/-- THE SECOND RESULT: node `n`'s new coordinates. -/
theorem kernel_out1 (n : Fin 50000) (a : Fin 3) :
    (dat1 (Vin1 m) c).arrAt 10 cfg1.N (ix2 n a)
      = Cert.Layer.xOut (fun e => a2 m c (ix1 e)) (HS m c) (HD m c) (X6 m c) (DF m c) (fun k q => a10 m c (ix2 k q)) (fun q => a11 m c (ix1 q)) (fun k q => a12 m c (ix2 k q)) (fun q => a13 m c (ix1 q)) (fun k q => a18 m c (ix2 k q)) (fun q => a19 m c (ix1 q)) (fun k => a20 m c (ix2 k (0 : Fin 1))) (a21 m c (ix1 (0 : Fin 1)))
          (fun n a => a1 m c (ix2 n a)) n a := by
  rw [final10_apply (Vin1 m) c n a, nDS_apply, nCN_apply]
  rw [show nX (Vin1 m) c (ix2 n a) = a1 m c (ix2 n a) from congrFun (in1_arg1 m c) _]
  rfl

end Cert.KernelIdeal.KernelValue

end
-- ==== Proof.RefValue.lean ====
/-
  The reference program's two results are the layer's specification of the argument arrays, index by index, at
  the extended reals.

  Bottom-up, one stage at a time over explicit coordinates: the concatenated feature row of an edge is
  `[h_src | h_dst | six scalars]`; a `dot_general` plus its broadcast bias is a dense layer; the five-operation
  `x · (1 / (1 + e⁻ˣ))` chain is `silu`; so the message row, the coefficient and the scaled coordinate difference
  of an edge are the specification's. A scatter-add into zeros over the source indices is the segment sum, the
  count clamped below by one is the denominator, their quotient the segment mean; the node MLP on `[h | mean]`
  added to `h` is the first result, the mean scaled difference added to `x` the second. The gathers stay closed:
  the specification takes the gathered rows as parameters.
-/
import proofs.«431152_j56135222559302_3_alg».proof.Proof.Gen.ReferenceIdeal.Read
import proofs.«431152_j56135222559302_3_alg».proof.Proof.LayerSpec
import proofs.«431152_j56135222559302_3_alg».proof.Proof.LibScatterSum
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

macro "idx2" : tactic => `(tactic| (funext a; match a with | ⟨0, _⟩ => rfl | ⟨1, _⟩ => rfl))
macro "idx1" : tactic => `(tactic| (funext a; match a with | ⟨0, _⟩ => rfl))

/-- `x · (1 / (1 + e⁻ˣ))` with both ones written as the word of `1.0` is `silu x`. -/
theorem silu_chain (x : EReal) :
    x * Ideal.div (Ideal.ofBits .f32 0x3F800000#32) (Ideal.ofBits .f32 0x3F800000#32 + Ideal.exp (-x)) = Cert.Layer.silu x := by
  rw [Cert.Layer.ofBits_one_f32, Cert.Layer.silu_eq]

/-- The eight-piece row concatenation read at column `k`: the two 128-wide blocks, then the six single columns. -/
theorem concat8_apply {α : Type} (y0 y1 : S400000x128.Idx → α) (y2 y3 y4 y5 y6 y7 : S400000x1.Idx → α)
    (h : Shape.Concatenates [S400000x128, S400000x128, S400000x1, S400000x1, S400000x1, S400000x1, S400000x1, S400000x1] S400000x262 1)
    (e : Fin 400000) (k : Fin 262) :
    concatenate S400000x262 1 [⟨S400000x128, y0⟩, ⟨S400000x128, y1⟩, ⟨S400000x1, y2⟩, ⟨S400000x1, y3⟩, ⟨S400000x1, y4⟩,
        ⟨S400000x1, y5⟩, ⟨S400000x1, y6⟩, ⟨S400000x1, y7⟩] h (ix2 e k)
      = (Fin.append (Fin.append (fun k : Fin 128 => y0 (ix2 e k)) (fun k : Fin 128 => y1 (ix2 e k)))
          ![y2 (ix2 e (0 : Fin 1)), y3 (ix2 e (0 : Fin 1)), y4 (ix2 e (0 : Fin 1)), y5 (ix2 e (0 : Fin 1)),
            y6 (ix2 e (0 : Fin 1)), y7 (ix2 e (0 : Fin 1))] : Fin 262 → α) k := by
  have hoff : ∀ b : Fin 2, b.cast (rfl : (2 : Nat) = 2) ≠ (1 : Fin 2) → b = 0 := by
    intro b hb
    match b with
    | ⟨0, _⟩ => rfl
    | ⟨1, _⟩ => exact absurd rfl hb
  refine Fin.addCases (m := 128 + 128) (n := 6)
    (motive := fun k => concatenate S400000x262 1 [⟨S400000x128, y0⟩, ⟨S400000x128, y1⟩, ⟨S400000x1, y2⟩, ⟨S400000x1, y3⟩,
        ⟨S400000x1, y4⟩, ⟨S400000x1, y5⟩, ⟨S400000x1, y6⟩, ⟨S400000x1, y7⟩] h (ix2 e k)
      = (Fin.append (Fin.append (fun k : Fin 128 => y0 (ix2 e k)) (fun k : Fin 128 => y1 (ix2 e k)))
          ![y2 (ix2 e (0 : Fin 1)), y3 (ix2 e (0 : Fin 1)), y4 (ix2 e (0 : Fin 1)), y5 (ix2 e (0 : Fin 1)),
            y6 (ix2 e (0 : Fin 1)), y7 (ix2 e (0 : Fin 1))] : Fin 262 → α) k) ?_ ?_ k
  · intro k'
    rw [Fin.append_left]
    refine Fin.addCases (m := 128) (n := 128) ?_ ?_ k'
    · intro k0
      rw [Fin.append_left]
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 0 (by show (0 : Nat) < 8; omega) S400000x128 y0 rfl rfl 0 rfl (ix2 e k0) ?_ ?_
      · intro b hb; rw [hoff b hb]; rfl
      · show 0 + k0.val = k0.val; omega
    · intro k1
      rw [Fin.append_right]
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 1 (by show (1 : Nat) < 8; omega) S400000x128 y1 rfl rfl 128 rfl (ix2 e k1) ?_ ?_
      · intro b hb; rw [hoff b hb]; rfl
      · show 128 + k1.val = 128 + k1.val; rfl
  · intro j
    rw [Fin.append_right]
    match j with
    | ⟨0, _⟩ =>
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 2 (by show (2 : Nat) < 8; omega) S400000x1 y2 rfl rfl 256 rfl (ix2 e (0 : Fin 1)) ?_ ?_
      · intro b hb; rw [hoff b hb]; rfl
      · rfl
    | ⟨1, _⟩ =>
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 3 (by show (3 : Nat) < 8; omega) S400000x1 y3 rfl rfl 257 rfl (ix2 e (0 : Fin 1)) ?_ ?_
      · intro b hb; rw [hoff b hb]; rfl
      · rfl
    | ⟨2, _⟩ =>
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 4 (by show (4 : Nat) < 8; omega) S400000x1 y4 rfl rfl 258 rfl (ix2 e (0 : Fin 1)) ?_ ?_
      · intro b hb; rw [hoff b hb]; rfl
      · rfl
    | ⟨3, _⟩ =>
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 5 (by show (5 : Nat) < 8; omega) S400000x1 y5 rfl rfl 259 rfl (ix2 e (0 : Fin 1)) ?_ ?_
      · intro b hb; rw [hoff b hb]; rfl
      · rfl
    | ⟨4, _⟩ =>
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 6 (by show (6 : Nat) < 8; omega) S400000x1 y6 rfl rfl 260 rfl (ix2 e (0 : Fin 1)) ?_ ?_
      · intro b hb; rw [hoff b hb]; rfl
      · rfl
    | ⟨5, _⟩ =>
      refine concatenate_apply_piece (t := S400000x262) (1 : Fin 2) [⟨S400000x128, y0⟩, ⟨S400000x128, y1⟩, ⟨S400000x1, y2⟩, ⟨S400000x1, y3⟩, ⟨S400000x1, y4⟩, ⟨S400000x1, y5⟩, ⟨S400000x1, y6⟩, ⟨S400000x1, y7⟩] h _ 7 (by show (7 : Nat) < 8; omega) S400000x1 y7 rfl rfl 261 rfl (ix2 e (0 : Fin 1)) ?_ ?_
      · intro b hb; rw [hoff b hb]; rfl
      · rfl

/-- The two-piece row concatenation `[u | v]` of two 128-wide blocks read at column `k`. -/
theorem concat2_apply {α : Type} (y0 y1 : S50000x128.Idx → α)
    (h : Shape.Concatenates [S50000x128, S50000x128] S50000x256 1) (n : Fin 50000) (k : Fin 256) :
    concatenate S50000x256 1 [⟨S50000x128, y0⟩, ⟨S50000x128, y1⟩] h (ix2 n k)
      = (Fin.append (fun j : Fin 128 => y0 (ix2 n j)) (fun j : Fin 128 => y1 (ix2 n j)) : Fin 256 → α) k := by
  refine Fin.addCases (m := 128) (n := 128)
    (motive := fun k => concatenate S50000x256 1 [⟨S50000x128, y0⟩, ⟨S50000x128, y1⟩] h (ix2 n k)
      = (Fin.append (fun j : Fin 128 => y0 (ix2 n j)) (fun j : Fin 128 => y1 (ix2 n j)) : Fin 256 → α) k) ?_ ?_ k
  · intro k0
    rw [Fin.append_left]
    refine concatenate_pair_apply_left (t := S50000x256) (1 : Fin 2) y0 y1 h _ rfl (ix2 n k0) ?_
    intro b
    match b with
    | ⟨0, _⟩ => rfl
    | ⟨1, _⟩ => rfl
  · intro k1
    rw [Fin.append_right]
    refine concatenate_pair_apply_right (t := S50000x256) (1 : Fin 2) y0 y1 h _ rfl rfl (ix2 n k1) ?_ ?_
    · intro b hb
      match b with
      | ⟨0, _⟩ => rfl
      | ⟨1, _⟩ => exact absurd rfl hb
    · show k1.val + 128 = 128 + k1.val; omega

variable (a0 : (⟨S50000x128, .f32⟩ : BufTy).Contents (Elt Ideal)) (a1 : (⟨S50000x3, .f32⟩ : BufTy).Contents (Elt Ideal))
  (a2 a3 : (⟨S400000, .i32⟩ : BufTy).Contents (Elt Ideal)) (a4 a5 a6 a7 a8 a9 : (⟨S400000, .f32⟩ : BufTy).Contents (Elt Ideal))
  (a10 : (⟨S262x128, .f32⟩ : BufTy).Contents (Elt Ideal)) (a11 : (⟨S128, .f32⟩ : BufTy).Contents (Elt Ideal))
  (a12 : (⟨S128x128, .f32⟩ : BufTy).Contents (Elt Ideal)) (a13 : (⟨S128, .f32⟩ : BufTy).Contents (Elt Ideal))
  (a14 : (⟨S256x128, .f32⟩ : BufTy).Contents (Elt Ideal)) (a15 : (⟨S128, .f32⟩ : BufTy).Contents (Elt Ideal))
  (a16 : (⟨S128x128, .f32⟩ : BufTy).Contents (Elt Ideal)) (a17 : (⟨S128, .f32⟩ : BufTy).Contents (Elt Ideal))
  (a18 : (⟨S128x128, .f32⟩ : BufTy).Contents (Elt Ideal)) (a19 : (⟨S128, .f32⟩ : BufTy).Contents (Elt Ideal))
  (a20 : (⟨S128x1, .f32⟩ : BufTy).Contents (Elt Ideal)) (a21 : (⟨S1, .f32⟩ : BufTy).Contents (Elt Ideal))

/-! ## The edge stages -/

theorem v30_at (e : Fin 400000) : Read.val_main_v30 (F := Ideal) a4 (ix2 e (0 : Fin 1)) = a4 (ix1 e) * a4 (ix1 e) := by
  rw [Read.val_main_v30_apply, Read.val_main_v29_apply]
  have h : Read.idx_main_v30 (ix2 e (0 : Fin 1)) = ix1 e := by idx1
  rw [h]; rfl

theorem v31_at (e : Fin 400000) : Read.val_main_v31 (F := Ideal) a5 (ix2 e (0 : Fin 1)) = a5 (ix1 e) := by
  rw [Read.val_main_v31_apply]
  exact congrArg a5 (show Read.idx_main_v31 (ix2 e (0 : Fin 1)) = ix1 e from by idx1)

theorem v32_at (e : Fin 400000) : Read.val_main_v32 (F := Ideal) a6 (ix2 e (0 : Fin 1)) = a6 (ix1 e) := by
  rw [Read.val_main_v32_apply]
  exact congrArg a6 (show Read.idx_main_v32 (ix2 e (0 : Fin 1)) = ix1 e from by idx1)

theorem v33_at (e : Fin 400000) : Read.val_main_v33 (F := Ideal) a7 (ix2 e (0 : Fin 1)) = a7 (ix1 e) := by
  rw [Read.val_main_v33_apply]
  exact congrArg a7 (show Read.idx_main_v33 (ix2 e (0 : Fin 1)) = ix1 e from by idx1)

theorem v34_at (e : Fin 400000) : Read.val_main_v34 (F := Ideal) a8 (ix2 e (0 : Fin 1)) = a8 (ix1 e) := by
  rw [Read.val_main_v34_apply]
  exact congrArg a8 (show Read.idx_main_v34 (ix2 e (0 : Fin 1)) = ix1 e from by idx1)

theorem v35_at (e : Fin 400000) : Read.val_main_v35 (F := Ideal) a9 (ix2 e (0 : Fin 1)) = a9 (ix1 e) := by
  rw [Read.val_main_v35_apply]
  exact congrArg a9 (show Read.idx_main_v35 (ix2 e (0 : Fin 1)) = ix1 e from by idx1)

/-- The concatenated feature row of edge `e` is the specification's feature row. -/
theorem v36_feat (e : Fin 400000) (k : Fin 262) :
    Read.val_main_v36 (F := Ideal) a0 a2 a3 a4 a5 a6 a7 a8 a9 (ix2 e k) = (Cert.Layer.feat (fun k : Fin 128 => Read.val_main_v6 (F := Ideal) a0 a2 (ix2 e k)) (fun k : Fin 128 => Read.val_main_v13 (F := Ideal) a0 a3 (ix2 e k)) ![a4 (ix1 e) * a4 (ix1 e), a5 (ix1 e), a6 (ix1 e), a7 (ix1 e), a8 (ix1 e), a9 (ix1 e)]) k := by
  unfold Read.val_main_v36
  refine (concat8_apply (Read.val_main_v6 (F := Ideal) a0 a2) (Read.val_main_v13 (F := Ideal) a0 a3) (Read.val_main_v30 (F := Ideal) a4) (Read.val_main_v31 (F := Ideal) a5) (Read.val_main_v32 (F := Ideal) a6) (Read.val_main_v33 (F := Ideal) a7) (Read.val_main_v34 (F := Ideal) a8) (Read.val_main_v35 (F := Ideal) a9) _ e k).trans ?_
  unfold Cert.Layer.feat
  rw [v30_at, v31_at, v32_at, v33_at, v34_at, v35_at]

theorem lin_v40 (e : Fin 400000) (c : Fin 128) :
    Read.val_main_v40 (F := Ideal) a0 a2 a3 a4 a5 a6 a7 a8 a9 a10 a11 (ix2 e c)
      = Cert.Layer.dense (fun k : Fin 262 => Read.val_main_v36 (F := Ideal) a0 a2 a3 a4 a5 a6 a7 a8 a9 (ix2 e k)) (fun k : Fin 262 => a10 (ix2 k c)) (a11 (ix1 c)) := by
  rw [Read.val_main_v40_apply, Read.val_main_v37_apply, Read.val_main_v39_apply, Read.val_main_v38_apply]
  unfold Cert.Layer.dense
  refine congrArg₂ (fun x y : EReal => x + y) (Finset.sum_congr rfl fun k _ => ?_) ?_
  · exact congrArg₂ (fun x y : EReal => x * y)
      (congrArg (Read.val_main_v36 (F := Ideal) a0 a2 a3 a4 a5 a6 a7 a8 a9) (show Read.lidx_main_v37 (ix2 e c) k = ix2 e k from by idx2))
      (congrArg a10 (show Read.ridx_main_v37 (ix2 e c) k = ix2 k c from by idx2))
  · exact congrArg a11 (show Read.idx_main_v38 (Read.idx_main_v39 (ix2 e c)) = ix1 c from by idx1)

theorem silu_v41 (e : Fin 400000) (c : Fin 128) :
    Read.val_main_v41 (F := Ideal) a0 a2 a3 a4 a5 a6 a7 a8 a9 a10 a11 (ix2 e c) = Cert.Layer.silu (Read.val_main_v40 (F := Ideal) a0 a2 a3 a4 a5 a6 a7 a8 a9 a10 a11 (ix2 e c)) := by
  rw [Read.val_main_v41_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply]
  exact silu_chain _

/-- The first dense layer and its activation: the message MLP's hidden row. -/
theorem v41_hidden (e : Fin 400000) (c : Fin 128) :
    Read.val_main_v41 (F := Ideal) a0 a2 a3 a4 a5 a6 a7 a8 a9 a10 a11 (ix2 e c) = Cert.Layer.hidden (fun (k : Fin 262) (c : Fin 128) => a10 (ix2 k c)) (fun c : Fin 128 => a11 (ix1 c)) (Cert.Layer.feat (fun k : Fin 128 => Read.val_main_v6 (F := Ideal) a0 a2 (ix2 e k)) (fun k : Fin 128 => Read.val_main_v13 (F := Ideal) a0 a3 (ix2 e k)) ![a4 (ix1 e) * a4 (ix1 e), a5 (ix1 e), a6 (ix1 e), a7 (ix1 e), a8 (ix1 e), a9 (ix1 e)]) c :=
  (silu_v41 a0 a2 a3 a4 a5 a6 a7 a8 a9 a10 a11 e c).trans (congrArg Cert.Layer.silu
    ((lin_v40 a0 a2 a3 a4 a5 a6 a7 a8 a9 a10 a11 e c).trans
      (congrArg (fun f : Fin 262 → EReal => Cert.Layer.dense f (fun k : Fin 262 => a10 (ix2 k c)) (a11 (ix1 c)))
        (funext (v36_feat a0 a2 a3 a4 a5 a6 a7 a8 a9 e)))))

theorem lin_v45 (e : Fin 400000) (c : Fin 128) :
    Read.val_main_v45 (F := Ideal) a0 a2 a3 a4 a5 a6 a7 a8 a9 a10 a11 a12 a13 (ix2 e c)
      = Cert.Layer.dense (fun k : Fin 128 => Read.val_main_v41 (F := Ideal) a0 a2 a3 a4 a5 a6 a7 a8 a9 a10 a11 (ix2 e k)) (fun k : Fin 128 => a12 (ix2 k c)) (a13 (ix1 c)) := by
  rw [Read.val_main_v45_apply, Read.val_main_v42_apply, Read.val_main_v44_apply, Read.val_main_v43_apply]
  unfold Cert.Layer.dense
  refine congrArg₂ (fun x y : EReal => x + y) (Finset.sum_congr rfl fun k _ => ?_) ?_
  · exact congrArg₂ (fun x y : EReal => x * y)
      (congrArg (Read.val_main_v41 (F := Ideal) a0 a2 a3 a4 a5 a6 a7 a8 a9 a10 a11) (show Read.lidx_main_v42 (ix2 e c) k = ix2 e k from by idx2))
      (congrArg a12 (show Read.ridx_main_v42 (ix2 e c) k = ix2 k c from by idx2))
  · exact congrArg a13 (show Read.idx_main_v43 (Read.idx_main_v44 (ix2 e c)) = ix1 c from by idx1)

theorem silu_v46 (e : Fin 400000) (c : Fin 128) :
    Read.val_main_v46 (F := Ideal) a0 a2 a3 a4 a5 a6 a7 a8 a9 a10 a11 a12 a13 (ix2 e c) = Cert.Layer.silu (Read.val_main_v45 (F := Ideal) a0 a2 a3 a4 a5 a6 a7 a8 a9 a10 a11 a12 a13 (ix2 e c)) := by
  rw [Read.val_main_v46_apply, Read.val_main_call1_v5_apply, Read.val_main_call1_v4_apply, Read.val_main_call1_cst_0_apply,
    Read.val_main_call1_v3_apply, Read.val_main_call1_v2_apply, Read.val_main_call1_cst_apply, Read.val_main_call1_v1_apply,
    Read.val_main_call1_v0_apply]
  exact silu_chain _

/-- The message row of edge `e`. -/
theorem v46_msg (e : Fin 400000) (c : Fin 128) :
    Read.val_main_v46 (F := Ideal) a0 a2 a3 a4 a5 a6 a7 a8 a9 a10 a11 a12 a13 (ix2 e c) = Cert.Layer.edgeMsg (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (k : Fin 262) (c : Fin 128) => a10 (ix2 k c)) (fun c : Fin 128 => a11 (ix1 c)) (fun (k : Fin 128) (c : Fin 128) => a12 (ix2 k c)) (fun c : Fin 128 => a13 (ix1 c)) e c :=
  (silu_v46 a0 a2 a3 a4 a5 a6 a7 a8 a9 a10 a11 a12 a13 e c).trans (congrArg Cert.Layer.silu
    ((lin_v45 a0 a2 a3 a4 a5 a6 a7 a8 a9 a10 a11 a12 a13 e c).trans
      (congrArg (fun f : Fin 128 → EReal => Cert.Layer.dense f (fun k : Fin 128 => a12 (ix2 k c)) (a13 (ix1 c)))
        (funext (v41_hidden a0 a2 a3 a4 a5 a6 a7 a8 a9 a10 a11 e)))))

theorem lin_v73 (e : Fin 400000) (c : Fin 128) :
    Read.val_main_v73 (F := Ideal) a0 a2 a3 a4 a5 a6 a7 a8 a9 a10 a11 a12 a13 a18 a19 (ix2 e c)
      = Cert.Layer.dense (fun k : Fin 128 => Read.val_main_v46 (F := Ideal) a0 a2 a3 a4 a5 a6 a7 a8 a9 a10 a11 a12 a13 (ix2 e k)) (fun k : Fin 128 => a18 (ix2 k c)) (a19 (ix1 c)) := by
  rw [Read.val_main_v73_apply, Read.val_main_v70_apply, Read.val_main_v72_apply, Read.val_main_v71_apply]
  unfold Cert.Layer.dense
  refine congrArg₂ (fun x y : EReal => x + y) (Finset.sum_congr rfl fun k _ => ?_) ?_
  · exact congrArg₂ (fun x y : EReal => x * y)
      (congrArg (Read.val_main_v46 (F := Ideal) a0 a2 a3 a4 a5 a6 a7 a8 a9 a10 a11 a12 a13) (show Read.lidx_main_v70 (ix2 e c) k = ix2 e k from by idx2))
      (congrArg a18 (show Read.ridx_main_v70 (ix2 e c) k = ix2 k c from by idx2))
  · exact congrArg a19 (show Read.idx_main_v71 (Read.idx_main_v72 (ix2 e c)) = ix1 c from by idx1)

theorem silu_v74 (e : Fin 400000) (c : Fin 128) :
    Read.val_main_v74 (F := Ideal) a0 a2 a3 a4 a5 a6 a7 a8 a9 a10 a11 a12 a13 a18 a19 (ix2 e c) = Cert.Layer.silu (Read.val_main_v73 (F := Ideal) a0 a2 a3 a4 a5 a6 a7 a8 a9 a10 a11 a12 a13 a18 a19 (ix2 e c)) := by
  rw [Read.val_main_v74_apply, Read.val_main_call3_v5_apply, Read.val_main_call3_v4_apply, Read.val_main_call3_cst_0_apply,
    Read.val_main_call3_v3_apply, Read.val_main_call3_v2_apply, Read.val_main_call3_cst_apply, Read.val_main_call3_v1_apply,
    Read.val_main_call3_v0_apply]
  exact silu_chain _

/-- The coefficient MLP's hidden row. -/
theorem v74_chidden (e : Fin 400000) (c : Fin 128) :
    Read.val_main_v74 (F := Ideal) a0 a2 a3 a4 a5 a6 a7 a8 a9 a10 a11 a12 a13 a18 a19 (ix2 e c) = Cert.Layer.chidden (fun (k : Fin 128) (c : Fin 128) => a18 (ix2 k c)) (fun c : Fin 128 => a19 (ix1 c)) (Cert.Layer.edgeMsg (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (k : Fin 262) (c : Fin 128) => a10 (ix2 k c)) (fun c : Fin 128 => a11 (ix1 c)) (fun (k : Fin 128) (c : Fin 128) => a12 (ix2 k c)) (fun c : Fin 128 => a13 (ix1 c)) e) c :=
  (silu_v74 a0 a2 a3 a4 a5 a6 a7 a8 a9 a10 a11 a12 a13 a18 a19 e c).trans (congrArg Cert.Layer.silu
    ((lin_v73 a0 a2 a3 a4 a5 a6 a7 a8 a9 a10 a11 a12 a13 a18 a19 e c).trans
      (congrArg (fun f : Fin 128 → EReal => Cert.Layer.dense f (fun k : Fin 128 => a18 (ix2 k c)) (a19 (ix1 c)))
        (funext (v46_msg a0 a2 a3 a4 a5 a6 a7 a8 a9 a10 a11 a12 a13 e)))))

theorem lin_v78 (e : Fin 400000)  :
    Read.val_main_v78 (F := Ideal) a0 a2 a3 a4 a5 a6 a7 a8 a9 a10 a11 a12 a13 a18 a19 a20 a21 (ix2 e (0 : Fin 1))
      = Cert.Layer.dense (fun k : Fin 128 => Read.val_main_v74 (F := Ideal) a0 a2 a3 a4 a5 a6 a7 a8 a9 a10 a11 a12 a13 a18 a19 (ix2 e k)) (fun k : Fin 128 => a20 (ix2 k (0 : Fin 1))) (a21 (ix1 (0 : Fin 1))) := by
  rw [Read.val_main_v78_apply, Read.val_main_v75_apply, Read.val_main_v77_apply, Read.val_main_v76_apply]
  unfold Cert.Layer.dense
  refine congrArg₂ (fun x y : EReal => x + y) (Finset.sum_congr rfl fun k _ => ?_) ?_
  · exact congrArg₂ (fun x y : EReal => x * y)
      (congrArg (Read.val_main_v74 (F := Ideal) a0 a2 a3 a4 a5 a6 a7 a8 a9 a10 a11 a12 a13 a18 a19) (show Read.lidx_main_v75 (ix2 e (0 : Fin 1)) k = ix2 e k from by idx2))
      (congrArg a20 (show Read.ridx_main_v75 (ix2 e (0 : Fin 1)) k = ix2 k (0 : Fin 1) from by idx2))
  · exact congrArg a21 (show Read.idx_main_v76 (Read.idx_main_v77 (ix2 e (0 : Fin 1))) = ix1 (0 : Fin 1) from by idx1)

/-- The coordinate coefficient of edge `e`. -/
theorem v79_coef (e : Fin 400000) :
    Read.val_main_v79 (F := Ideal) a0 a2 a3 a4 a5 a6 a7 a8 a9 a10 a11 a12 a13 a18 a19 a20 a21 (ix2 e (0 : Fin 1))
      = Cert.Layer.coefOf (fun (k : Fin 128) (c : Fin 128) => a18 (ix2 k c)) (fun c : Fin 128 => a19 (ix1 c)) (fun k : Fin 128 => a20 (ix2 k (0 : Fin 1))) (a21 (ix1 (0 : Fin 1))) (Cert.Layer.edgeMsg (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (k : Fin 262) (c : Fin 128) => a10 (ix2 k c)) (fun c : Fin 128 => a11 (ix1 c)) (fun (k : Fin 128) (c : Fin 128) => a12 (ix2 k c)) (fun c : Fin 128 => a13 (ix1 c)) e) :=
  (Read.val_main_v79_apply a0 a2 a3 a4 a5 a6 a7 a8 a9 a10 a11 a12 a13 a18 a19 a20 a21 (ix2 e (0 : Fin 1))).trans
    (congrArg Ideal.tanh
      ((lin_v78 a0 a2 a3 a4 a5 a6 a7 a8 a9 a10 a11 a12 a13 a18 a19 a20 a21 e).trans
        (congrArg (fun f : Fin 128 → EReal => Cert.Layer.dense f (fun k : Fin 128 => a20 (ix2 k (0 : Fin 1))) (a21 (ix1 (0 : Fin 1))))
          (funext (v74_chidden a0 a2 a3 a4 a5 a6 a7 a8 a9 a10 a11 a12 a13 a18 a19 e)))))

/-- The scaled coordinate difference of edge `e`. -/
theorem v81_delta (e : Fin 400000) (a : Fin 3) :
    Read.val_main_v81 (F := Ideal) a0 a1 a2 a3 a4 a5 a6 a7 a8 a9 a10 a11 a12 a13 a18 a19 a20 a21 (ix2 e a)
      = Cert.Layer.edgeDelta (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (e : Fin 400000) (a : Fin 3) => Read.val_main_v28 (F := Ideal) a1 a2 a3 (ix2 e a)) (fun (k : Fin 262) (c : Fin 128) => a10 (ix2 k c)) (fun c : Fin 128 => a11 (ix1 c)) (fun (k : Fin 128) (c : Fin 128) => a12 (ix2 k c)) (fun c : Fin 128 => a13 (ix1 c)) (fun (k : Fin 128) (c : Fin 128) => a18 (ix2 k c)) (fun c : Fin 128 => a19 (ix1 c)) (fun k : Fin 128 => a20 (ix2 k (0 : Fin 1))) (a21 (ix1 (0 : Fin 1))) e a := by
  rw [Read.val_main_v81_apply, Read.val_main_v80_apply]
  have h : Read.idx_main_v80 (ix2 e a) = ix2 e (0 : Fin 1) := by idx2
  rw [h, v79_coef]
  rfl

/-! ## The node stages -/

theorem v49_at (e : Fin 400000) : Read.val_main_v49 (F := Ideal) a2 (ix2 e (0 : Fin 1)) = a2 (ix1 e) := by
  rw [Read.val_main_v49_apply]
  exact congrArg a2 (show Read.idx_main_v49 (ix2 e (0 : Fin 1)) = ix1 e from by idx1)

theorem v55_at (e : Fin 400000) : Read.val_main_v55 (F := Ideal) a2 (ix2 e (0 : Fin 1)) = a2 (ix1 e) := by
  rw [Read.val_main_v55_apply]
  exact congrArg a2 (show Read.idx_main_v55 (ix2 e (0 : Fin 1)) = ix1 e from by idx1)

theorem v83_at (e : Fin 400000) : Read.val_main_v83 (F := Ideal) a2 (ix2 e (0 : Fin 1)) = a2 (ix1 e) := by
  rw [Read.val_main_v83_apply]
  exact congrArg a2 (show Read.idx_main_v83 (ix2 e (0 : Fin 1)) = ix1 e from by idx1)

/-- The number of edges whose source is node `n`, summed into a zero. -/
theorem v50_count (n : Fin 50000) :
    Read.val_main_v50 (F := Ideal) a2 (ix1 n) = 0 + Cert.Layer.segsum (fun e : Fin 400000 => a2 (ix1 e)) (fun _ => (1 : EReal)) n := by
  unfold Read.val_main_v50
  refine (Cert.LibScatterSum.scatterAdd_vec_apply (N := 50000) (E := 400000) scatter_S50000_S400000x1_S400000_n_0_0_1 rfl rfl rfl rfl
    (Read.val_main_v48 (F := Ideal)) (Read.val_main_v49 (F := Ideal) a2) (Read.val_main_v47 (F := Ideal)) n).trans ?_
  unfold Cert.Layer.segsum
  refine congrArg₂ (fun x y : EReal => x + y) ?_ (Finset.sum_congr (Finset.filter_congr fun e _ => ?_) fun e _ => ?_)
  · rw [Read.val_main_v48_apply, Read.val_main_cst_7_apply]; exact Ideal.ofBits_zero_f32
  · rw [v49_at]
  · rw [Read.val_main_v47_apply, Read.val_main_cst_apply]; exact Cert.Layer.ofBits_one_f32

/-- The mean's denominator at node `n`. -/
theorem v53_denom (n : Fin 50000) :
    Read.val_main_v53 (F := Ideal) a2 (ix2 n (0 : Fin 1)) = Cert.Layer.denom (fun e : Fin 400000 => a2 (ix1 e)) n := by
  rw [Read.val_main_v53_apply, Read.val_main_v51_apply, Read.val_main_v52_apply, Read.val_main_cst_8_apply]
  have h : Read.idx_main_v51 (ix2 n (0 : Fin 1)) = ix1 n := by idx1
  rw [h, v50_count]
  unfold Cert.Layer.denom
  exact congrArg (fun y : EReal => max (0 + Cert.Layer.segsum (fun e : Fin 400000 => a2 (ix1 e)) (fun _ => (1 : EReal)) n) y) Cert.Layer.ofBits_one_f32

/-- The sum of the message rows of the edges whose source is node `n`. -/
theorem v56_sum (n : Fin 50000) (c : Fin 128) :
    Read.val_main_v56 (F := Ideal) a0 a2 a3 a4 a5 a6 a7 a8 a9 a10 a11 a12 a13 (ix2 n c) = 0 + Cert.Layer.segsum (fun e : Fin 400000 => a2 (ix1 e)) (fun e => Cert.Layer.edgeMsg (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (k : Fin 262) (c : Fin 128) => a10 (ix2 k c)) (fun c : Fin 128 => a11 (ix1 c)) (fun (k : Fin 128) (c : Fin 128) => a12 (ix2 k c)) (fun c : Fin 128 => a13 (ix1 c)) e c) n := by
  unfold Read.val_main_v56
  refine (Cert.LibScatterSum.scatterAdd_rows_apply (N := 50000) (E := 400000) (C := 128) scatter_S50000x128_S400000x1_S400000x128_1_0_0_1 rfl rfl rfl rfl
    (Read.val_main_v54 (F := Ideal)) (Read.val_main_v55 (F := Ideal) a2) (Read.val_main_v46 (F := Ideal) a0 a2 a3 a4 a5 a6 a7 a8 a9 a10 a11 a12 a13) n c).trans ?_
  unfold Cert.Layer.segsum
  refine congrArg₂ (fun x y : EReal => x + y) ?_ (Finset.sum_congr (Finset.filter_congr fun e _ => ?_) fun e _ => ?_)
  · rw [Read.val_main_v54_apply, Read.val_main_cst_9_apply]; exact Ideal.ofBits_zero_f32
  · rw [v55_at]
  · exact v46_msg a0 a2 a3 a4 a5 a6 a7 a8 a9 a10 a11 a12 a13 e c

/-- The mean message row at node `n`. -/
theorem v58_mean (n : Fin 50000) (c : Fin 128) :
    Read.val_main_v58 (F := Ideal) a0 a2 a3 a4 a5 a6 a7 a8 a9 a10 a11 a12 a13 (ix2 n c) = Cert.Layer.segmean (fun e : Fin 400000 => a2 (ix1 e)) (fun e => Cert.Layer.edgeMsg (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (k : Fin 262) (c : Fin 128) => a10 (ix2 k c)) (fun c : Fin 128 => a11 (ix1 c)) (fun (k : Fin 128) (c : Fin 128) => a12 (ix2 k c)) (fun c : Fin 128 => a13 (ix1 c)) e c) n := by
  rw [Read.val_main_v58_apply, Read.val_main_v57_apply]
  have h : Read.idx_main_v57 (ix2 n c) = ix2 n (0 : Fin 1) := by idx2
  rw [h, v56_sum, v53_denom]
  rfl

/-- The sum of the scaled coordinate differences of the edges whose source is node `n`. -/
theorem v84_sum (n : Fin 50000) (a : Fin 3) :
    Read.val_main_v84 (F := Ideal) a0 a1 a2 a3 a4 a5 a6 a7 a8 a9 a10 a11 a12 a13 a18 a19 a20 a21 (ix2 n a)
      = 0 + Cert.Layer.segsum (fun e : Fin 400000 => a2 (ix1 e)) (fun e => Cert.Layer.edgeDelta (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (e : Fin 400000) (a : Fin 3) => Read.val_main_v28 (F := Ideal) a1 a2 a3 (ix2 e a)) (fun (k : Fin 262) (c : Fin 128) => a10 (ix2 k c)) (fun c : Fin 128 => a11 (ix1 c)) (fun (k : Fin 128) (c : Fin 128) => a12 (ix2 k c)) (fun c : Fin 128 => a13 (ix1 c)) (fun (k : Fin 128) (c : Fin 128) => a18 (ix2 k c)) (fun c : Fin 128 => a19 (ix1 c)) (fun k : Fin 128 => a20 (ix2 k (0 : Fin 1))) (a21 (ix1 (0 : Fin 1))) e a) n := by
  unfold Read.val_main_v84
  refine (Cert.LibScatterSum.scatterAdd_rows_apply (N := 50000) (E := 400000) (C := 3) scatter_S50000x3_S400000x1_S400000x3_1_0_0_1 rfl rfl rfl rfl
    (Read.val_main_v82 (F := Ideal)) (Read.val_main_v83 (F := Ideal) a2) (Read.val_main_v81 (F := Ideal) a0 a1 a2 a3 a4 a5 a6 a7 a8 a9 a10 a11 a12 a13 a18 a19 a20 a21) n a).trans ?_
  unfold Cert.Layer.segsum
  refine congrArg₂ (fun x y : EReal => x + y) ?_ (Finset.sum_congr (Finset.filter_congr fun e _ => ?_) fun e _ => ?_)
  · rw [Read.val_main_v82_apply, Read.val_main_cst_10_apply]; exact Ideal.ofBits_zero_f32
  · rw [v83_at]
  · exact v81_delta a0 a1 a2 a3 a4 a5 a6 a7 a8 a9 a10 a11 a12 a13 a18 a19 a20 a21 e a

/-! ## The node update and the two results -/

/-- Node `n`'s input row to the node MLP: its features, then its mean message. -/
theorem v59_cat (n : Fin 50000) (k : Fin 256) :
    Read.val_main_v59 (F := Ideal) a0 a2 a3 a4 a5 a6 a7 a8 a9 a10 a11 a12 a13 (ix2 n k)
      = (Fin.append (fun j : Fin 128 => a0 (ix2 n j)) (fun j : Fin 128 => Cert.Layer.segmean (fun e : Fin 400000 => a2 (ix1 e)) (fun e => Cert.Layer.edgeMsg (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (k : Fin 262) (c : Fin 128) => a10 (ix2 k c)) (fun c : Fin 128 => a11 (ix1 c)) (fun (k : Fin 128) (c : Fin 128) => a12 (ix2 k c)) (fun c : Fin 128 => a13 (ix1 c)) e j) n) : Fin 256 → EReal) k := by
  unfold Read.val_main_v59
  refine (concat2_apply a0 (Read.val_main_v58 (F := Ideal) a0 a2 a3 a4 a5 a6 a7 a8 a9 a10 a11 a12 a13) _ n k).trans ?_
  exact congrFun (congrArg (fun f : Fin 128 → EReal => (Fin.append (fun j : Fin 128 => a0 (ix2 n j)) f : Fin 256 → EReal))
    (funext fun j => v58_mean a0 a2 a3 a4 a5 a6 a7 a8 a9 a10 a11 a12 a13 n j)) k

theorem lin_v63 (n : Fin 50000) (c : Fin 128) :
    Read.val_main_v63 (F := Ideal) a0 a2 a3 a4 a5 a6 a7 a8 a9 a10 a11 a12 a13 a14 a15 (ix2 n c)
      = Cert.Layer.dense (fun k : Fin 256 => Read.val_main_v59 (F := Ideal) a0 a2 a3 a4 a5 a6 a7 a8 a9 a10 a11 a12 a13 (ix2 n k)) (fun k : Fin 256 => a14 (ix2 k c)) (a15 (ix1 c)) := by
  rw [Read.val_main_v63_apply, Read.val_main_v60_apply, Read.val_main_v62_apply, Read.val_main_v61_apply]
  unfold Cert.Layer.dense
  refine congrArg₂ (fun x y : EReal => x + y) (Finset.sum_congr rfl fun k _ => ?_) ?_
  · exact congrArg₂ (fun x y : EReal => x * y)
      (congrArg (Read.val_main_v59 (F := Ideal) a0 a2 a3 a4 a5 a6 a7 a8 a9 a10 a11 a12 a13) (show Read.lidx_main_v60 (ix2 n c) k = ix2 n k from by idx2))
      (congrArg a14 (show Read.ridx_main_v60 (ix2 n c) k = ix2 k c from by idx2))
  · exact congrArg a15 (show Read.idx_main_v61 (Read.idx_main_v62 (ix2 n c)) = ix1 c from by idx1)

theorem silu_v64 (n : Fin 50000) (c : Fin 128) :
    Read.val_main_v64 (F := Ideal) a0 a2 a3 a4 a5 a6 a7 a8 a9 a10 a11 a12 a13 a14 a15 (ix2 n c) = Cert.Layer.silu (Read.val_main_v63 (F := Ideal) a0 a2 a3 a4 a5 a6 a7 a8 a9 a10 a11 a12 a13 a14 a15 (ix2 n c)) := by
  rw [Read.val_main_v64_apply, Read.val_main_call2_v5_apply, Read.val_main_call2_v4_apply, Read.val_main_call2_cst_0_apply,
    Read.val_main_call2_v3_apply, Read.val_main_call2_v2_apply, Read.val_main_call2_cst_apply, Read.val_main_call2_v1_apply,
    Read.val_main_call2_v0_apply]
  exact silu_chain _

/-- The node MLP's hidden row. -/
theorem v64_nhidden (n : Fin 50000) (c : Fin 128) :
    Read.val_main_v64 (F := Ideal) a0 a2 a3 a4 a5 a6 a7 a8 a9 a10 a11 a12 a13 a14 a15 (ix2 n c) = Cert.Layer.nhidden (fun (k : Fin 256) (c : Fin 128) => a14 (ix2 k c)) (fun c : Fin 128 => a15 (ix1 c)) (fun j : Fin 128 => a0 (ix2 n j)) (fun j : Fin 128 => Cert.Layer.segmean (fun e : Fin 400000 => a2 (ix1 e)) (fun e => Cert.Layer.edgeMsg (fun (e : Fin 400000) (k : Fin 128) => Read.val_main_v6 (F := Ideal) a0 a2 (ix2 e k)) (fun (e : Fin 400000) (k : Fin 128) => Read.val_main_v13 (F := Ideal) a0 a3 (ix2 e k)) (fun e : Fin 400000 => ![a4 (ix1 e) * a4 (ix1 e), a5 (ix1 e), a6 (ix1 e), a7 (ix1 e), a8 (ix1 e), a9 (ix1 e)]) (fun (k : Fin 262) (c : Fin 128) => a10 (ix2 k c)) (fun c : Fin 128 => a11 (ix1 c)) (fun (k : Fin 128) (c : Fin 128) => a12 (ix2 k c)) (fun c : Fin 128 => a13 (ix1 c)) e j) n) c :=
  (silu_v64 a0 a2 a3 a4 a5 a6 a7 a8 a9 a10 a11 a12 a13 a14 a15 n c).trans (congrArg Cert.Layer.silu
    ((lin_v63 a0 a2 a3 a4 a5 a6 a7 a8 a9 a10 a11 a12 a13 a14 a15 n c).trans
      (congrArg (fun f : Fin 256 → EReal => Cert.Layer.dense f (fun k : Fin 256 => a14 (ix2 k c)) (a15 (ix1 c)))
        (funext (v59_cat a0 a2 a3 a4 a5 a6 a7 a8 a9 a10 a11 a12 a13 n)))))

theorem lin_v68 (n : Fin 50000) (c : Fin 128) :
    Read.val_main_v68 (F := Ideal) a0 a2 a3 a4 a5 a6 a7 a8 a9 a10 a11 a12 a13 a14 a15 a16 a17 (ix2 n c)
      = Cert.Layer.dense (fun k : Fin 128 => Read.val_main_v64 (F := Ideal) a0 a2 a3 a4 a5 a6 a7 a8 a9 a10 a11 a12 a13 a14 a15 (ix2 n k)) (fun k : Fin 128 => a16 (ix2 k c)) (a17 (ix1 c)) := by
  rw [Read.val_main_v68_apply, Read.val_main_v65_apply, Read.val_main_v67_apply, Read.val_main_v66_apply]
  unfold Cert.Layer.dense
  refine congrArg₂ (fun x y : EReal => x + y) (Finset.sum_congr rfl fun k _ => ?_) ?_
  · exact congrArg₂ (fun x y : EReal => x * y)
      (congrArg (Read.val_main_v64 (F := Ideal) a0 a2 a3 a4 a5 a6 a7 a8 a9 a10 a11 a12 a13 a14 a15) (show Read.lidx_main_v65 (ix2 n c) k = ix2 n k from by idx2))
      (congrArg a16 (show Read.ridx_main_v65 (ix2 n c) k = ix2 k c from by idx2))
  · exact congrArg a17 (show Read.idx_main_v66 (Read.idx_main_v67 (ix2 n c)) = ix1 c from by idx1)

/-- **The first result**: node `n`'s new features are the layer's `hOut`. -/
theorem out0_apply (n : Fin 50000) (c : Fin 128) :
    Read.val_main_v69 (F := Ideal) a0 a2 a3 a4 a5 a6 a7 a8 a9 a10 a11 a12 a13 a14 a15 a16 a17 (ix2 n c)
      = Cert.Layer.hOut (src := (fun e : Fin 400000 => a2 (ix1 e))) (HS := (fun (e : Fin 400000) (k : Fin 128) => Read.val_main_v6 (F := Ideal) a0 a2 (ix2 e k))) (HD := (fun (e : Fin 400000) (k : Fin 128) => Read.val_main_v13 (F := Ideal) a0 a3 (ix2 e k))) (X6 := (fun e : Fin 400000 => ![a4 (ix1 e) * a4 (ix1 e), a5 (ix1 e), a6 (ix1 e), a7 (ix1 e), a8 (ix1 e), a9 (ix1 e)]))
          (W1 := (fun (k : Fin 262) (c : Fin 128) => a10 (ix2 k c))) (b1 := (fun c : Fin 128 => a11 (ix1 c))) (W2 := (fun (k : Fin 128) (c : Fin 128) => a12 (ix2 k c))) (b2 := (fun c : Fin 128 => a13 (ix1 c)))
          (hW1 := (fun (k : Fin 256) (c : Fin 128) => a14 (ix2 k c))) (hb1 := (fun c : Fin 128 => a15 (ix1 c))) (hW2 := (fun (k : Fin 128) (c : Fin 128) => a16 (ix2 k c))) (hb2 := (fun c : Fin 128 => a17 (ix1 c)))
          (fun (n : Fin 50000) (c : Fin 128) => a0 (ix2 n c)) n c :=
  (Read.val_main_v69_apply a0 a2 a3 a4 a5 a6 a7 a8 a9 a10 a11 a12 a13 a14 a15 a16 a17 (ix2 n c)).trans
    (congrArg (fun y : EReal => a0 (ix2 n c) + y)
      ((lin_v68 a0 a2 a3 a4 a5 a6 a7 a8 a9 a10 a11 a12 a13 a14 a15 a16 a17 n c).trans
        (congrArg (fun f : Fin 128 → EReal => Cert.Layer.dense f (fun k : Fin 128 => a16 (ix2 k c)) (a17 (ix1 c)))
          (funext (v64_nhidden a0 a2 a3 a4 a5 a6 a7 a8 a9 a10 a11 a12 a13 a14 a15 n)))))

/-- **The second result**: node `n`'s new coordinates are the layer's `xOut`. -/
theorem out1_apply (n : Fin 50000) (a : Fin 3) :
    Read.val_main_v87 (F := Ideal) a0 a1 a2 a3 a4 a5 a6 a7 a8 a9 a10 a11 a12 a13 a18 a19 a20 a21 (ix2 n a)
      = Cert.Layer.xOut (src := (fun e : Fin 400000 => a2 (ix1 e))) (HS := (fun (e : Fin 400000) (k : Fin 128) => Read.val_main_v6 (F := Ideal) a0 a2 (ix2 e k))) (HD := (fun (e : Fin 400000) (k : Fin 128) => Read.val_main_v13 (F := Ideal) a0 a3 (ix2 e k))) (X6 := (fun e : Fin 400000 => ![a4 (ix1 e) * a4 (ix1 e), a5 (ix1 e), a6 (ix1 e), a7 (ix1 e), a8 (ix1 e), a9 (ix1 e)]))
          (DF := (fun (e : Fin 400000) (a : Fin 3) => Read.val_main_v28 (F := Ideal) a1 a2 a3 (ix2 e a)))
          (W1 := (fun (k : Fin 262) (c : Fin 128) => a10 (ix2 k c))) (b1 := (fun c : Fin 128 => a11 (ix1 c))) (W2 := (fun (k : Fin 128) (c : Fin 128) => a12 (ix2 k c))) (b2 := (fun c : Fin 128 => a13 (ix1 c)))
          (cW1 := (fun (k : Fin 128) (c : Fin 128) => a18 (ix2 k c))) (cb1 := (fun c : Fin 128 => a19 (ix1 c))) (cW2 := (fun k : Fin 128 => a20 (ix2 k (0 : Fin 1)))) (cb2 := (a21 (ix1 (0 : Fin 1))))
          (fun (n : Fin 50000) (a : Fin 3) => a1 (ix2 n a)) n a := by
  rw [Read.val_main_v87_apply, Read.val_main_v86_apply, Read.val_main_v85_apply]
  have h : Read.idx_main_v85 (ix2 n a) = ix2 n (0 : Fin 1) := by idx2
  rw [h, v84_sum, v53_denom]
  rfl

/-! ## The run's result terms -/

/-- The first result's specification as a function of the argument arrays. -/
abbrev out0Spec (a0 : (⟨S50000x128, .f32⟩ : BufTy).Contents (Elt Ideal)) (a2 : (⟨S400000, .i32⟩ : BufTy).Contents (Elt Ideal)) (a3 : (⟨S400000, .i32⟩ : BufTy).Contents (Elt Ideal)) (a4 : (⟨S400000, .f32⟩ : BufTy).Contents (Elt Ideal)) (a5 : (⟨S400000, .f32⟩ : BufTy).Contents (Elt Ideal)) (a6 : (⟨S400000, .f32⟩ : BufTy).Contents (Elt Ideal)) (a7 : (⟨S400000, .f32⟩ : BufTy).Contents (Elt Ideal)) (a8 : (⟨S400000, .f32⟩ : BufTy).Contents (Elt Ideal)) (a9 : (⟨S400000, .f32⟩ : BufTy).Contents (Elt Ideal)) (a10 : (⟨S262x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S256x128, .f32⟩ : BufTy).Contents (Elt Ideal)) (a15 : (⟨S128, .f32⟩ : BufTy).Contents (Elt Ideal)) (a16 : (⟨S128x128, .f32⟩ : BufTy).Contents (Elt Ideal)) (a17 : (⟨S128, .f32⟩ : BufTy).Contents (Elt Ideal))
    (n : Fin 50000) (c : Fin 128) : EReal :=
  Cert.Layer.hOut (src := (fun e : Fin 400000 => a2 (ix1 e))) (HS := (fun (e : Fin 400000) (k : Fin 128) => Read.val_main_v6 (F := Ideal) a0 a2 (ix2 e k))) (HD := (fun (e : Fin 400000) (k : Fin 128) => Read.val_main_v13 (F := Ideal) a0 a3 (ix2 e k))) (X6 := (fun e : Fin 400000 => ![a4 (ix1 e) * a4 (ix1 e), a5 (ix1 e), a6 (ix1 e), a7 (ix1 e), a8 (ix1 e), a9 (ix1 e)]))
    (W1 := (fun (k : Fin 262) (c : Fin 128) => a10 (ix2 k c))) (b1 := (fun c : Fin 128 => a11 (ix1 c))) (W2 := (fun (k : Fin 128) (c : Fin 128) => a12 (ix2 k c))) (b2 := (fun c : Fin 128 => a13 (ix1 c)))
    (hW1 := (fun (k : Fin 256) (c : Fin 128) => a14 (ix2 k c))) (hb1 := (fun c : Fin 128 => a15 (ix1 c))) (hW2 := (fun (k : Fin 128) (c : Fin 128) => a16 (ix2 k c))) (hb2 := (fun c : Fin 128 => a17 (ix1 c)))
    (fun (n : Fin 50000) (c : Fin 128) => a0 (ix2 n c)) n c

/-- The second result's specification as a function of the argument arrays. -/
abbrev out1Spec (a0 : (⟨S50000x128, .f32⟩ : BufTy).Contents (Elt Ideal)) (a1 : (⟨S50000x3, .f32⟩ : BufTy).Contents (Elt Ideal)) (a2 : (⟨S400000, .i32⟩ : BufTy).Contents (Elt Ideal)) (a3 : (⟨S400000, .i32⟩ : BufTy).Contents (Elt Ideal)) (a4 : (⟨S400000, .f32⟩ : BufTy).Contents (Elt Ideal)) (a5 : (⟨S400000, .f32⟩ : BufTy).Contents (Elt Ideal)) (a6 : (⟨S400000, .f32⟩ : BufTy).Contents (Elt Ideal)) (a7 : (⟨S400000, .f32⟩ : BufTy).Contents (Elt Ideal)) (a8 : (⟨S400000, .f32⟩ : BufTy).Contents (Elt Ideal)) (a9 : (⟨S400000, .f32⟩ : BufTy).Contents (Elt Ideal)) (a10 : (⟨S262x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a18 : (⟨S128x128, .f32⟩ : BufTy).Contents (Elt Ideal)) (a19 : (⟨S128, .f32⟩ : BufTy).Contents (Elt Ideal)) (a20 : (⟨S128x1, .f32⟩ : BufTy).Contents (Elt Ideal)) (a21 : (⟨S1, .f32⟩ : BufTy).Contents (Elt Ideal))
    (n : Fin 50000) (a : Fin 3) : EReal :=
  Cert.Layer.xOut (src := (fun e : Fin 400000 => a2 (ix1 e))) (HS := (fun (e : Fin 400000) (k : Fin 128) => Read.val_main_v6 (F := Ideal) a0 a2 (ix2 e k))) (HD := (fun (e : Fin 400000) (k : Fin 128) => Read.val_main_v13 (F := Ideal) a0 a3 (ix2 e k))) (X6 := (fun e : Fin 400000 => ![a4 (ix1 e) * a4 (ix1 e), a5 (ix1 e), a6 (ix1 e), a7 (ix1 e), a8 (ix1 e), a9 (ix1 e)]))
    (DF := (fun (e : Fin 400000) (a : Fin 3) => Read.val_main_v28 (F := Ideal) a1 a2 a3 (ix2 e a)))
    (W1 := (fun (k : Fin 262) (c : Fin 128) => a10 (ix2 k c))) (b1 := (fun c : Fin 128 => a11 (ix1 c))) (W2 := (fun (k : Fin 128) (c : Fin 128) => a12 (ix2 k c))) (b2 := (fun c : Fin 128 => a13 (ix1 c)))
    (cW1 := (fun (k : Fin 128) (c : Fin 128) => a18 (ix2 k c))) (cb1 := (fun c : Fin 128 => a19 (ix1 c))) (cW2 := (fun k : Fin 128 => a20 (ix2 k (0 : Fin 1)))) (cb2 := (a21 (ix1 (0 : Fin 1))))
    (fun (n : Fin 50000) (a : Fin 3) => a1 (ix2 n a)) n a

/-- The run's term for the first result, read at an index, is `hOut` of the launch contents of the arguments. -/
theorem res_out0_apply (m : (ℓ : Loc nD τ sig) → Buf (Elt Ideal) ℓ) (dv : Dev nD) (n : Fin 50000) (j : Fin 128) :
    Cert.ReferenceIdeal.Value.res_main_v69 (F := Ideal) m dv (ix2 n j)
      = out0Spec (m ((dv.tc : Thread nD τ).loc main_arg0)) (m ((dv.tc : Thread nD τ).loc main_arg2)) (m ((dv.tc : Thread nD τ).loc main_arg3)) (m ((dv.tc : Thread nD τ).loc main_arg4)) (m ((dv.tc : Thread nD τ).loc main_arg5)) (m ((dv.tc : Thread nD τ).loc main_arg6)) (m ((dv.tc : Thread nD τ).loc main_arg7)) (m ((dv.tc : Thread nD τ).loc main_arg8)) (m ((dv.tc : Thread nD τ).loc main_arg9)) (m ((dv.tc : Thread nD τ).loc main_arg10)) (m ((dv.tc : Thread nD τ).loc main_arg11)) (m ((dv.tc : Thread nD τ).loc main_arg12)) (m ((dv.tc : Thread nD τ).loc main_arg13)) (m ((dv.tc : Thread nD τ).loc main_arg14)) (m ((dv.tc : Thread nD τ).loc main_arg15)) (m ((dv.tc : Thread nD τ).loc main_arg16)) (m ((dv.tc : Thread nD τ).loc main_arg17)) n j :=
  (congrFun (Read.val_main_v69_eq (F := Ideal) m dv) (ix2 n j)).trans
    (out0_apply (m ((dv.tc : Thread nD τ).loc main_arg0)) (m ((dv.tc : Thread nD τ).loc main_arg2)) (m ((dv.tc : Thread nD τ).loc main_arg3)) (m ((dv.tc : Thread nD τ).loc main_arg4)) (m ((dv.tc : Thread nD τ).loc main_arg5)) (m ((dv.tc : Thread nD τ).loc main_arg6)) (m ((dv.tc : Thread nD τ).loc main_arg7)) (m ((dv.tc : Thread nD τ).loc main_arg8)) (m ((dv.tc : Thread nD τ).loc main_arg9)) (m ((dv.tc : Thread nD τ).loc main_arg10)) (m ((dv.tc : Thread nD τ).loc main_arg11)) (m ((dv.tc : Thread nD τ).loc main_arg12)) (m ((dv.tc : Thread nD τ).loc main_arg13)) (m ((dv.tc : Thread nD τ).loc main_arg14)) (m ((dv.tc : Thread nD τ).loc main_arg15)) (m ((dv.tc : Thread nD τ).loc main_arg16)) (m ((dv.tc : Thread nD τ).loc main_arg17)) n j)

/-- The run's term for the second result, read at an index, is `xOut` of the launch contents of the arguments. -/
theorem res_out1_apply (m : (ℓ : Loc nD τ sig) → Buf (Elt Ideal) ℓ) (dv : Dev nD) (n : Fin 50000) (j : Fin 3) :
    Cert.ReferenceIdeal.Value.res_main_v87 (F := Ideal) m dv (ix2 n j)
      = out1Spec (m ((dv.tc : Thread nD τ).loc main_arg0)) (m ((dv.tc : Thread nD τ).loc main_arg1)) (m ((dv.tc : Thread nD τ).loc main_arg2)) (m ((dv.tc : Thread nD τ).loc main_arg3)) (m ((dv.tc : Thread nD τ).loc main_arg4)) (m ((dv.tc : Thread nD τ).loc main_arg5)) (m ((dv.tc : Thread nD τ).loc main_arg6)) (m ((dv.tc : Thread nD τ).loc main_arg7)) (m ((dv.tc : Thread nD τ).loc main_arg8)) (m ((dv.tc : Thread nD τ).loc main_arg9)) (m ((dv.tc : Thread nD τ).loc main_arg10)) (m ((dv.tc : Thread nD τ).loc main_arg11)) (m ((dv.tc : Thread nD τ).loc main_arg12)) (m ((dv.tc : Thread nD τ).loc main_arg13)) (m ((dv.tc : Thread nD τ).loc main_arg18)) (m ((dv.tc : Thread nD τ).loc main_arg19)) (m ((dv.tc : Thread nD τ).loc main_arg20)) (m ((dv.tc : Thread nD τ).loc main_arg21)) n j :=
  (congrFun (Read.val_main_v87_eq (F := Ideal) m dv) (ix2 n j)).trans
    (out1_apply (m ((dv.tc : Thread nD τ).loc main_arg0)) (m ((dv.tc : Thread nD τ).loc main_arg1)) (m ((dv.tc : Thread nD τ).loc main_arg2)) (m ((dv.tc : Thread nD τ).loc main_arg3)) (m ((dv.tc : Thread nD τ).loc main_arg4)) (m ((dv.tc : Thread nD τ).loc main_arg5)) (m ((dv.tc : Thread nD τ).loc main_arg6)) (m ((dv.tc : Thread nD τ).loc main_arg7)) (m ((dv.tc : Thread nD τ).loc main_arg8)) (m ((dv.tc : Thread nD τ).loc main_arg9)) (m ((dv.tc : Thread nD τ).loc main_arg10)) (m ((dv.tc : Thread nD τ).loc main_arg11)) (m ((dv.tc : Thread nD τ).loc main_arg12)) (m ((dv.tc : Thread nD τ).loc main_arg13)) (m ((dv.tc : Thread nD τ).loc main_arg18)) (m ((dv.tc : Thread nD τ).loc main_arg19)) (m ((dv.tc : Thread nD τ).loc main_arg20)) (m ((dv.tc : Thread nD τ).loc main_arg21)) n j)

end Cert.ReferenceIdeal.RefValue

end
-- ==== Proof.Bridge.lean ====
/-
  The two programs gather the same rows: each normalises an index array the same way (a negative index has the row
  count 50000 added), spreads it to one column, and gathers along the rows. The programs spell their shapes, side
  facts and gather records separately, but the shapes are the same literals and the records have equal fields, so
  the kernel program's gathered arrays are the reference program's, as whole arrays and index by index.
-/
import proofs.«431152_j56135222559302_3_alg».proof.Proof.Gen.KernelIdeal
import proofs.«431152_j56135222559302_3_alg».proof.Proof.Gen.ReferenceIdeal.Read
import Idealize.ShloMosaic.Lib.ValueIdx

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

/-- The row indices a gather reads: a negative index has the row count added; as a one-column index array. -/
def nidx (s : IVec S400000 32) : IVec S400000x1 32 :=
  broadcastInDim S400000x1 ![0] bcast_S400000_S400000x1_0 (select (cmpi .slt s (broadcastInDim S400000 ![] bcast_S_S400000 (constantI S_ 32 0#32))) (addi s (broadcastInDim S400000 ![] bcast_S_S400000 (constantI S_ 32 50000#32))) s)

/-- The normalised one-column index array is the reference program's, for its source indices. -/
theorem nidx_eq_v5 {F : FTy → Type} [FloatOps F] (s : IVec S400000 32) :
    nidx s = Cert.ReferenceIdeal.Read.val_main_v5 (F := F) s := rfl

/-- The same for the reference program's destination indices (a second copy of the same operations). -/
theorem nidx_eq_v12 {F : FTy → Type} [FloatOps F] (s : IVec S400000 32) :
    nidx s = Cert.ReferenceIdeal.Read.val_main_v12 (F := F) s := rfl

/-- The same for the two copies the coordinate gathers read. -/
theorem nidx_eq_v19 {F : FTy → Type} [FloatOps F] (s : IVec S400000 32) :
    nidx s = Cert.ReferenceIdeal.Read.val_main_v19 (F := F) s := rfl

theorem nidx_eq_v26 {F : FTy → Type} [FloatOps F] (s : IVec S400000 32) :
    nidx s = Cert.ReferenceIdeal.Read.val_main_v26 (F := F) s := rfl

/-- The gathered source feature rows. -/
theorem gather_h (a0 : FVec Ideal S50000x128 .f32) (s : IVec S400000 32) :
    Host.gather gather_S50000x128_S400000x1_S400000x128_1_0_n_n_0_1_1128 a0 (nidx s) = Cert.ReferenceIdeal.Read.val_main_v6 (F := Ideal) a0 s :=
  (congrArg (fun i : IVec S400000x1 32 => Host.gather gather_S50000x128_S400000x1_S400000x128_1_0_n_n_0_1_1128 a0 i) (nidx_eq_v5 (F := Ideal) s)).trans rfl

/-- The gathered destination feature rows. -/
theorem gather_h' (a0 : FVec Ideal S50000x128 .f32) (s : IVec S400000 32) :
    Host.gather gather_S50000x128_S400000x1_S400000x128_1_0_n_n_0_1_1128 a0 (nidx s) = Cert.ReferenceIdeal.Read.val_main_v13 (F := Ideal) a0 s :=
  (congrArg (fun i : IVec S400000x1 32 => Host.gather gather_S50000x128_S400000x1_S400000x128_1_0_n_n_0_1_1128 a0 i) (nidx_eq_v12 (F := Ideal) s)).trans rfl

/-- The coordinate differences: source coordinates less destination coordinates. -/
theorem gather_dx (a1 : FVec Ideal S50000x3 .f32) (s s' : IVec S400000 32) :
    subf (Host.gather gather_S50000x3_S400000x1_S400000x3_1_0_n_n_0_1_13 a1 (nidx s) : FVec Ideal S400000x3 .f32) (Host.gather gather_S50000x3_S400000x1_S400000x3_1_0_n_n_0_1_13 a1 (nidx s'))
      = Cert.ReferenceIdeal.Read.val_main_v28 (F := Ideal) a1 s s' :=
  (congrArg₂ (fun i i' : IVec S400000x1 32 =>
      subf (Host.gather gather_S50000x3_S400000x1_S400000x3_1_0_n_n_0_1_13 a1 i : FVec Ideal S400000x3 .f32) (Host.gather gather_S50000x3_S400000x1_S400000x3_1_0_n_n_0_1_13 a1 i'))
    (nidx_eq_v19 (F := Ideal) s) (nidx_eq_v26 (F := Ideal) s')).trans rfl

/-! ## Index by index -/

theorem gather_h_apply (a0 : FVec Ideal S50000x128 .f32) (s : IVec S400000 32) (e : Fin 400000) (k : Fin 128) :
    Host.gather gather_S50000x128_S400000x1_S400000x128_1_0_n_n_0_1_1128 a0 (nidx s) (ix2 e k) = Cert.ReferenceIdeal.Read.val_main_v6 (F := Ideal) a0 s (ix2 e k) :=
  congrFun (gather_h a0 s) (ix2 e k)

theorem gather_h'_apply (a0 : FVec Ideal S50000x128 .f32) (s : IVec S400000 32) (e : Fin 400000) (k : Fin 128) :
    Host.gather gather_S50000x128_S400000x1_S400000x128_1_0_n_n_0_1_1128 a0 (nidx s) (ix2 e k) = Cert.ReferenceIdeal.Read.val_main_v13 (F := Ideal) a0 s (ix2 e k) :=
  congrFun (gather_h' a0 s) (ix2 e k)

theorem gather_dx_apply (a1 : FVec Ideal S50000x3 .f32) (s s' : IVec S400000 32) (e : Fin 400000) (a : Fin 3) :
    subf (Host.gather gather_S50000x3_S400000x1_S400000x3_1_0_n_n_0_1_13 a1 (nidx s) : FVec Ideal S400000x3 .f32) (Host.gather gather_S50000x3_S400000x1_S400000x3_1_0_n_n_0_1_13 a1 (nidx s')) (ix2 e a)
      = Cert.ReferenceIdeal.Read.val_main_v28 (F := Ideal) a1 s s' (ix2 e a) :=
  congrFun (gather_dx a1 s s') (ix2 e a)

end Cert.Bridge

end
-- ==== Proof.Joined.lean ====
/-
  The two idealized programs compute one function. From memories that agree on the arguments, the reference's
  first result and the kernel program's first result are both `hOut` of the same argument arrays — the gathered
  feature rows are the same gathers on both sides (the kernel's copy of `h` in a narrower float format is `h` at the
  extended reals) — and the second results are both `xOut`. So the result arrays are equal, index by index.
-/
import proofs.«431152_j56135222559302_3_alg».proof.Proof.KernelValue
import proofs.«431152_j56135222559302_3_alg».proof.Proof.RefValue
import proofs.«431152_j56135222559302_3_alg».proof.Proof.Bridge

set_option maxRecDepth 16384

noncomputable section

namespace Cert.Joined

open Idealize.ShloMosaic Idealize.ShloMosaic.TcCoe Idealize.SL.Sem Idealize.ShloMosaic.ValueIdx
open Cert.KernelIdeal.HostValues Cert.KernelIdeal.EdgeOfArgs Cert.KernelIdeal.Whole

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same argument arrays on core `c`. -/
def Agree : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

/-- The kernel program's gathered source rows are the reference's. -/
theorem HS_eq : HS m c = fun e k => Cert.ReferenceIdeal.Read.val_main_v6 (F := Ideal) (a0 m c) (a2 m c) (ix2 e k) :=
  funext fun e => funext fun k => (congrFun (in_v7 m c) _).trans (Cert.Bridge.gather_h_apply (a0 m c) (a2 m c) e k)

/-- The kernel program's gathered destination rows are the reference's. -/
theorem HD_eq : HD m c = fun e k => Cert.ReferenceIdeal.Read.val_main_v13 (F := Ideal) (a0 m c) (a3 m c) (ix2 e k) :=
  funext fun e => funext fun k => (congrFun (in_v14 m c) _).trans (Cert.Bridge.gather_h'_apply (a0 m c) (a3 m c) e k)

/-- The kernel program's coordinate differences are the reference's. -/
theorem DF_eq : DF m c = fun e a => Cert.ReferenceIdeal.Read.val_main_v28 (F := Ideal) (a1 m c) (a2 m c) (a3 m c) (ix2 e a) :=
  funext fun e => funext fun a => (congrFun (in_v29 m c) _).trans (Cert.Bridge.gather_dx_apply (a1 m c) (a2 m c) (a3 m c) e a)

/-- The first results agree. -/
theorem out0_eq (h : Agree m m' c) :
    Cert.ReferenceIdeal.Value.res_main_v69 (F := Ideal) m' c = (dat1 (Vin1 m) c).arrAt 9 Cert.KernelIdeal.cfg1.N := by
  funext i
  obtain ⟨n, q, rfl⟩ : ∃ (n : Fin 50000) (q : Fin 128), i = ix2 n q := ⟨i 0, i 1, eq_ix2 i⟩
  refine (Cert.ReferenceIdeal.RefValue.res_out0_apply m' c n q).trans ?_
  refine Eq.trans ?_ (Cert.KernelIdeal.KernelValue.kernel_out0 m c n q).symm
  obtain ⟨h0, h1, h2, h3, h4, h5, h6, h7, h8, h9, h10, h11, h12, h13, h14, h15, h16, h17, h18, h19, h20, h21⟩ := h
  rw [HS_eq, HD_eq, h0, h2, h3, h4, h5, h6, h7, h8, h9, h10, h11, h12, h13, h14, h15, h16, h17]
  rfl

/-- The second results agree. -/
theorem out1_eq (h : Agree m m' c) :
    Cert.ReferenceIdeal.Value.res_main_v87 (F := Ideal) m' c = (dat1 (Vin1 m) c).arrAt 10 Cert.KernelIdeal.cfg1.N := by
  funext i
  obtain ⟨n, a, rfl⟩ : ∃ (n : Fin 50000) (a : Fin 3), i = ix2 n a := ⟨i 0, i 1, eq_ix2 i⟩
  refine (Cert.ReferenceIdeal.RefValue.res_out1_apply m' c n a).trans ?_
  refine Eq.trans ?_ (Cert.KernelIdeal.KernelValue.kernel_out1 m c n a).symm
  obtain ⟨h0, h1, h2, h3, h4, h5, h6, h7, h8, h9, h10, h11, h12, h13, h14, h15, h16, h17, h18, h19, h20, h21⟩ := h
  rw [HS_eq, HD_eq, DF_eq, h0, h1, h2, h3, h4, h5, h6, h7, h8, h9, h10, h11, h12, h13, h18, h19, h20, h21]
  rfl

end Cert.Joined

end
-- ==== Proof.lean ====
/-
  The certificate's five claims.

  The two kernel programs (the word-level one and its idealization, the same printed text) run as host operations,
  the edge region, host operations, the node region; every execution terminates without a fault and ends with every
  buffer at a fold of the launch memory through those four steps, in which no step writes an argument: the two
  frames. The reference is a straight line of host operations; its run, read back, gives its frame. Nothing was
  rewritten when the kernel was idealized, so there is nothing to preserve. At the extended reals both idealized
  programs end with node `n`'s features at `h n` plus the node network of `[h n | mean message of n's edges]` and
  its coordinates at `x n` plus the mean scaled coordinate difference of its edges — sums over the edges whose source
  is `n`, which the kernel takes from one scatter-add over the joined columns and the reference from three; a message
  is two dense layers with `x · σ(x)` of the edge's feature row, whose 262-term dot product the kernel computes as
  a 256-term and a 6-term one. No law used needs a finite input: the precondition is never opened.
-/
import proofs.«431152_j56135222559302_3_alg».proof.Defs
import proofs.«431152_j56135222559302_3_alg».proof.Proof.Gen.Kernel
import proofs.«431152_j56135222559302_3_alg».proof.Proof.Gen.KernelIdeal
import proofs.«431152_j56135222559302_3_alg».proof.Proof.Gen.ReferenceIdeal
import proofs.«431152_j56135222559302_3_alg».proof.Proof.Gen.Pre_finite_inputs
import proofs.«431152_j56135222559302_3_alg».proof.Proof.Gen.ReferenceIdeal.Run
import proofs.«431152_j56135222559302_3_alg».proof.Proof.Gen.ReferenceIdeal.Read
import proofs.«431152_j56135222559302_3_alg».proof.Proof.WholeRunBits
import proofs.«431152_j56135222559302_3_alg».proof.Proof.WholeRunIdeal
import proofs.«431152_j56135222559302_3_alg».proof.Proof.Joined
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Whole.frame m ρ

/-- So does its idealization. -/
theorem frame_ki : Cert.frame_KernelIdeal := fun m ρ _ => Cert.KernelIdeal.Whole.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The two idealized programs end with equal results. -/
theorem algebraic : Cert.algebraic_KernelIdeal_ReferenceIdeal := by
  intro m ρ m' ρ' _ hagree
  refine ⟨fun c => (Cert.KernelIdeal.Whole.dat1 (Cert.KernelIdeal.Whole.Vin1 m) c).arrAt 9 Cert.KernelIdeal.cfg1.N,
    fun c => (Cert.KernelIdeal.Whole.dat1 (Cert.KernelIdeal.Whole.Vin1 m) c).arrAt 10 Cert.KernelIdeal.cfg1.N,
    Cert.KernelIdeal.Whole.run_results m ρ, ?_⟩
  exact (θ_run Cert.ReferenceIdeal.defs _ _).mono
    (fun _ h c => ⟨(h c).1.trans (Cert.Joined.out0_eq m m' c (hagree c)), (h c).2.1.trans (Cert.Joined.out1_eq m m' c (hagree c)), (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
